-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![256]⟩ ⟨1, ![8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256 : Shape := ⟨1, ![256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S512x256 .f32) (main_arg1 : FVec F S256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Pre_finite_inputs_ReferenceIdeal.lean ====
abbrev S512x8192 : Shape := ⟨2, ![512, 8192]⟩
abbrev S8192 : Shape := ⟨1, ![8192]⟩
abbrev S_ : Shape := ⟨0, ![]⟩

class Facts : Prop where
  bcast_S_S512x8192 : S_.BroadcastsInDim S512x8192 (![] : Fin 0 → Fin S512x8192.rank)
  reducesTo_S512x8192_S_d0_1 : S512x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S512x8192 .f32) (main_arg1 : FVec F S8192 .f32) : IVec S_ 1 :=
  let main_v0 : FVec F S512x8192 .f32 := Host.absf main_arg0
  let main_cst : FVec F S_ .f32 := constant S_ .f32 0x7F800000#32
  let main_v1 : FVec F S512x8192 .f32 := broadcastInDim S512x8192 ![] bcast_S_S512x8192 main_cst
  let main_v2 : IVec S512x8192 1 := cmpf .olt main_v0 main_v1
  let main_c : IVec S_ 1 := constantI S_ 1 1#1
  let main_v3 : IVec S_ 1 := (fun x v => Host.reduce IntOp.andi x v reducesTo_S512x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S512x256 : Shape := ⟨2, ![512, 256]⟩
abbrev S256 : Shape := ⟨1, ![256]⟩
abbrev S1x512 : Shape := ⟨2, ![1, 512]⟩
abbrev S31x512 : Shape := ⟨2, ![31, 512]⟩
abbrev S31 : Shape := ⟨1, ![31]⟩
abbrev S_ : Shape := ⟨0, ![]⟩
abbrev S512 : Shape := ⟨1, ![512]⟩
abbrev S1 : Shape := ⟨1, ![1]⟩
abbrev S1x256 : Shape := ⟨2, ![1, 256]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256, .f32⟩
  | .hbm, ⟨2, _⟩ => ⟨S512x256, .f32⟩
  | .local _ .vmem, ⟨0, _⟩ => ⟨S512x256, .f32⟩
  | .local _ .vmem, ⟨1, _⟩ => ⟨S256, .f32⟩
  | .local _ .vmem, ⟨2, _⟩ => ⟨S512x256, .f32⟩
  | .local _ .vmem, ⟨3, _⟩ => ⟨S1x512, .f32⟩
  | .local _ .vmem, ⟨4, _⟩ => ⟨S31x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_dev32 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_283 : BitVec 32 := 1#32
  let v414 : BitVec 32 := Scalar.addi v2 c1_i32_283
  let c32_i32_284 : BitVec 32 := 32#32
  let c0_i32_285 : BitVec 32 := 0#32
  let v415 : BitVec 1 := Scalar.cmpi .eq c32_i32_284 c0_i32_285
  let c1_i32_286 : BitVec 32 := 1#32
  let v416 : BitVec 32 := Scalar.select v415 c1_i32_286 c32_i32_284
  let v417 : BitVec 32 := Scalar.remsi v414 v416
  let c0_i32_288 : BitVec 32 := 0#32
  let v419 : BitVec 1 := Scalar.cmpi .slt v417 c0_i32_288
  let c0_i32_289 : BitVec 32 := 0#32
  let v420 : BitVec 1 := Scalar.cmpi .slt v416 c0_i32_289
  let v421 : BitVec 1 := Scalar.xori v419 v420
  let c0_i32_287 : BitVec 32 := 0#32
  let v418 : BitVec 1 := Scalar.cmpi .ne v417 c0_i32_287
  let v422 : BitVec 1 := Scalar.andi v421 v418
  let v423 : BitVec 32 := Scalar.addi v417 v416
  let v424 : BitVec 32 := Scalar.select v422 v423 v417
  let c1_i32_292 : BitVec 32 := 1#32
  let v425 : BitVec 32 := Scalar.muli v424 c1_i32_292
  let v426 : BitVec 32 := Scalar.addi c0_i32_293 v425
  v426.toNat
def k0_dev33 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_296 : BitVec 32 := 2#32
  let v432 : BitVec 32 := Scalar.addi v2 c2_i32_296
  let c32_i32_297 : BitVec 32 := 32#32
  let c0_i32_298 : BitVec 32 := 0#32
  let v433 : BitVec 1 := Scalar.cmpi .eq c32_i32_297 c0_i32_298
  let c1_i32_299 : BitVec 32 := 1#32
  let v434 : BitVec 32 := Scalar.select v433 c1_i32_299 c32_i32_297
  let v435 : BitVec 32 := Scalar.remsi v432 v434
  let c0_i32_301 : BitVec 32 := 0#32
  let v437 : BitVec 1 := Scalar.cmpi .slt v435 c0_i32_301
  let c0_i32_302 : BitVec 32 := 0#32
  let v438 : BitVec 1 := Scalar.cmpi .slt v434 c0_i32_302
  let v439 : BitVec 1 := Scalar.xori v437 v438
  let c0_i32_300 : BitVec 32 := 0#32
  let v436 : BitVec 1 := Scalar.cmpi .ne v435 c0_i32_300
  let v440 : BitVec 1 := Scalar.andi v439 v436
  let v441 : BitVec 32 := Scalar.addi v435 v434
  let v442 : BitVec 32 := Scalar.select v440 v441 v435
  let c1_i32_305 : BitVec 32 := 1#32
  let v443 : BitVec 32 := Scalar.muli v442 c1_i32_305
  let v444 : BitVec 32 := Scalar.addi c0_i32_306 v443
  v444.toNat
def k0_dev34 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_309 : BitVec 32 := 3#32
  let v450 : BitVec 32 := Scalar.addi v2 c3_i32_309
  let c32_i32_310 : BitVec 32 := 32#32
  let c0_i32_311 : BitVec 32 := 0#32
  let v451 : BitVec 1 := Scalar.cmpi .eq c32_i32_310 c0_i32_311
  let c1_i32_312 : BitVec 32 := 1#32
  let v452 : BitVec 32 := Scalar.select v451 c1_i32_312 c32_i32_310
  let v453 : BitVec 32 := Scalar.remsi v450 v452
  let c0_i32_314 : BitVec 32 := 0#32
  let v455 : BitVec 1 := Scalar.cmpi .slt v453 c0_i32_314
  let c0_i32_315 : BitVec 32 := 0#32
  let v456 : BitVec 1 := Scalar.cmpi .slt v452 c0_i32_315
  let v457 : BitVec 1 := Scalar.xori v455 v456
  let c0_i32_313 : BitVec 32 := 0#32
  let v454 : BitVec 1 := Scalar.cmpi .ne v453 c0_i32_313
  let v458 : BitVec 1 := Scalar.andi v457 v454
  let v459 : BitVec 32 := Scalar.addi v453 v452
  let v460 : BitVec 32 := Scalar.select v458 v459 v453
  let c1_i32_318 : BitVec 32 := 1#32
  let v461 : BitVec 32 := Scalar.muli v460 c1_i32_318
  let v462 : BitVec 32 := Scalar.addi c0_i32_319 v461
  v462.toNat
def k0_dev35 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_322 : BitVec 32 := 4#32
  let v468 : BitVec 32 := Scalar.addi v2 c4_i32_322
  let c32_i32_323 : BitVec 32 := 32#32
  let c0_i32_324 : BitVec 32 := 0#32
  let v469 : BitVec 1 := Scalar.cmpi .eq c32_i32_323 c0_i32_324
  let c1_i32_325 : BitVec 32 := 1#32
  let v470 : BitVec 32 := Scalar.select v469 c1_i32_325 c32_i32_323
  let v471 : BitVec 32 := Scalar.remsi v468 v470
  let c0_i32_327 : BitVec 32 := 0#32
  let v473 : BitVec 1 := Scalar.cmpi .slt v471 c0_i32_327
  let c0_i32_328 : BitVec 32 := 0#32
  let v474 : BitVec 1 := Scalar.cmpi .slt v470 c0_i32_328
  let v475 : BitVec 1 := Scalar.xori v473 v474
  let c0_i32_326 : BitVec 32 := 0#32
  let v472 : BitVec 1 := Scalar.cmpi .ne v471 c0_i32_326
  let v476 : BitVec 1 := Scalar.andi v475 v472
  let v477 : BitVec 32 := Scalar.addi v471 v470
  let v478 : BitVec 32 := Scalar.select v476 v477 v471
  let c1_i32_331 : BitVec 32 := 1#32
  let v479 : BitVec 32 := Scalar.muli v478 c1_i32_331
  let v480 : BitVec 32 := Scalar.addi c0_i32_332 v479
  v480.toNat
def k0_dev36 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_335 : BitVec 32 := 5#32
  let v486 : BitVec 32 := Scalar.addi v2 c5_i32_335
  let c32_i32_336 : BitVec 32 := 32#32
  let c0_i32_337 : BitVec 32 := 0#32
  let v487 : BitVec 1 := Scalar.cmpi .eq c32_i32_336 c0_i32_337
  let c1_i32_338 : BitVec 32 := 1#32
  let v488 : BitVec 32 := Scalar.select v487 c1_i32_338 c32_i32_336
  let v489 : BitVec 32 := Scalar.remsi v486 v488
  let c0_i32_340 : BitVec 32 := 0#32
  let v491 : BitVec 1 := Scalar.cmpi .slt v489 c0_i32_340
  let c0_i32_341 : BitVec 32 := 0#32
  let v492 : BitVec 1 := Scalar.cmpi .slt v488 c0_i32_341
  let v493 : BitVec 1 := Scalar.xori v491 v492
  let c0_i32_339 : BitVec 32 := 0#32
  let v490 : BitVec 1 := Scalar.cmpi .ne v489 c0_i32_339
  let v494 : BitVec 1 := Scalar.andi v493 v490
  let v495 : BitVec 32 := Scalar.addi v489 v488
  let v496 : BitVec 32 := Scalar.select v494 v495 v489
  let c1_i32_344 : BitVec 32 := 1#32
  let v497 : BitVec 32 := Scalar.muli v496 c1_i32_344
  let v498 : BitVec 32 := Scalar.addi c0_i32_345 v497
  v498.toNat
def k0_dev37 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_348 : BitVec 32 := 6#32
  let v504 : BitVec 32 := Scalar.addi v2 c6_i32_348
  let c32_i32_349 : BitVec 32 := 32#32
  let c0_i32_350 : BitVec 32 := 0#32
  let v505 : BitVec 1 := Scalar.cmpi .eq c32_i32_349 c0_i32_350
  let c1_i32_351 : BitVec 32 := 1#32
  let v506 : BitVec 32 := Scalar.select v505 c1_i32_351 c32_i32_349
  let v507 : BitVec 32 := Scalar.remsi v504 v506
  let c0_i32_353 : BitVec 32 := 0#32
  let v509 : BitVec 1 := Scalar.cmpi .slt v507 c0_i32_353
  let c0_i32_354 : BitVec 32 := 0#32
  let v510 : BitVec 1 := Scalar.cmpi .slt v506 c0_i32_354
  let v511 : BitVec 1 := Scalar.xori v509 v510
  let c0_i32_352 : BitVec 32 := 0#32
  let v508 : BitVec 1 := Scalar.cmpi .ne v507 c0_i32_352
  let v512 : BitVec 1 := Scalar.andi v511 v508
  let v513 : BitVec 32 := Scalar.addi v507 v506
  let v514 : BitVec 32 := Scalar.select v512 v513 v507
  let c1_i32_357 : BitVec 32 := 1#32
  let v515 : BitVec 32 := Scalar.muli v514 c1_i32_357
  let v516 : BitVec 32 := Scalar.addi c0_i32_358 v515
  v516.toNat
def k0_dev38 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_361 : BitVec 32 := 7#32
  let v522 : BitVec 32 := Scalar.addi v2 c7_i32_361
  let c32_i32_362 : BitVec 32 := 32#32
  let c0_i32_363 : BitVec 32 := 0#32
  let v523 : BitVec 1 := Scalar.cmpi .eq c32_i32_362 c0_i32_363
  let c1_i32_364 : BitVec 32 := 1#32
  let v524 : BitVec 32 := Scalar.select v523 c1_i32_364 c32_i32_362
  let v525 : BitVec 32 := Scalar.remsi v522 v524
  let c0_i32_366 : BitVec 32 := 0#32
  let v527 : BitVec 1 := Scalar.cmpi .slt v525 c0_i32_366
  let c0_i32_367 : BitVec 32 := 0#32
  let v528 : BitVec 1 := Scalar.cmpi .slt v524 c0_i32_367
  let v529 : BitVec 1 := Scalar.xori v527 v528
  let c0_i32_365 : BitVec 32 := 0#32
  let v526 : BitVec 1 := Scalar.cmpi .ne v525 c0_i32_365
  let v530 : BitVec 1 := Scalar.andi v529 v526
  let v531 : BitVec 32 := Scalar.addi v525 v524
  let v532 : BitVec 32 := Scalar.select v530 v531 v525
  let c1_i32_370 : BitVec 32 := 1#32
  let v533 : BitVec 32 := Scalar.muli v532 c1_i32_370
  let v534 : BitVec 32 := Scalar.addi c0_i32_371 v533
  v534.toNat
def k0_dev39 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_374 : BitVec 32 := 8#32
  let v540 : BitVec 32 := Scalar.addi v2 c8_i32_374
  let c32_i32_375 : BitVec 32 := 32#32
  let c0_i32_376 : BitVec 32 := 0#32
  let v541 : BitVec 1 := Scalar.cmpi .eq c32_i32_375 c0_i32_376
  let c1_i32_377 : BitVec 32 := 1#32
  let v542 : BitVec 32 := Scalar.select v541 c1_i32_377 c32_i32_375
  let v543 : BitVec 32 := Scalar.remsi v540 v542
  let c0_i32_379 : BitVec 32 := 0#32
  let v545 : BitVec 1 := Scalar.cmpi .slt v543 c0_i32_379
  let c0_i32_380 : BitVec 32 := 0#32
  let v546 : BitVec 1 := Scalar.cmpi .slt v542 c0_i32_380
  let v547 : BitVec 1 := Scalar.xori v545 v546
  let c0_i32_378 : BitVec 32 := 0#32
  let v544 : BitVec 1 := Scalar.cmpi .ne v543 c0_i32_378
  let v548 : BitVec 1 := Scalar.andi v547 v544
  let v549 : BitVec 32 := Scalar.addi v543 v542
  let v550 : BitVec 32 := Scalar.select v548 v549 v543
  let c1_i32_383 : BitVec 32 := 1#32
  let v551 : BitVec 32 := Scalar.muli v550 c1_i32_383
  let v552 : BitVec 32 := Scalar.addi c0_i32_384 v551
  v552.toNat
def k0_dev40 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_387 : BitVec 32 := 9#32
  let v558 : BitVec 32 := Scalar.addi v2 c9_i32_387
  let c32_i32_388 : BitVec 32 := 32#32
  let c0_i32_389 : BitVec 32 := 0#32
  let v559 : BitVec 1 := Scalar.cmpi .eq c32_i32_388 c0_i32_389
  let c1_i32_390 : BitVec 32 := 1#32
  let v560 : BitVec 32 := Scalar.select v559 c1_i32_390 c32_i32_388
  let v561 : BitVec 32 := Scalar.remsi v558 v560
  let c0_i32_392 : BitVec 32 := 0#32
  let v563 : BitVec 1 := Scalar.cmpi .slt v561 c0_i32_392
  let c0_i32_393 : BitVec 32 := 0#32
  let v564 : BitVec 1 := Scalar.cmpi .slt v560 c0_i32_393
  let v565 : BitVec 1 := Scalar.xori v563 v564
  let c0_i32_391 : BitVec 32 := 0#32
  let v562 : BitVec 1 := Scalar.cmpi .ne v561 c0_i32_391
  let v566 : BitVec 1 := Scalar.andi v565 v562
  let v567 : BitVec 32 := Scalar.addi v561 v560
  let v568 : BitVec 32 := Scalar.select v566 v567 v561
  let c1_i32_396 : BitVec 32 := 1#32
  let v569 : BitVec 32 := Scalar.muli v568 c1_i32_396
  let v570 : BitVec 32 := Scalar.addi c0_i32_397 v569
  v570.toNat
def k0_dev41 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_400 : BitVec 32 := 10#32
  let v576 : BitVec 32 := Scalar.addi v2 c10_i32_400
  let c32_i32_401 : BitVec 32 := 32#32
  let c0_i32_402 : BitVec 32 := 0#32
  let v577 : BitVec 1 := Scalar.cmpi .eq c32_i32_401 c0_i32_402
  let c1_i32_403 : BitVec 32 := 1#32
  let v578 : BitVec 32 := Scalar.select v577 c1_i32_403 c32_i32_401
  let v579 : BitVec 32 := Scalar.remsi v576 v578
  let c0_i32_405 : BitVec 32 := 0#32
  let v581 : BitVec 1 := Scalar.cmpi .slt v579 c0_i32_405
  let c0_i32_406 : BitVec 32 := 0#32
  let v582 : BitVec 1 := Scalar.cmpi .slt v578 c0_i32_406
  let v583 : BitVec 1 := Scalar.xori v581 v582
  let c0_i32_404 : BitVec 32 := 0#32
  let v580 : BitVec 1 := Scalar.cmpi .ne v579 c0_i32_404
  let v584 : BitVec 1 := Scalar.andi v583 v580
  let v585 : BitVec 32 := Scalar.addi v579 v578
  let v586 : BitVec 32 := Scalar.select v584 v585 v579
  let c1_i32_409 : BitVec 32 := 1#32
  let v587 : BitVec 32 := Scalar.muli v586 c1_i32_409
  let v588 : BitVec 32 := Scalar.addi c0_i32_410 v587
  v588.toNat
def k0_dev42 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_413 : BitVec 32 := 11#32
  let v594 : BitVec 32 := Scalar.addi v2 c11_i32_413
  let c32_i32_414 : BitVec 32 := 32#32
  let c0_i32_415 : BitVec 32 := 0#32
  let v595 : BitVec 1 := Scalar.cmpi .eq c32_i32_414 c0_i32_415
  let c1_i32_416 : BitVec 32 := 1#32
  let v596 : BitVec 32 := Scalar.select v595 c1_i32_416 c32_i32_414
  let v597 : BitVec 32 := Scalar.remsi v594 v596
  let c0_i32_418 : BitVec 32 := 0#32
  let v599 : BitVec 1 := Scalar.cmpi .slt v597 c0_i32_418
  let c0_i32_419 : BitVec 32 := 0#32
  let v600 : BitVec 1 := Scalar.cmpi .slt v596 c0_i32_419
  let v601 : BitVec 1 := Scalar.xori v599 v600
  let c0_i32_417 : BitVec 32 := 0#32
  let v598 : BitVec 1 := Scalar.cmpi .ne v597 c0_i32_417
  let v602 : BitVec 1 := Scalar.andi v601 v598
  let v603 : BitVec 32 := Scalar.addi v597 v596
  let v604 : BitVec 32 := Scalar.select v602 v603 v597
  let c1_i32_422 : BitVec 32 := 1#32
  let v605 : BitVec 32 := Scalar.muli v604 c1_i32_422
  let v606 : BitVec 32 := Scalar.addi c0_i32_423 v605
  v606.toNat
def k0_dev43 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_426 : BitVec 32 := 12#32
  let v612 : BitVec 32 := Scalar.addi v2 c12_i32_426
  let c32_i32_427 : BitVec 32 := 32#32
  let c0_i32_428 : BitVec 32 := 0#32
  let v613 : BitVec 1 := Scalar.cmpi .eq c32_i32_427 c0_i32_428
  let c1_i32_429 : BitVec 32 := 1#32
  let v614 : BitVec 32 := Scalar.select v613 c1_i32_429 c32_i32_427
  let v615 : BitVec 32 := Scalar.remsi v612 v614
  let c0_i32_431 : BitVec 32 := 0#32
  let v617 : BitVec 1 := Scalar.cmpi .slt v615 c0_i32_431
  let c0_i32_432 : BitVec 32 := 0#32
  let v618 : BitVec 1 := Scalar.cmpi .slt v614 c0_i32_432
  let v619 : BitVec 1 := Scalar.xori v617 v618
  let c0_i32_430 : BitVec 32 := 0#32
  let v616 : BitVec 1 := Scalar.cmpi .ne v615 c0_i32_430
  let v620 : BitVec 1 := Scalar.andi v619 v616
  let v621 : BitVec 32 := Scalar.addi v615 v614
  let v622 : BitVec 32 := Scalar.select v620 v621 v615
  let c1_i32_435 : BitVec 32 := 1#32
  let v623 : BitVec 32 := Scalar.muli v622 c1_i32_435
  let v624 : BitVec 32 := Scalar.addi c0_i32_436 v623
  v624.toNat
def k0_dev44 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_439 : BitVec 32 := 13#32
  let v630 : BitVec 32 := Scalar.addi v2 c13_i32_439
  let c32_i32_440 : BitVec 32 := 32#32
  let c0_i32_441 : BitVec 32 := 0#32
  let v631 : BitVec 1 := Scalar.cmpi .eq c32_i32_440 c0_i32_441
  let c1_i32_442 : BitVec 32 := 1#32
  let v632 : BitVec 32 := Scalar.select v631 c1_i32_442 c32_i32_440
  let v633 : BitVec 32 := Scalar.remsi v630 v632
  let c0_i32_444 : BitVec 32 := 0#32
  let v635 : BitVec 1 := Scalar.cmpi .slt v633 c0_i32_444
  let c0_i32_445 : BitVec 32 := 0#32
  let v636 : BitVec 1 := Scalar.cmpi .slt v632 c0_i32_445
  let v637 : BitVec 1 := Scalar.xori v635 v636
  let c0_i32_443 : BitVec 32 := 0#32
  let v634 : BitVec 1 := Scalar.cmpi .ne v633 c0_i32_443
  let v638 : BitVec 1 := Scalar.andi v637 v634
  let v639 : BitVec 32 := Scalar.addi v633 v632
  let v640 : BitVec 32 := Scalar.select v638 v639 v633
  let c1_i32_448 : BitVec 32 := 1#32
  let v641 : BitVec 32 := Scalar.muli v640 c1_i32_448
  let v642 : BitVec 32 := Scalar.addi c0_i32_449 v641
  v642.toNat
def k0_dev45 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_452 : BitVec 32 := 14#32
  let v648 : BitVec 32 := Scalar.addi v2 c14_i32_452
  let c32_i32_453 : BitVec 32 := 32#32
  let c0_i32_454 : BitVec 32 := 0#32
  let v649 : BitVec 1 := Scalar.cmpi .eq c32_i32_453 c0_i32_454
  let c1_i32_455 : BitVec 32 := 1#32
  let v650 : BitVec 32 := Scalar.select v649 c1_i32_455 c32_i32_453
  let v651 : BitVec 32 := Scalar.remsi v648 v650
  let c0_i32_457 : BitVec 32 := 0#32
  let v653 : BitVec 1 := Scalar.cmpi .slt v651 c0_i32_457
  let c0_i32_458 : BitVec 32 := 0#32
  let v654 : BitVec 1 := Scalar.cmpi .slt v650 c0_i32_458
  let v655 : BitVec 1 := Scalar.xori v653 v654
  let c0_i32_456 : BitVec 32 := 0#32
  let v652 : BitVec 1 := Scalar.cmpi .ne v651 c0_i32_456
  let v656 : BitVec 1 := Scalar.andi v655 v652
  let v657 : BitVec 32 := Scalar.addi v651 v650
  let v658 : BitVec 32 := Scalar.select v656 v657 v651
  let c1_i32_461 : BitVec 32 := 1#32
  let v659 : BitVec 32 := Scalar.muli v658 c1_i32_461
  let v660 : BitVec 32 := Scalar.addi c0_i32_462 v659
  v660.toNat
def k0_dev46 (d0 : Dev nD) : Nat :=
  let c0_i32_475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_465 : BitVec 32 := 15#32
  let v666 : BitVec 32 := Scalar.addi v2 c15_i32_465
  let c32_i32_466 : BitVec 32 := 32#32
  let c0_i32_467 : BitVec 32 := 0#32
  let v667 : BitVec 1 := Scalar.cmpi .eq c32_i32_466 c0_i32_467
  let c1_i32_468 : BitVec 32 := 1#32
  let v668 : BitVec 32 := Scalar.select v667 c1_i32_468 c32_i32_466
  let v669 : BitVec 32 := Scalar.remsi v666 v668
  let c0_i32_470 : BitVec 32 := 0#32
  let v671 : BitVec 1 := Scalar.cmpi .slt v669 c0_i32_470
  let c0_i32_471 : BitVec 32 := 0#32
  let v672 : BitVec 1 := Scalar.cmpi .slt v668 c0_i32_471
  let v673 : BitVec 1 := Scalar.xori v671 v672
  let c0_i32_469 : BitVec 32 := 0#32
  let v670 : BitVec 1 := Scalar.cmpi .ne v669 c0_i32_469
  let v674 : BitVec 1 := Scalar.andi v673 v670
  let v675 : BitVec 32 := Scalar.addi v669 v668
  let v676 : BitVec 32 := Scalar.select v674 v675 v669
  let c1_i32_474 : BitVec 32 := 1#32
  let v677 : BitVec 32 := Scalar.muli v676 c1_i32_474
  let v678 : BitVec 32 := Scalar.addi c0_i32_475 v677
  v678.toNat
def k0_dev47 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_478 : BitVec 32 := 16#32
  let v684 : BitVec 32 := Scalar.addi v2 c16_i32_478
  let c32_i32_479 : BitVec 32 := 32#32
  let c0_i32_480 : BitVec 32 := 0#32
  let v685 : BitVec 1 := Scalar.cmpi .eq c32_i32_479 c0_i32_480
  let c1_i32_481 : BitVec 32 := 1#32
  let v686 : BitVec 32 := Scalar.select v685 c1_i32_481 c32_i32_479
  let v687 : BitVec 32 := Scalar.remsi v684 v686
  let c0_i32_483 : BitVec 32 := 0#32
  let v689 : BitVec 1 := Scalar.cmpi .slt v687 c0_i32_483
  let c0_i32_484 : BitVec 32 := 0#32
  let v690 : BitVec 1 := Scalar.cmpi .slt v686 c0_i32_484
  let v691 : BitVec 1 := Scalar.xori v689 v690
  let c0_i32_482 : BitVec 32 := 0#32
  let v688 : BitVec 1 := Scalar.cmpi .ne v687 c0_i32_482
  let v692 : BitVec 1 := Scalar.andi v691 v688
  let v693 : BitVec 32 := Scalar.addi v687 v686
  let v694 : BitVec 32 := Scalar.select v692 v693 v687
  let c1_i32_487 : BitVec 32 := 1#32
  let v695 : BitVec 32 := Scalar.muli v694 c1_i32_487
  let v696 : BitVec 32 := Scalar.addi c0_i32_488 v695
  v696.toNat
def k0_dev48 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_491 : BitVec 32 := 17#32
  let v702 : BitVec 32 := Scalar.addi v2 c17_i32_491
  let c32_i32_492 : BitVec 32 := 32#32
  let c0_i32_493 : BitVec 32 := 0#32
  let v703 : BitVec 1 := Scalar.cmpi .eq c32_i32_492 c0_i32_493
  let c1_i32_494 : BitVec 32 := 1#32
  let v704 : BitVec 32 := Scalar.select v703 c1_i32_494 c32_i32_492
  let v705 : BitVec 32 := Scalar.remsi v702 v704
  let c0_i32_496 : BitVec 32 := 0#32
  let v707 : BitVec 1 := Scalar.cmpi .slt v705 c0_i32_496
  let c0_i32_497 : BitVec 32 := 0#32
  let v708 : BitVec 1 := Scalar.cmpi .slt v704 c0_i32_497
  let v709 : BitVec 1 := Scalar.xori v707 v708
  let c0_i32_495 : BitVec 32 := 0#32
  let v706 : BitVec 1 := Scalar.cmpi .ne v705 c0_i32_495
  let v710 : BitVec 1 := Scalar.andi v709 v706
  let v711 : BitVec 32 := Scalar.addi v705 v704
  let v712 : BitVec 32 := Scalar.select v710 v711 v705
  let c1_i32_500 : BitVec 32 := 1#32
  let v713 : BitVec 32 := Scalar.muli v712 c1_i32_500
  let v714 : BitVec 32 := Scalar.addi c0_i32_501 v713
  v714.toNat
def k0_dev49 (d0 : Dev nD) : Nat :=
  let c0_i32_514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_504 : BitVec 32 := 18#32
  let v720 : BitVec 32 := Scalar.addi v2 c18_i32_504
  let c32_i32_505 : BitVec 32 := 32#32
  let c0_i32_506 : BitVec 32 := 0#32
  let v721 : BitVec 1 := Scalar.cmpi .eq c32_i32_505 c0_i32_506
  let c1_i32_507 : BitVec 32 := 1#32
  let v722 : BitVec 32 := Scalar.select v721 c1_i32_507 c32_i32_505
  let v723 : BitVec 32 := Scalar.remsi v720 v722
  let c0_i32_509 : BitVec 32 := 0#32
  let v725 : BitVec 1 := Scalar.cmpi .slt v723 c0_i32_509
  let c0_i32_510 : BitVec 32 := 0#32
  let v726 : BitVec 1 := Scalar.cmpi .slt v722 c0_i32_510
  let v727 : BitVec 1 := Scalar.xori v725 v726
  let c0_i32_508 : BitVec 32 := 0#32
  let v724 : BitVec 1 := Scalar.cmpi .ne v723 c0_i32_508
  let v728 : BitVec 1 := Scalar.andi v727 v724
  let v729 : BitVec 32 := Scalar.addi v723 v722
  let v730 : BitVec 32 := Scalar.select v728 v729 v723
  let c1_i32_513 : BitVec 32 := 1#32
  let v731 : BitVec 32 := Scalar.muli v730 c1_i32_513
  let v732 : BitVec 32 := Scalar.addi c0_i32_514 v731
  v732.toNat
def k0_dev50 (d0 : Dev nD) : Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_517 : BitVec 32 := 19#32
  let v738 : BitVec 32 := Scalar.addi v2 c19_i32_517
  let c32_i32_518 : BitVec 32 := 32#32
  let c0_i32_519 : BitVec 32 := 0#32
  let v739 : BitVec 1 := Scalar.cmpi .eq c32_i32_518 c0_i32_519
  let c1_i32_520 : BitVec 32 := 1#32
  let v740 : BitVec 32 := Scalar.select v739 c1_i32_520 c32_i32_518
  let v741 : BitVec 32 := Scalar.remsi v738 v740
  let c0_i32_522 : BitVec 32 := 0#32
  let v743 : BitVec 1 := Scalar.cmpi .slt v741 c0_i32_522
  let c0_i32_523 : BitVec 32 := 0#32
  let v744 : BitVec 1 := Scalar.cmpi .slt v740 c0_i32_523
  let v745 : BitVec 1 := Scalar.xori v743 v744
  let c0_i32_521 : BitVec 32 := 0#32
  let v742 : BitVec 1 := Scalar.cmpi .ne v741 c0_i32_521
  let v746 : BitVec 1 := Scalar.andi v745 v742
  let v747 : BitVec 32 := Scalar.addi v741 v740
  let v748 : BitVec 32 := Scalar.select v746 v747 v741
  let c1_i32_526 : BitVec 32 := 1#32
  let v749 : BitVec 32 := Scalar.muli v748 c1_i32_526
  let v750 : BitVec 32 := Scalar.addi c0_i32_527 v749
  v750.toNat
def k0_dev51 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_530 : BitVec 32 := 20#32
  let v756 : BitVec 32 := Scalar.addi v2 c20_i32_530
  let c32_i32_531 : BitVec 32 := 32#32
  let c0_i32_532 : BitVec 32 := 0#32
  let v757 : BitVec 1 := Scalar.cmpi .eq c32_i32_531 c0_i32_532
  let c1_i32_533 : BitVec 32 := 1#32
  let v758 : BitVec 32 := Scalar.select v757 c1_i32_533 c32_i32_531
  let v759 : BitVec 32 := Scalar.remsi v756 v758
  let c0_i32_535 : BitVec 32 := 0#32
  let v761 : BitVec 1 := Scalar.cmpi .slt v759 c0_i32_535
  let c0_i32_536 : BitVec 32 := 0#32
  let v762 : BitVec 1 := Scalar.cmpi .slt v758 c0_i32_536
  let v763 : BitVec 1 := Scalar.xori v761 v762
  let c0_i32_534 : BitVec 32 := 0#32
  let v760 : BitVec 1 := Scalar.cmpi .ne v759 c0_i32_534
  let v764 : BitVec 1 := Scalar.andi v763 v760
  let v765 : BitVec 32 := Scalar.addi v759 v758
  let v766 : BitVec 32 := Scalar.select v764 v765 v759
  let c1_i32_539 : BitVec 32 := 1#32
  let v767 : BitVec 32 := Scalar.muli v766 c1_i32_539
  let v768 : BitVec 32 := Scalar.addi c0_i32_540 v767
  v768.toNat
def k0_dev52 (d0 : Dev nD) : Nat :=
  let c0_i32_553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_543 : BitVec 32 := 21#32
  let v774 : BitVec 32 := Scalar.addi v2 c21_i32_543
  let c32_i32_544 : BitVec 32 := 32#32
  let c0_i32_545 : BitVec 32 := 0#32
  let v775 : BitVec 1 := Scalar.cmpi .eq c32_i32_544 c0_i32_545
  let c1_i32_546 : BitVec 32 := 1#32
  let v776 : BitVec 32 := Scalar.select v775 c1_i32_546 c32_i32_544
  let v777 : BitVec 32 := Scalar.remsi v774 v776
  let c0_i32_548 : BitVec 32 := 0#32
  let v779 : BitVec 1 := Scalar.cmpi .slt v777 c0_i32_548
  let c0_i32_549 : BitVec 32 := 0#32
  let v780 : BitVec 1 := Scalar.cmpi .slt v776 c0_i32_549
  let v781 : BitVec 1 := Scalar.xori v779 v780
  let c0_i32_547 : BitVec 32 := 0#32
  let v778 : BitVec 1 := Scalar.cmpi .ne v777 c0_i32_547
  let v782 : BitVec 1 := Scalar.andi v781 v778
  let v783 : BitVec 32 := Scalar.addi v777 v776
  let v784 : BitVec 32 := Scalar.select v782 v783 v777
  let c1_i32_552 : BitVec 32 := 1#32
  let v785 : BitVec 32 := Scalar.muli v784 c1_i32_552
  let v786 : BitVec 32 := Scalar.addi c0_i32_553 v785
  v786.toNat
def k0_dev53 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_556 : BitVec 32 := 22#32
  let v792 : BitVec 32 := Scalar.addi v2 c22_i32_556
  let c32_i32_557 : BitVec 32 := 32#32
  let c0_i32_558 : BitVec 32 := 0#32
  let v793 : BitVec 1 := Scalar.cmpi .eq c32_i32_557 c0_i32_558
  let c1_i32_559 : BitVec 32 := 1#32
  let v794 : BitVec 32 := Scalar.select v793 c1_i32_559 c32_i32_557
  let v795 : BitVec 32 := Scalar.remsi v792 v794
  let c0_i32_561 : BitVec 32 := 0#32
  let v797 : BitVec 1 := Scalar.cmpi .slt v795 c0_i32_561
  let c0_i32_562 : BitVec 32 := 0#32
  let v798 : BitVec 1 := Scalar.cmpi .slt v794 c0_i32_562
  let v799 : BitVec 1 := Scalar.xori v797 v798
  let c0_i32_560 : BitVec 32 := 0#32
  let v796 : BitVec 1 := Scalar.cmpi .ne v795 c0_i32_560
  let v800 : BitVec 1 := Scalar.andi v799 v796
  let v801 : BitVec 32 := Scalar.addi v795 v794
  let v802 : BitVec 32 := Scalar.select v800 v801 v795
  let c1_i32_565 : BitVec 32 := 1#32
  let v803 : BitVec 32 := Scalar.muli v802 c1_i32_565
  let v804 : BitVec 32 := Scalar.addi c0_i32_566 v803
  v804.toNat
def k0_dev54 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_569 : BitVec 32 := 23#32
  let v810 : BitVec 32 := Scalar.addi v2 c23_i32_569
  let c32_i32_570 : BitVec 32 := 32#32
  let c0_i32_571 : BitVec 32 := 0#32
  let v811 : BitVec 1 := Scalar.cmpi .eq c32_i32_570 c0_i32_571
  let c1_i32_572 : BitVec 32 := 1#32
  let v812 : BitVec 32 := Scalar.select v811 c1_i32_572 c32_i32_570
  let v813 : BitVec 32 := Scalar.remsi v810 v812
  let c0_i32_574 : BitVec 32 := 0#32
  let v815 : BitVec 1 := Scalar.cmpi .slt v813 c0_i32_574
  let c0_i32_575 : BitVec 32 := 0#32
  let v816 : BitVec 1 := Scalar.cmpi .slt v812 c0_i32_575
  let v817 : BitVec 1 := Scalar.xori v815 v816
  let c0_i32_573 : BitVec 32 := 0#32
  let v814 : BitVec 1 := Scalar.cmpi .ne v813 c0_i32_573
  let v818 : BitVec 1 := Scalar.andi v817 v814
  let v819 : BitVec 32 := Scalar.addi v813 v812
  let v820 : BitVec 32 := Scalar.select v818 v819 v813
  let c1_i32_578 : BitVec 32 := 1#32
  let v821 : BitVec 32 := Scalar.muli v820 c1_i32_578
  let v822 : BitVec 32 := Scalar.addi c0_i32_579 v821
  v822.toNat
def k0_dev55 (d0 : Dev nD) : Nat :=
  let c0_i32_592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_582 : BitVec 32 := 24#32
  let v828 : BitVec 32 := Scalar.addi v2 c24_i32_582
  let c32_i32_583 : BitVec 32 := 32#32
  let c0_i32_584 : BitVec 32 := 0#32
  let v829 : BitVec 1 := Scalar.cmpi .eq c32_i32_583 c0_i32_584
  let c1_i32_585 : BitVec 32 := 1#32
  let v830 : BitVec 32 := Scalar.select v829 c1_i32_585 c32_i32_583
  let v831 : BitVec 32 := Scalar.remsi v828 v830
  let c0_i32_587 : BitVec 32 := 0#32
  let v833 : BitVec 1 := Scalar.cmpi .slt v831 c0_i32_587
  let c0_i32_588 : BitVec 32 := 0#32
  let v834 : BitVec 1 := Scalar.cmpi .slt v830 c0_i32_588
  let v835 : BitVec 1 := Scalar.xori v833 v834
  let c0_i32_586 : BitVec 32 := 0#32
  let v832 : BitVec 1 := Scalar.cmpi .ne v831 c0_i32_586
  let v836 : BitVec 1 := Scalar.andi v835 v832
  let v837 : BitVec 32 := Scalar.addi v831 v830
  let v838 : BitVec 32 := Scalar.select v836 v837 v831
  let c1_i32_591 : BitVec 32 := 1#32
  let v839 : BitVec 32 := Scalar.muli v838 c1_i32_591
  let v840 : BitVec 32 := Scalar.addi c0_i32_592 v839
  v840.toNat
def k0_dev56 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_595 : BitVec 32 := 25#32
  let v846 : BitVec 32 := Scalar.addi v2 c25_i32_595
  let c32_i32_596 : BitVec 32 := 32#32
  let c0_i32_597 : BitVec 32 := 0#32
  let v847 : BitVec 1 := Scalar.cmpi .eq c32_i32_596 c0_i32_597
  let c1_i32_598 : BitVec 32 := 1#32
  let v848 : BitVec 32 := Scalar.select v847 c1_i32_598 c32_i32_596
  let v849 : BitVec 32 := Scalar.remsi v846 v848
  let c0_i32_600 : BitVec 32 := 0#32
  let v851 : BitVec 1 := Scalar.cmpi .slt v849 c0_i32_600
  let c0_i32_601 : BitVec 32 := 0#32
  let v852 : BitVec 1 := Scalar.cmpi .slt v848 c0_i32_601
  let v853 : BitVec 1 := Scalar.xori v851 v852
  let c0_i32_599 : BitVec 32 := 0#32
  let v850 : BitVec 1 := Scalar.cmpi .ne v849 c0_i32_599
  let v854 : BitVec 1 := Scalar.andi v853 v850
  let v855 : BitVec 32 := Scalar.addi v849 v848
  let v856 : BitVec 32 := Scalar.select v854 v855 v849
  let c1_i32_604 : BitVec 32 := 1#32
  let v857 : BitVec 32 := Scalar.muli v856 c1_i32_604
  let v858 : BitVec 32 := Scalar.addi c0_i32_605 v857
  v858.toNat
def k0_dev57 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_608 : BitVec 32 := 26#32
  let v864 : BitVec 32 := Scalar.addi v2 c26_i32_608
  let c32_i32_609 : BitVec 32 := 32#32
  let c0_i32_610 : BitVec 32 := 0#32
  let v865 : BitVec 1 := Scalar.cmpi .eq c32_i32_609 c0_i32_610
  let c1_i32_611 : BitVec 32 := 1#32
  let v866 : BitVec 32 := Scalar.select v865 c1_i32_611 c32_i32_609
  let v867 : BitVec 32 := Scalar.remsi v864 v866
  let c0_i32_613 : BitVec 32 := 0#32
  let v869 : BitVec 1 := Scalar.cmpi .slt v867 c0_i32_613
  let c0_i32_614 : BitVec 32 := 0#32
  let v870 : BitVec 1 := Scalar.cmpi .slt v866 c0_i32_614
  let v871 : BitVec 1 := Scalar.xori v869 v870
  let c0_i32_612 : BitVec 32 := 0#32
  let v868 : BitVec 1 := Scalar.cmpi .ne v867 c0_i32_612
  let v872 : BitVec 1 := Scalar.andi v871 v868
  let v873 : BitVec 32 := Scalar.addi v867 v866
  let v874 : BitVec 32 := Scalar.select v872 v873 v867
  let c1_i32_617 : BitVec 32 := 1#32
  let v875 : BitVec 32 := Scalar.muli v874 c1_i32_617
  let v876 : BitVec 32 := Scalar.addi c0_i32_618 v875
  v876.toNat
def k0_dev58 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_621 : BitVec 32 := 27#32
  let v882 : BitVec 32 := Scalar.addi v2 c27_i32_621
  let c32_i32_622 : BitVec 32 := 32#32
  let c0_i32_623 : BitVec 32 := 0#32
  let v883 : BitVec 1 := Scalar.cmpi .eq c32_i32_622 c0_i32_623
  let c1_i32_624 : BitVec 32 := 1#32
  let v884 : BitVec 32 := Scalar.select v883 c1_i32_624 c32_i32_622
  let v885 : BitVec 32 := Scalar.remsi v882 v884
  let c0_i32_626 : BitVec 32 := 0#32
  let v887 : BitVec 1 := Scalar.cmpi .slt v885 c0_i32_626
  let c0_i32_627 : BitVec 32 := 0#32
  let v888 : BitVec 1 := Scalar.cmpi .slt v884 c0_i32_627
  let v889 : BitVec 1 := Scalar.xori v887 v888
  let c0_i32_625 : BitVec 32 := 0#32
  let v886 : BitVec 1 := Scalar.cmpi .ne v885 c0_i32_625
  let v890 : BitVec 1 := Scalar.andi v889 v886
  let v891 : BitVec 32 := Scalar.addi v885 v884
  let v892 : BitVec 32 := Scalar.select v890 v891 v885
  let c1_i32_630 : BitVec 32 := 1#32
  let v893 : BitVec 32 := Scalar.muli v892 c1_i32_630
  let v894 : BitVec 32 := Scalar.addi c0_i32_631 v893
  v894.toNat
def k0_dev59 (d0 : Dev nD) : Nat :=
  let c0_i32_644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_634 : BitVec 32 := 28#32
  let v900 : BitVec 32 := Scalar.addi v2 c28_i32_634
  let c32_i32_635 : BitVec 32 := 32#32
  let c0_i32_636 : BitVec 32 := 0#32
  let v901 : BitVec 1 := Scalar.cmpi .eq c32_i32_635 c0_i32_636
  let c1_i32_637 : BitVec 32 := 1#32
  let v902 : BitVec 32 := Scalar.select v901 c1_i32_637 c32_i32_635
  let v903 : BitVec 32 := Scalar.remsi v900 v902
  let c0_i32_639 : BitVec 32 := 0#32
  let v905 : BitVec 1 := Scalar.cmpi .slt v903 c0_i32_639
  let c0_i32_640 : BitVec 32 := 0#32
  let v906 : BitVec 1 := Scalar.cmpi .slt v902 c0_i32_640
  let v907 : BitVec 1 := Scalar.xori v905 v906
  let c0_i32_638 : BitVec 32 := 0#32
  let v904 : BitVec 1 := Scalar.cmpi .ne v903 c0_i32_638
  let v908 : BitVec 1 := Scalar.andi v907 v904
  let v909 : BitVec 32 := Scalar.addi v903 v902
  let v910 : BitVec 32 := Scalar.select v908 v909 v903
  let c1_i32_643 : BitVec 32 := 1#32
  let v911 : BitVec 32 := Scalar.muli v910 c1_i32_643
  let v912 : BitVec 32 := Scalar.addi c0_i32_644 v911
  v912.toNat
def k0_dev60 (d0 : Dev nD) : Nat :=
  let c0_i32_657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_647 : BitVec 32 := 29#32
  let v918 : BitVec 32 := Scalar.addi v2 c29_i32_647
  let c32_i32_648 : BitVec 32 := 32#32
  let c0_i32_649 : BitVec 32 := 0#32
  let v919 : BitVec 1 := Scalar.cmpi .eq c32_i32_648 c0_i32_649
  let c1_i32_650 : BitVec 32 := 1#32
  let v920 : BitVec 32 := Scalar.select v919 c1_i32_650 c32_i32_648
  let v921 : BitVec 32 := Scalar.remsi v918 v920
  let c0_i32_652 : BitVec 32 := 0#32
  let v923 : BitVec 1 := Scalar.cmpi .slt v921 c0_i32_652
  let c0_i32_653 : BitVec 32 := 0#32
  let v924 : BitVec 1 := Scalar.cmpi .slt v920 c0_i32_653
  let v925 : BitVec 1 := Scalar.xori v923 v924
  let c0_i32_651 : BitVec 32 := 0#32
  let v922 : BitVec 1 := Scalar.cmpi .ne v921 c0_i32_651
  let v926 : BitVec 1 := Scalar.andi v925 v922
  let v927 : BitVec 32 := Scalar.addi v921 v920
  let v928 : BitVec 32 := Scalar.select v926 v927 v921
  let c1_i32_656 : BitVec 32 := 1#32
  let v929 : BitVec 32 := Scalar.muli v928 c1_i32_656
  let v930 : BitVec 32 := Scalar.addi c0_i32_657 v929
  v930.toNat
def k0_dev61 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_660 : BitVec 32 := 30#32
  let v936 : BitVec 32 := Scalar.addi v2 c30_i32_660
  let c32_i32_661 : BitVec 32 := 32#32
  let c0_i32_662 : BitVec 32 := 0#32
  let v937 : BitVec 1 := Scalar.cmpi .eq c32_i32_661 c0_i32_662
  let c1_i32_663 : BitVec 32 := 1#32
  let v938 : BitVec 32 := Scalar.select v937 c1_i32_663 c32_i32_661
  let v939 : BitVec 32 := Scalar.remsi v936 v938
  let c0_i32_665 : BitVec 32 := 0#32
  let v941 : BitVec 1 := Scalar.cmpi .slt v939 c0_i32_665
  let c0_i32_666 : BitVec 32 := 0#32
  let v942 : BitVec 1 := Scalar.cmpi .slt v938 c0_i32_666
  let v943 : BitVec 1 := Scalar.xori v941 v942
  let c0_i32_664 : BitVec 32 := 0#32
  let v940 : BitVec 1 := Scalar.cmpi .ne v939 c0_i32_664
  let v944 : BitVec 1 := Scalar.andi v943 v940
  let v945 : BitVec 32 := Scalar.addi v939 v938
  let v946 : BitVec 32 := Scalar.select v944 v945 v939
  let c1_i32_669 : BitVec 32 := 1#32
  let v947 : BitVec 32 := Scalar.muli v946 c1_i32_669
  let v948 : BitVec 32 := Scalar.addi c0_i32_670 v947
  v948.toNat
def k0_dev62 (d0 : Dev nD) : Nat :=
  let c0_i32_683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_673 : BitVec 32 := 31#32
  let v954 : BitVec 32 := Scalar.addi v2 c31_i32_673
  let c32_i32_674 : BitVec 32 := 32#32
  let c0_i32_675 : BitVec 32 := 0#32
  let v955 : BitVec 1 := Scalar.cmpi .eq c32_i32_674 c0_i32_675
  let c1_i32_676 : BitVec 32 := 1#32
  let v956 : BitVec 32 := Scalar.select v955 c1_i32_676 c32_i32_674
  let v957 : BitVec 32 := Scalar.remsi v954 v956
  let c0_i32_678 : BitVec 32 := 0#32
  let v959 : BitVec 1 := Scalar.cmpi .slt v957 c0_i32_678
  let c0_i32_679 : BitVec 32 := 0#32
  let v960 : BitVec 1 := Scalar.cmpi .slt v956 c0_i32_679
  let v961 : BitVec 1 := Scalar.xori v959 v960
  let c0_i32_677 : BitVec 32 := 0#32
  let v958 : BitVec 1 := Scalar.cmpi .ne v957 c0_i32_677
  let v962 : BitVec 1 := Scalar.andi v961 v958
  let v963 : BitVec 32 := Scalar.addi v957 v956
  let v964 : BitVec 32 := Scalar.select v962 v963 v957
  let c1_i32_682 : BitVec 32 := 1#32
  let v965 : BitVec 32 := Scalar.muli v964 c1_i32_682
  let v966 : BitVec 32 := Scalar.addi c0_i32_683 v965
  v966.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  inb_S1x512_S1x512_0_0 : ∀ a, (![0, 0] : Fin 2 → Nat) a + S1x512.size a ≤ S1x512.size a
  h_S1x512 : 0 < S1x512.numel
  shapeCasts_S1x512_S512 : S1x512.ShapeCasts S512
  shapeCasts_S512_S1x512 : S512.ShapeCasts S1x512
  hamt_31 : (31#32 : BitVec 32).msb = false
  inb_S31_S1_0 : ∀ a, (![0] : Fin 1 → Nat) a + S1.size a ≤ S31.size a
  squeezes_S1_S_ : S1.Squeezes S_
  inb_S31x512_S1x512_0_0 : ∀ a, (![0, 0] : Fin 2 → Nat) a + S1x512.size a ≤ S31x512.size a
  inb_S31_S1_1 : ∀ a, (![1] : Fin 1 → Nat) a + S1.size a ≤ S31.size a
  inb_S31x512_S1x512_1_0 : ∀ a, (![1, 0] : Fin 2 → Nat) a + S1x512.size a ≤ S31x512.size a
  inb_S31_S1_2 : ∀ a, (![2] : Fin 1 → Nat) a + S1.size a ≤ S31.size a
  inb_S31x512_S1x512_2_0 : ∀ a, (![2, 0] : Fin 2 → Nat) a + S1x512.size a ≤ S31x512.size a
  inb_S31_S1_3 : ∀ a, (![3] : Fin 1 → Nat) a + S1.size a ≤ S31.size a
  inb_S31x512_S1x512_3_0 : ∀ a, (![3, 0] : Fin 2 → Nat) a + S1x512.size a ≤ S31x512.size a
  inb_S31_S1_4 : ∀ a, (![4] : Fin 1 → Nat) a + S1.size a ≤ S31.size a
  inb_S31x512_S1x512_4_0 : ∀ a, (![4, 0] : Fin 2 → Nat) a + S1x512.size a ≤ S31x512.size a
  inb_S31_S1_5 : ∀ a, (![5] : Fin 1 → Nat) a + S1.size a ≤ S31.size a
  inb_S31x512_S1x512_5_0 : ∀ a, (![5, 0] : Fin 2 → Nat) a + S1x512.size a ≤ S31x512.size a
  inb_S31_S1_6 : ∀ a, (![6] : Fin 1 → Nat) a + S1.size a ≤ S31.size a
  inb_S31x512_S1x512_6_0 : ∀ a, (![6, 0] : Fin 2 → Nat) a + S1x512.size a ≤ S31x512.size a
  inb_S31_S1_7 : ∀ a, (![7] : Fin 1 → Nat) a + S1.size a ≤ S31.size a
  inb_S31x512_S1x512_7_0 : ∀ a, (![7, 0] : Fin 2 → Nat) a + S1x512.size a ≤ S31x512.size a
  inb_S31_S1_8 : ∀ a, (![8] : Fin 1 → Nat) a + S1.size a ≤ S31.size a
  inb_S31x512_S1x512_8_0 : ∀ a, (![8, 0] : Fin 2 → Nat) a + S1x512.size a ≤ S31x512.size a
  inb_S31_S1_9 : ∀ a, (![9] : Fin 1 → Nat) a + S1.size a ≤ S31.size a
  inb_S31x512_S1x512_9_0 : ∀ a, (![9, 0] : Fin 2 → Nat) a + S1x512.size a ≤ S31x512.size a
  inb_S31_S1_10 : ∀ a, (![10] : Fin 1 → Nat) a + S1.size a ≤ S31.size a
  inb_S31x512_S1x512_10_0 : ∀ a, (![10, 0] : Fin 2 → Nat) a + S1x512.size a ≤ S31x512.size a
  inb_S31_S1_11 : ∀ a, (![11] : Fin 1 → Nat) a + S1.size a ≤ S31.size a
  inb_S31x512_S1x512_11_0 : ∀ a, (![11, 0] : Fin 2 → Nat) a + S1x512.size a ≤ S31x512.size a
  inb_S31_S1_12 : ∀ a, (![12] : Fin 1 → Nat) a + S1.size a ≤ S31.size a
  inb_S31x512_S1x512_12_0 : ∀ a, (![12, 0] : Fin 2 → Nat) a + S1x512.size a ≤ S31x512.size a
  inb_S31_S1_13 : ∀ a, (![13] : Fin 1 → Nat) a + S1.size a ≤ S31.size a
  inb_S31x512_S1x512_13_0 : ∀ a, (![13, 0] : Fin 2 → Nat) a + S1x512.size a ≤ S31x512.size a
  inb_S31_S1_14 : ∀ a, (![14] : Fin 1 → Nat) a + S1.size a ≤ S31.size a
  inb_S31x512_S1x512_14_0 : ∀ a, (![14, 0] : Fin 2 → Nat) a + S1x512.size a ≤ S31x512.size a
  inb_S31_S1_15 : ∀ a, (![15] : Fin 1 → Nat) a + S1.size a ≤ S31.size a
  inb_S31x512_S1x512_15_0 : ∀ a, (![15, 0] : Fin 2 → Nat) a + S1x512.size a ≤ S31x512.size a
  inb_S31_S1_16 : ∀ a, (![16] : Fin 1 → Nat) a + S1.size a ≤ S31.size a
  inb_S31x512_S1x512_16_0 : ∀ a, (![16, 0] : Fin 2 → Nat) a + S1x512.size a ≤ S31x512.size a
  inb_S31_S1_17 : ∀ a, (![17] : Fin 1 → Nat) a + S1.size a ≤ S31.size a
  inb_S31x512_S1x512_17_0 : ∀ a, (![17, 0] : Fin 2 → Nat) a + S1x512.size a ≤ S31x512.size a
  inb_S31_S1_18 : ∀ a, (![18] : Fin 1 → Nat) a + S1.size a ≤ S31.size a
  inb_S31x512_S1x512_18_0 : ∀ a, (![18, 0] : Fin 2 → Nat) a + S1x512.size a ≤ S31x512.size a
  inb_S31_S1_19 : ∀ a, (![19] : Fin 1 → Nat) a + S1.size a ≤ S31.size a
  inb_S31x512_S1x512_19_0 : ∀ a, (![19, 0] : Fin 2 → Nat) a + S1x512.size a ≤ S31x512.size a
  inb_S31_S1_20 : ∀ a, (![20] : Fin 1 → Nat) a + S1.size a ≤ S31.size a
  inb_S31x512_S1x512_20_0 : ∀ a, (![20, 0] : Fin 2 → Nat) a + S1x512.size a ≤ S31x512.size a
  inb_S31_S1_21 : ∀ a, (![21] : Fin 1 → Nat) a + S1.size a ≤ S31.size a
  inb_S31x512_S1x512_21_0 : ∀ a, (![21, 0] : Fin 2 → Nat) a + S1x512.size a ≤ S31x512.size a
  inb_S31_S1_22 : ∀ a, (![22] : Fin 1 → Nat) a + S1.size a ≤ S31.size a
  inb_S31x512_S1x512_22_0 : ∀ a, (![22, 0] : Fin 2 → Nat) a + S1x512.size a ≤ S31x512.size a
  inb_S31_S1_23 : ∀ a, (![23] : Fin 1 → Nat) a + S1.size a ≤ S31.size a
  inb_S31x512_S1x512_23_0 : ∀ a, (![23, 0] : Fin 2 → Nat) a + S1x512.size a ≤ S31x512.size a
  inb_S31_S1_24 : ∀ a, (![24] : Fin 1 → Nat) a + S1.size a ≤ S31.size a
  inb_S31x512_S1x512_24_0 : ∀ a, (![24, 0] : Fin 2 → Nat) a + S1x512.size a ≤ S31x512.size a
  inb_S31_S1_25 : ∀ a, (![25] : Fin 1 → Nat) a + S1.size a ≤ S31.size a
  inb_S31x512_S1x512_25_0 : ∀ a, (![25, 0] : Fin 2 → Nat) a + S1x512.size a ≤ S31x512.size a
  inb_S31_S1_26 : ∀ a, (![26] : Fin 1 → Nat) a + S1.size a ≤ S31.size a
  inb_S31x512_S1x512_26_0 : ∀ a, (![26, 0] : Fin 2 → Nat) a + S1x512.size a ≤ S31x512.size a
  inb_S31_S1_27 : ∀ a, (![27] : Fin 1 → Nat) a + S1.size a ≤ S31.size a
  inb_S31x512_S1x512_27_0 : ∀ a, (![27, 0] : Fin 2 → Nat) a + S1x512.size a ≤ S31x512.size a
  inb_S31_S1_28 : ∀ a, (![28] : Fin 1 → Nat) a + S1.size a ≤ S31.size a
  inb_S31x512_S1x512_28_0 : ∀ a, (![28, 0] : Fin 2 → Nat) a + S1x512.size a ≤ S31x512.size a
  inb_S31_S1_29 : ∀ a, (![29] : Fin 1 → Nat) a + S1.size a ≤ S31.size a
  inb_S31x512_S1x512_29_0 : ∀ a, (![29, 0] : Fin 2 → Nat) a + S1x512.size a ≤ S31x512.size a
  inb_S31_S1_30 : ∀ a, (![30] : Fin 1 → Nat) a + S1.size a ≤ S31.size a
  inb_S31x512_S1x512_30_0 : ∀ a, (![30, 0] : Fin 2 → Nat) a + S1x512.size a ≤ S31x512.size a
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S512x256 : S1x256.Broadcasts S512x256
  inb_S31x512_S31x512_0_0 : ∀ a, (![0, 0] : Fin 2 → Nat) a + S31x512.size a ≤ S31x512.size a
  h_S31x512 : 0 < S31x512.numel
  reduces_S31x512_S512 : S31x512.Reduces [0] S512
  shapeCasts_S512_S512x1 : S512.ShapeCasts S512x1
  broadcasts_S512x1_S512x256 : S512x1.Broadcasts S512x256
  hcc0_scratch2 : 3 + S31.numel ≤ 65
  hcc0_scratch3 : 34 + S31.numel ≤ 65
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  hstage0_0 : ∀ j, (stage0_0 j).IsWhole
  hstage0_1 : ∀ j, (stage0_1 j).IsWhole
  hstage0_2 : ∀ j, (stage0_2 j).IsWhole

variable [Facts₀]

abbrev cc0_scratch2 : DmaSems sig S31 := SemArray.consecutive 3 S31 hcc0_scratch2
abbrev cc0_scratch3 : DmaSems sig S31 := SemArray.consecutive 34 S31 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x8192 : Shape := ⟨2, ![512, 8192]⟩
abbrev S8192 : Shape := ⟨1, ![8192]⟩
abbrev S_ : Shape := ⟨0, ![]⟩
abbrev S512 : Shape := ⟨1, ![512]⟩
abbrev S512x1 : Shape := ⟨2, ![512, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S8192, .f32⟩
  | .hbm, ⟨2, _⟩ => ⟨S512x8192, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S1x8192, .f32⟩
  | .hbm, ⟨14, _⟩ => ⟨S512x8192, .f32⟩
  | .hbm, ⟨15, _⟩ => ⟨S512x8192, .f32⟩
  | .hbm, ⟨16, _⟩ => ⟨S512x8192, .f32⟩
  | .hbm, ⟨17, _⟩ => ⟨S512x8192, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S512x8192_S512_d1 : S512x8192.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S8192_S1x8192_1 : S8192.BroadcastsInDim S1x8192 (![1] : Fin 1 → Fin S1x8192.rank)
  bcast_S1x8192_S512x8192_0_1 : S1x8192.BroadcastsInDim S512x8192 (![0, 1] : Fin 2 → Fin S512x8192.rank)
  bcast_S512x1_S512x8192_0_1 : S512x1.BroadcastsInDim S512x8192 (![0, 1] : Fin 2 → Fin S512x8192.rank)

variable [Facts₀]

class Facts : Prop extends Facts₀ where

variable [Facts]
-- ==== Proof.Peers.lean ====
import proofs.«901007_g7700000000001008_dist_rmsnorm_colshard_i_m512_n256_v7x_i32_f32_1_alg».proof.KernelIdeal
import proofs.«901007_g7700000000001008_dist_rmsnorm_colshard_i_m512_n256_v7x_i32_f32_1_alg».proof.Proof.Gen.KernelIdeal
import proofs.«901007_g7700000000001008_dist_rmsnorm_colshard_i_m512_n256_v7x_i32_f32_1_alg».proof.Proof.Gen.KernelIdeal.Skeleton
import Idealize.ShloMosaic.Lib.ValueIdx

noncomputable section

namespace Cert.KernelIdeal.Proto

open Cert.KernelIdeal Cert.KernelIdeal.Gen
open Idealize.ShloMosaic

variable {F : FTy → Type} [FloatOps F]

/-- The device `d` places ahead of `c` on the ring of 32 devices. -/
def peer (c : Dev nD) (d : ℕ) : Dev nD := ⟨(c.val + d) % 32, Nat.mod_lt _ (by decide)⟩

/-- The device whose row of partial sums lands in row `s` of `c`'s gather buffer: the one `s + 1` places behind `c`,
    which is `31 - s` places ahead of it. -/
def src (c : Dev nD) (s : Fin 31) : Dev nD := peer c (31 - s.val)

/-- Device `c`'s gather buffer once every row has landed: row `s` is the row of squared-sum partials of `src c s`'s block. -/
def commOf (xs : Dev nD → Vec F S512x256 .f32) (c : Dev nD) : Vec F S31x512 .f32 :=
  fun i => k0_pay3 (xs (src c (i 0))) (ValueIdx.ix2 0 (i 1))

/-- What device `c` stores in its result block: its block scaled by `gamma` and by the reciprocal root of the mean
    of squares over ALL devices' partials (its own plus the 31 gathered rows) plus epsilon. -/
def outOf (xs : Dev nD → Vec F S512x256 .f32) (gs : Dev nD → Vec F S256 .f32) (c : Dev nD) : FVec F S512x256 .f32 :=
  k0_pay5 (k0_pay2 (xs c)) (k0_pay4 (k0_pay1 (xs c)) (gs c)) (commOf xs c)

theorem peer_val (c : Dev nD) (d : ℕ) : (peer c d).val = (c.val + d) % 32 := rfl

theorem src_val (c : Dev nD) (s : Fin 31) : (src c s).val = (c.val + (31 - s.val)) % 32 := rfl

end Cert.KernelIdeal.Proto

end
-- ==== Proof.Mem.lean ====
import proofs.«901007_g7700000000001008_dist_rmsnorm_colshard_i_m512_n256_v7x_i32_f32_1_alg».proof.Proof.Peers
import Idealize.ShloMosaic.Lib.Pipeline.Launch
import Idealize.ShloMosaic.Lib.Pipeline.Kit

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The staged blocks of `x` and `gamma`, the staged result block, the row of partial sums and the gather buffer. -/
abbrev xM : Memref sig .tc .vmem S512x256 .f32 := Memref.whole cc0_stg0_0
abbrev gM : Memref sig .tc .vmem S256 .f32 := Memref.whole cc0_stg1_0
abbrev oM : Memref sig .tc .vmem S512x256 .f32 := Memref.whole cc0_stg2_0
abbrev rowM : Memref sig .tc .vmem S1x512 .f32 := Memref.whole cc0_scratch0
abbrev commM : Memref sig .tc .vmem S31x512 .f32 := Memref.whole cc0_scratch1

theorem inb_slot (k : Fin 31) : ∀ a, (![k.val, 0] : Fin 2 → Nat) a + S1x512.size a ≤ S31x512.size a := by
  intro a; fin_cases a
  · show k.val + 1 ≤ 31; omega
  · show 0 + 512 ≤ 512; omega

/-- Row `k` of the gather buffer, as the kernel slices it. -/
abbrev slotM (k : Fin 31) : Memref sig .tc .vmem S1x512 .f32 :=
  commM.slice (Rect.unit (s := S31x512) ![k.val, 0] S1x512.size (inb_slot k)) (fun _ => rfl)

example : slotM 7 = commM.slice (Rect.unit (s := S31x512) ![7, 0] S1x512.size inb_S31x512_S1x512_7_0) (fun _ => rfl) := rfl

/-- The barrier semaphore, and the send and receive DMA semaphores of row `k`. -/
abbrev barS : Sem sig := (SemArray.scalar (sig.barrier 0 rfl) : Sems sig S_).sem
abbrev sendS (k : Fin 31) : DmaSem sig := ((cc0_scratch2.slice (Rect.unit (s := S31) ![k.val] S1.size (by intro a; fin_cases a; show k.val + 1 ≤ 31; omega))).squeeze S_ squeezes_S1_S_).sem
abbrev recvS (k : Fin 31) : DmaSem sig := ((cc0_scratch3.slice (Rect.unit (s := S31) ![k.val] S1.size (by intro a; fin_cases a; show k.val + 1 ≤ 31; omega))).squeeze S_ squeezes_S1_S_).sem

example : sendS 7 = ((cc0_scratch2.slice (Rect.unit (s := S31) ![7] S1.size inb_S31_S1_7)).squeeze S_ squeezes_S1_S_).sem := rfl

abbrev barCell (c : Dev nD) : GSem nD τ sig := ((c : Thread nD τ), .reg barS)
abbrev sendCell (c : Dev nD) (k : Fin 31) : GSem nD τ sig := ((c : Thread nD τ), .dma (sendS k))
abbrev recvCell (c : Dev nD) (k : Fin 31) : GSem nD τ sig := ((c : Thread nD τ), .dma (recvS k))

/-! ## The resource algebra: the pipeline's own copy, and the rounds' copy with duties named by `Fin 31` -/

abbrev UB : Type := URounds (GSem nD τ sig) (Fin 31)
abbrev UU : Type := UR sig nD τ × UB
/-- The logic's resource monoid at the float instance `F`. -/
abbrev MM (F : FTy → Type) : Type := MT nD τ sig Unit (Elt F) ℕ UU ℕ

variable {F : FTy → Type}

abbrev EP : Emb (UR sig nD τ) (MM F) := embL
abbrev ER : Emb UB (MM F) := embR

/-! ## The 31 shares of the one-row buffer, one lent to each outgoing transfer -/

/-- What is left of the whole after `n` shares have been cut off it. -/
def restShare : ℕ → PosShare TreeShare
  | 0 => fullShare
  | n + 1 => (restShare n).right

/-- Transfer `k`'s share: the left half of what the first `k` left; the last transfer takes all that is left. -/
def sendShare (k : Fin 31) : PosShare TreeShare := if k.val < 30 then (restShare k.val).left else restShare 30

end Cert.KernelIdeal.Proto

end
-- ==== Proof.DevEqs.lean ====
import proofs.«901007_g7700000000001008_dist_rmsnorm_colshard_i_m512_n256_v7x_i32_f32_1_alg».proof.Proof.Peers
import Mathlib.Logic.Equiv.Defs

/-!
# The ring of 32 devices: the kernel's device arithmetic in closed form

The kernel computes every device it addresses as `((c + d) mod 32)`, written out over 32-bit words
(signed division by 1, signed remainder by 32, an addition, the floor-remainder correction, a
multiplication by 1 and an addition of 0). For each of the 31 offsets `d = 1, …, 31` it does so twice: once
for the barrier signal sent `d` places ahead and once for the remote copy sent `d` places ahead. On the 32
devices `c = 0, …, 31` no intermediate leaves `[0, 63)`, so no word wraps and each chain is `peer c d`; this is
checked device by device.

The rest of the file is modular arithmetic on `ℤ/32`: moving `s + 1` places back and then `s + 1` places ahead is the
identity, the 31 sources of a device are pairwise distinct, none is the device itself, and together they are all
the other devices; and moving `d` places ahead is a permutation of the ring, with inverse moving `32 - d mod 32` ahead.
-/

noncomputable section

namespace Cert.KernelIdeal.Proto

open Cert.KernelIdeal Cert.KernelIdeal.Gen
open Idealize.ShloMosaic

/-! ## The 62 device chains

For `e = 1, …, 31`: the `e`-th chain is the target of the barrier signal at offset `e`, and the `(31 + e)`-th chain is
the target of the remote copy at offset `e`. Each statement quantifies over the 32 devices and is decided by evaluating
both sides at every one of them. -/

open Lean Elab Command in
run_cmd
  for e in [1:32] do
    let sigName := mkIdent (Name.mkSimple s!"sig_dev_eq_{e}")
    let cpyName := mkIdent (Name.mkSimple s!"cpy_dev_eq_{e}")
    let sigDev := mkIdent (Name.mkSimple s!"k0_dev{e}")
    let sigLt := mkIdent (Name.mkSimple s!"k0_dev{e}_lt")
    let cpyDev := mkIdent (Name.mkSimple s!"k0_dev{31 + e}")
    let cpyLt := mkIdent (Name.mkSimple s!"k0_dev{31 + e}_lt")
    let off := Syntax.mkNumLit (toString e)
    elabCommand (← `(theorem $sigName (c : Dev nD) : (⟨$sigDev c, $sigLt c⟩ : Dev nD) = peer c $off := by
      revert c; decide +kernel))
    elabCommand (← `(theorem $cpyName (c : Dev nD) : (⟨$cpyDev c, $cpyLt c⟩ : Dev nD) = peer c $off := by
      revert c; decide +kernel))

/-! ## Arithmetic on the ring -/

/-- The device `s + 1` places behind `c`, moved `s + 1` places ahead, is `c`: `(c + (31 - s)) + (s + 1) = c + 32`. -/
theorem peer_peer_src (c : Dev nD) (s : Fin 31) : peer (src c s) (s.val + 1) = c := by
  have hc : c.val < 32 := c.isLt
  have hs : s.val < 31 := s.isLt
  apply Fin.ext
  simp only [peer_val, src_val]
  omega

/-- `c` is the source of row `d` of the device `d + 1` places ahead of it: `(c + (d + 1)) + (31 - d) = c + 32`. -/
theorem src_peer (c : Dev nD) (d : Fin 31) : src (peer c (d.val + 1)) d = c := by
  have hc : c.val < 32 := c.isLt
  have hd : d.val < 31 := d.isLt
  apply Fin.ext
  simp only [peer_val, src_val]
  omega

/-- Distinct rows of a device's gather buffer come from distinct devices: the offsets `31 - s` for `s < 31` are
    pairwise distinct and all lie in `[1, 31]`, so they are pairwise incongruent modulo 32. -/
theorem src_injective (c : Dev nD) : Function.Injective (src c) := by
  intro s t h
  have hc : c.val < 32 := c.isLt
  have hs : s.val < 31 := s.isLt
  have ht : t.val < 31 := t.isLt
  have hv : (src c s).val = (src c t).val := congrArg Fin.val h
  simp only [src_val] at hv
  apply Fin.ext
  omega

/-- No row of a device's gather buffer comes from the device itself: the offset `31 - s` lies in `[1, 31]`. -/
theorem src_ne (c : Dev nD) (s : Fin 31) : src c s ≠ c := by
  intro h
  have hc : c.val < 32 := c.isLt
  have hs : s.val < 31 := s.isLt
  have hv : (src c s).val = c.val := congrArg Fin.val h
  simp only [src_val] at hv
  omega

/-- A device `d + 1` places ahead of `c`, with `d < 31`, is not `c`: the offset lies in `[1, 31]`. -/
theorem peer_ne (c : Dev nD) (d : Fin 31) : peer c (d.val + 1) ≠ c := by
  intro h
  have hc : c.val < 32 := c.isLt
  have hd : d.val < 31 := d.isLt
  have hv : (peer c (d.val + 1)).val = c.val := congrArg Fin.val h
  simp only [peer_val] at hv
  omega

/-- Every device other than `c` is the source of one of `c`'s rows: the row `s = (c + 63 - q) mod 32`, which is `31` only
    when `q = c`. -/
theorem src_surj (c q : Dev nD) (h : q ≠ c) : ∃ s : Fin 31, src c s = q := by
  have hc : c.val < 32 := c.isLt
  have hq : q.val < 32 := q.isLt
  have hne : q.val ≠ c.val := fun e => h (Fin.ext e)
  refine ⟨⟨(c.val + 63 - q.val) % 32, by omega⟩, Fin.ext ?_⟩
  show (c.val + (31 - (c.val + 63 - q.val) % 32)) % 32 = q.val
  omega

/-- Moving `d` places ahead is a permutation of the ring; its inverse moves `32 - d mod 32` places ahead. -/
def peerEquiv (d : ℕ) : Dev nD ≃ Dev nD where
  toFun := fun c => peer c d
  invFun := fun c => peer c (32 - d % 32)
  left_inv := by
    intro c
    have hc : c.val < 32 := c.isLt
    apply Fin.ext
    simp only [peer_val]
    omega
  right_inv := by
    intro c
    have hc : c.val < 32 := c.isLt
    apply Fin.ext
    simp only [peer_val]
    omega

@[simp] theorem peerEquiv_apply (d : ℕ) (c : Dev nD) : peerEquiv d c = peer c d := rfl

@[simp] theorem peerEquiv_symm_apply (d : ℕ) (c : Dev nD) : (peerEquiv d).symm c = peer c (32 - d % 32) := rfl

end Cert.KernelIdeal.Proto

end
-- ==== Proof.Sched.lean ====
import proofs.«901007_g7700000000001008_dist_rmsnorm_colshard_i_m512_n256_v7x_i32_f32_1_alg».proof.Proof.Mem
import proofs.«901007_g7700000000001008_dist_rmsnorm_colshard_i_m512_n256_v7x_i32_f32_1_alg».proof.Proof.DevEqs
import proofs.«901007_g7700000000001008_dist_rmsnorm_colshard_i_m512_n256_v7x_i32_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `c`'s block of `x`, and of `gamma`, as staged at the kernel's one grid point. -/
def xstg (c : Dev nD) : (cc0_stg0_0 : Ref sig .tc).ty.Contents (Elt F) :=
  (win0_0.blk (0 : Fin 1)).view.read (Elt F) ((s₀ m ρ).mem ((c : Thread nD τ).loc main_arg0))
def gstg (c : Dev nD) : (cc0_stg1_0 : Ref sig .tc).ty.Contents (Elt F) :=
  (win0_1.blk (0 : Fin 1)).view.read (Elt F) ((s₀ m ρ).mem ((c : Thread nD τ).loc main_arg1))

/-- The same, as vectors of the kernel's literal shapes. -/
def xsOf (c : Dev nD) : Vec F S512x256 .f32 := xstg m ρ c
def gsOf (c : Dev nD) : Vec F S256 .f32 := gstg m ρ c

/-- Device `c`'s row of partial sums of squares, as it stores it in its one-row buffer. -/
def rowOf (c : Dev nD) : (cc0_scratch0 : Ref sig .tc).ty.Contents (Elt F) := k0_pay3 (xsOf m ρ c)
/-- Device `c`'s gather buffer once all 31 rows have landed, and its result block. -/
def commAt (c : Dev nD) : (cc0_scratch1 : Ref sig .tc).ty.Contents (Elt F) := commOf (xsOf m ρ) c
def outAt (c : Dev nD) : (cc0_stg2_0 : Ref sig .tc).ty.Contents (Elt F) := outOf (xsOf m ρ) (gsOf m ρ) c

/-- The credit of one row's transfer. -/
abbrev N : ℕ := (rowM : Memref sig .tc .vmem S1x512 .f32).view.dmaCredit
theorem N_pos : 0 < N := View.dmaCredit_pos _ (by decide)

abbrev rowPts (c : Dev nD) (q : PosShare TreeShare) (f : Buf (Elt F) ((rowM : Memref sig .tc .vmem S1x512 .f32).view.loc (c : Thread nD τ))) : sProp 𝕄 :=
  (rowM : Memref sig .tc .vmem S1x512 .f32).view.loc (c : Thread nD τ) ↦[(rowM : Memref sig .tc .vmem S1x512 .f32).view.set]{q} f
abbrev slotPts (c : Dev nD) (k : Fin 31) (f : Buf (Elt F) ((slotM k).view.loc (c : Thread nD τ))) : sProp 𝕄 :=
  (slotM k).view.loc (c : Thread nD τ) ↦[(slotM k).view.set]{fullShare} f
abbrev commPts (c : Dev nD) (f : Buf (Elt F) ((commM : Memref sig .tc .vmem S31x512 .f32).view.loc (c : Thread nD τ))) : sProp 𝕄 :=
  (commM : Memref sig .tc .vmem S31x512 .f32).view.loc (c : Thread nD τ) ↦[(commM : Memref sig .tc .vmem S31x512 .f32).view.set]{fullShare} f

omit [FloatOps F] in
instance rowPts_storable (c : Dev nD) (q) (f) : BI.Storable (upEmb : UEmb _ 𝕄) (rowPts (F := F) c q f) := by unfold rowPts; infer_instance
omit [FloatOps F] in
instance slotPts_storable (c : Dev nD) (k) (f) : BI.Storable (upEmb : UEmb _ 𝕄) (slotPts (F := F) c k f) := by unfold slotPts; infer_instance

/-! ## Which semaphore is which -/

theorem sendS_val (k : Fin 31) : (sendS k).val = 3 + k.val := by revert k; decide
theorem recvS_val (k : Fin 31) : (recvS k).val = 34 + k.val := by revert k; decide

/-- The row a DMA semaphore serves as a send semaphore, or as a receive semaphore. -/
def sendIdx (q : DmaSem sig) : Option (Fin 31) := if h : 3 ≤ q.val ∧ q.val < 34 then some ⟨q.val - 3, by omega⟩ else none
def recvIdx (q : DmaSem sig) : Option (Fin 31) := if h : 34 ≤ q.val ∧ q.val < 65 then some ⟨q.val - 34, by omega⟩ else none

theorem sendIdx_sendS (k : Fin 31) : sendIdx (sendS k) = some k := by
  unfold sendIdx; rw [dif_pos (by rw [sendS_val]; omega)]; exact congrArg some (Fin.ext (by simp only [sendS_val]; omega))
theorem recvIdx_recvS (k : Fin 31) : recvIdx (recvS k) = some k := by
  unfold recvIdx; rw [dif_pos (by rw [recvS_val]; omega)]; exact congrArg some (Fin.ext (by simp only [recvS_val]; omega))
theorem recvIdx_sendS (k : Fin 31) : recvIdx (sendS k) = none := by
  unfold recvIdx; rw [dif_neg (by rw [sendS_val]; omega)]
theorem sendIdx_recvS (k : Fin 31) : sendIdx (recvS k) = none := by
  unfold sendIdx; rw [dif_neg (by rw [recvS_val]; omega)]

/-! ## The schedule -/

/-- What the device `d + 1` places behind `c` hands `c` with its signal (duty `d` of `c`'s barrier cell): the row of ITS gather
    buffer that `c` writes, and that the receive cell of that row is at round 0. -/
def barPay (c : Dev nD) (d : Fin 31) : sProp 𝕄 :=
  iprop((∃ f, slotPts (src c d) (Fin.rev d) f) ∗ reached ER (recvCell (src c d) (Fin.rev d)) 0)
/-- A landed row: row `k` of the gather buffer holds its final contents. -/
def recvPay (c : Dev nD) (k : Fin 31) : sProp 𝕄 := slotPts c k (commAt m ρ c)
/-- A departed row: the share of the one-row buffer lent to transfer `k` comes back. -/
def sendPay (c : Dev nD) (k : Fin 31) (sh : Fin 31 → PosShare TreeShare) : sProp 𝕄 := rowPts c (sh k) (rowOf m ρ c)

abbrev IsBar (g : GSem nD τ sig) : Prop := g.1.2 = .tc ∧ g.2 = .reg barS

/-- One round, round 0: a barrier cell has 31 duties of one unit, one per other device; a send or a receive cell of a row
    one duty, the row's transfer credit. -/
def rd : Rounds.Schedule (GSem nD τ sig) (Fin 31) 𝕄 where
  duties g r :=
    if r = 0 ∧ g.1.2 = .tc then
      match g.2 with
      | .reg s => if s = barS then Finset.univ else ∅
      | .dma q => if (sendIdx q).isSome ∨ (recvIdx q).isSome then {0} else ∅
    else ∅
  unitless _ := False
  amount g _ _ := match g.2 with
    | .reg _ => 1
    | .dma _ => N
  payload g _ d := match g.2 with
    | .reg s => if s = barS then barPay g.1.1 d else iprop(emp)
    | .dma q => match recvIdx q, sendIdx q with
      | some k, _ => recvPay m ρ g.1.1 k
      | none, some k => sendPay m ρ g.1.1 k sendShare
      | none, none => iprop(emp)
  amount_pos g _ _ _ := by
    cases g.2 with
    | reg _ => exact Nat.one_pos
    | dma _ => exact N_pos

instance rd_payload_storable (g : GSem nD τ sig) (r : ℕ) (d : Fin 31) :
    BI.Storable (upEmb : UEmb _ 𝕄) ((rd (F := F) m ρ).payload g r d) := by
  show BI.Storable upEmb (match g.2 with
    | .reg s => if s = barS then barPay g.1.1 d else iprop(emp)
    | .dma q => match recvIdx q, sendIdx q with
      | some k, _ => recvPay m ρ g.1.1 k
      | none, some k => sendPay m ρ g.1.1 k sendShare
      | none, none => iprop(emp))
  unfold barPay recvPay sendPay
  (repeat' split) <;> infer_instance

section Sched
variable (c : Dev nD) (k : Fin 31)

theorem duties_bar : (rd (F := F) m ρ).duties (barCell c) 0 = Finset.univ := by
  dsimp only [rd]; rw [if_pos ⟨rfl, rfl⟩]; exact if_pos rfl
theorem duties_send : (rd (F := F) m ρ).duties (sendCell c k) 0 = {0} := by
  dsimp only [rd]; rw [if_pos ⟨rfl, rfl⟩]; exact if_pos (Or.inl (by rw [sendIdx_sendS]; rfl))
theorem duties_recv : (rd (F := F) m ρ).duties (recvCell c k) 0 = {0} := by
  dsimp only [rd]; rw [if_pos ⟨rfl, rfl⟩]; exact if_pos (Or.inr (by rw [recvIdx_recvS]; rfl))
theorem duties_later (g : GSem nD τ sig) : ∀ r, 1 ≤ r → (rd (F := F) m ρ).duties g r = ∅ :=
  fun r hr => by dsimp only [rd]; rw [if_neg fun h => by omega]

theorem amount_bar (d : Fin 31) : (rd (F := F) m ρ).amount (barCell c) 0 d = 1 := rfl
theorem amount_send (d : Fin 31) : (rd (F := F) m ρ).amount (sendCell c k) 0 d = N := rfl
theorem amount_recv (d : Fin 31) : (rd (F := F) m ρ).amount (recvCell c k) 0 d = N := rfl

theorem expect_bar : (rd (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_send : (rd (F := F) m ρ).expect (sendCell c k) 0 = N := by
  unfold Schedule.expect Schedule.amountOf; rw [duties_send, Finset.sum_singleton, amount_send]
theorem expect_recv : (rd (F := F) m ρ).expect (recvCell c k) 0 = N := by
  unfold Schedule.expect Schedule.amountOf; rw [duties_recv, Finset.sum_singleton, amount_recv]

theorem payload_bar (d : Fin 31) : (rd (F := F) m ρ).payload (barCell c) 0 d = barPay c d := by
  dsimp only [rd]; exact if_pos rfl
theorem payload_send (d : Fin 31) : (rd (F := F) m ρ).payload (sendCell c k) 0 d = sendPay m ρ c k sendShare := by
  dsimp only [rd]; rw [recvIdx_sendS, sendIdx_sendS]
theorem payload_recv (d : Fin 31) : (rd (F := F) m ρ).payload (recvCell c k) 0 d = recvPay m ρ c k := by
  dsimp only [rd]; rw [recvIdx_recvS]

/-- The rest of the barrier cell's round, no duty taken: every other device's payload. -/
theorem rest_bar : bigSep ((rd (F := F) m ρ).duties (barCell c) 0 \ ∅) (fun d => (rd (F := F) m ρ).payload (barCell c) 0 d)
    = bigSep Finset.univ (fun d : Fin 31 => barPay (F := F) c d) := by
  rw [Finset.sdiff_empty, duties_bar]; exact bigSep_congr fun d _ => payload_bar m ρ c d
theorem rest_send : bigSep ((rd (F := F) m ρ).duties (sendCell c k) 0 \ ∅) (fun d => (rd (F := F) m ρ).payload (sendCell c k) 0 d) = sendPay m ρ c k sendShare := by
  rw [Finset.sdiff_empty, duties_send, bigSep_singleton, payload_send]
theorem rest_recv : bigSep ((rd (F := F) m ρ).duties (recvCell c k) 0 \ ∅) (fun d => (rd (F := F) m ρ).payload (recvCell c k) 0 d) = recvPay m ρ c k := by
  rw [Finset.sdiff_empty, duties_recv, bigSep_singleton, payload_recv]

end Sched

/-! ## What each device owes at launch; the levels -/

/-- What device `c` still owes the barrier cells when `n` of its signals remain: the signals to the devices `31 - n + 1, …, 31`
    places ahead, summed so that the next signal (to the device `31 - n + 1` ahead) is the last summand. -/
def owedSig (c : Dev nD) : ℕ → CellTallies nD τ sig Unit
  | 0 => 0
  | n + 1 => owedSig c n + tallyAt (barCell (peer c (31 - n))) () 1

/-- What it still owes the receive cells when `n` of its transfers remain, the next transfer the last summand. -/
def owedCpy (c : Dev nD) : ℕ → CellTallies nD τ sig Unit
  | 0 => 0
  | n + 1 => owedCpy c n + tallyAt (recvCell (peer c (31 - n)) ⟨30 - n, by omega⟩) () N

def O₀ (c : Dev nD) : CellTallies nD τ sig Unit := owedCpy c 31 + owedSig c 31

def L (g : GSem nD τ sig) : Finset Unit := if g.1.2 = .tc then {()} else ∅
/-- The barrier cells at 1, the receive cells at 2, everything else (staging, send) at 0. -/
def lv (g : GSem nD τ sig) (_ : Unit) : ℕ := match g.2 with
  | .reg s => if s = barS then 1 else 0
  | .dma q => if (recvIdx q).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by
  show (if (barS : Sem sig) = barS then 1 else 0) = 1; exact if_pos rfl
theorem lv_recv (c : Dev nD) (k : Fin 31) (u : Unit) : lv (recvCell c k) u = 2 := by
  show (if (recvIdx (recvS k)).isSome then 2 else 0) = 2; rw [recvIdx_recvS]; rfl
theorem lv_send (c : Dev nD) (k : Fin 31) (u : Unit) : lv (sendCell c k) u = 0 := by
  show (if (recvIdx (sendS k)).isSome then 2 else 0) = 0; rw [recvIdx_sendS]; rfl

theorem owedSig_pos {c : Dev nD} {n : ℕ} {g : GSem nD τ sig} {u : Unit} (h : 0 < owedSig c n g u) : ∃ p : Dev nD, g = barCell p := by
  induction n with
  | zero => exact absurd h (Nat.lt_irrefl 0)
  | succ n ih =>
    unfold owedSig at h
    rw [Pi.add_apply, Finsupp.add_apply, tallyAt_apply] at h
    by_cases hg : g = barCell (peer c (31 - n)) ∧ u = ()
    · exact ⟨_, hg.1⟩
    · rw [if_neg hg, Nat.add_zero] at h; exact ih h

theorem owedCpy_pos {c : Dev nD} {n : ℕ} {g : GSem nD τ sig} {u : Unit} (h : 0 < owedCpy c n g u) : ∃ (p : Dev nD) (k : Fin 31), g = recvCell p k := by
  induction n with
  | zero => exact absurd h (Nat.lt_irrefl 0)
  | succ n ih =>
    unfold owedCpy at h
    rw [Pi.add_apply, Finsupp.add_apply, tallyAt_apply] at h
    by_cases hg : g = recvCell (peer c (31 - n)) ⟨30 - n, by omega⟩ ∧ u = ()
    · exact ⟨_, _, hg.1⟩
    · rw [if_neg hg, Nat.add_zero] at h; exact ih h

theorem O₀_pos {c : Dev nD} {g : GSem nD τ sig} {u : Unit} (h : 0 < O₀ c g u) :
    (∃ p : Dev nD, g = barCell p) ∨ ∃ (p : Dev nD) (k : Fin 31), g = recvCell p k := by
  unfold O₀ at h
  rw [Pi.add_apply, Finsupp.add_apply] at h
  rcases Nat.add_pos_iff_pos_or_pos.mp h with h | h
  · exact Or.inr (owedCpy_pos h)
  · exact Or.inl (owedSig_pos h)

omit [FloatOps F] in
/-- A wait on a cell at level 0 (a staging or a send semaphore) is below everything a device can owe. -/
theorem mayWait_low (c : Dev nD) (q : DmaSem sig) (hq : (recvIdx q).isSome = false) (O : CellTallies nD τ sig Unit) (hO : O = O₀ c ∨ O = owedCpy c 31 ∨ O = 0) :
    (levAts L lv : sProp 𝕄) ⊢ MayWait (c : Thread nD τ) (.dma q) () O := by
  have key : ∀ O' : CellTallies nD τ sig Unit, (∀ g u, 0 < O' g u → (∃ p : Dev nD, g = barCell p) ∨ ∃ (p : Dev nD) (k : Fin 31), g = recvCell p k) →
      (levAts L lv : sProp 𝕄) ⊢ MayWait (c : Thread nD τ) (.dma q) () O' := fun O' hpos =>
    MayOwe.of_cut (L := L) (lev := lv) 0 (fun p hp => by rw [Finset.mem_singleton.mp hp, L_tc]; exact Finset.mem_singleton_self _)
      (fun g u hg => by rcases hpos g u hg with ⟨p, rfl⟩ | ⟨p, k, rfl⟩ <;> exact Finset.mem_singleton_self _)
      (fun p hp => by rw [Finset.mem_singleton.mp hp]; show (if (recvIdx q).isSome then 2 else 0) ≤ 0; rw [hq]; exact Nat.le_refl 0)
      (fun g u hg => by
        rcases hpos g u hg with ⟨p, rfl⟩ | ⟨p, k, rfl⟩
        · rw [lv_bar]; decide
        · rw [lv_recv]; decide)
  rcases hO with rfl | rfl | rfl
  · exact key _ fun g u h => O₀_pos h
  · exact key _ fun g u h => Or.inr (owedCpy_pos h)
  · rw [MayWait_zero]; iintro -; iempintro

omit [FloatOps F] in
/-- At its barrier wait a device owes receive cells only, above its barrier cell. -/
theorem mayWait_bar (c : Dev nD) :
    (levAts L lv : sProp 𝕄) ⊢ MayWait (c : Thread nD τ) (.reg barS) () (owedCpy c 31) :=
  MayOwe.of_cut (L := L) (lev := lv) 1 (fun p hp => by rw [Finset.mem_singleton.mp hp, L_tc]; exact Finset.mem_singleton_self _)
    (fun g u hg => by obtain ⟨p, k, rfl⟩ := owedCpy_pos hg; exact Finset.mem_singleton_self _)
    (fun p hp => by rw [Finset.mem_singleton.mp hp]; exact Nat.le_of_eq (lv_bar c ()))
    (fun g u hg => by obtain ⟨p, k, rfl⟩ := owedCpy_pos hg; rw [lv_recv]; decide)

/-! ## The cells of one device, and the ghost state a device's body starts from -/

/-- A device's 63 cells: its barrier cell, and the send and the receive cell of each row. -/
inductive CellKind where
  | bar
  | send (k : Fin 31)
  | recv (k : Fin 31)
  deriving DecidableEq, Fintype

abbrev csem : CellKind → SemLoc sig
  | .bar => .reg barS
  | .send k => .dma (sendS k)
  | .recv k => .dma (recvS k)
abbrev kcell (ck : Dev nD × CellKind) : GSem nD τ sig := ((ck.1 : Thread nD τ), csem ck.2)

/-- Every cell's invariant, at the names `K` the launch allocated them at, and that every cell is at round 0: persistent,
    every device holds a copy. -/
def records (K : Dev nD × CellKind → ℕ) : sProp 𝕄 :=
  iprop((bigSep Finset.univ fun ck : Dev nD × CellKind => cellInv ER (rd m ρ) (K ck) (kcell ck))
    ∗ bigSep Finset.univ fun ck : Dev nD × CellKind => reached ER (kcell ck) 0)

instance records_persistent (K : Dev nD × CellKind → ℕ) : BI.Persistent (records m ρ K) := by unfold records; infer_instance

theorem inv_at (K : Dev nD × CellKind → ℕ) (ck : Dev nD × CellKind) : records m ρ K ⊢ cellInv ER (rd m ρ) (K ck) (kcell ck) :=
  sep_elim_left.trans (bigSep_elim (Finset.mem_univ ck))
theorem reached_at (K : Dev nD × CellKind → ℕ) (ck : Dev nD × CellKind) : records m ρ K ⊢ (reached ER (kcell ck) 0 : sProp 𝕄) :=
  sep_elim_right.trans (bigSep_elim (Finset.mem_univ ck))

/-- The tokens of the duties device `c` pays: one on the barrier cell of each device ahead of it (duty `e` on the device
    `e + 1` ahead), its own 31 send duties, and the receive duty of row `k` on the device `k + 1` ahead. -/
def payToks (c : Dev nD) : sProp 𝕄 :=
  iprop((bigSep Finset.univ fun e : Fin 31 => dutyTok ER (barCell (peer c (e.val + 1))) 0 e)
    ∗ (bigSep Finset.univ fun k : Fin 31 => dutyTok ER (sendCell c k) 0 (0 : Fin 31))
    ∗ (bigSep Finset.univ fun k : Fin 31 => dutyTok ER (recvCell (peer c (k.val + 1)) k) 0 (0 : Fin 31)))

/-- Its positions at round 0 of its own 63 cells. -/
def positions (c : Dev nD) : sProp 𝕄 :=
  iprop(atPos ER (barCell c) 0 (∅ : Finset (Fin 31)) 0
    ∗ (bigSep Finset.univ fun k : Fin 31 => atPos ER (sendCell c k) 0 (∅ : Finset (Fin 31)) 0)
    ∗ (bigSep Finset.univ fun k : Fin 31 => atPos ER (recvCell c k) 0 (∅ : Finset (Fin 31)) 0))

def ghost (K : Dev nD × CellKind → ℕ) (c : Dev nD) : sProp 𝕄 := iprop(records m ρ K ∗ positions c ∗ payToks c)

/-- What device `c`'s body starts from: the ghost state at some names, the credit of its barrier cell (31 units) and of
    each receive cell, and the level facts. -/
def start (c : Dev nD) : sProp 𝕄 :=
  iprop((∃ K, ghost m ρ K c) ∗ cred (tallyAt (barCell c) () 31)
    ∗ (bigSep Finset.univ fun k : Fin 31 => cred (tallyAt (recvCell c k) () N)) ∗ levAts L lv)

def Φ₀ (c : Dev nD) : sProp 𝕄 := iprop(start m ρ c ∗ (∃ f, rowPts c fullShare f) ∗ ∃ f, commPts c f)
/-- After the body: the one-row buffer holding the device's row, the gather buffer holding all 31 landed rows, and the 62
    own DMA cells closed with their counters at zero (the barrier cell is the runtime's: nothing to hand back). -/
def Φ₁ (c : Dev nD) : sProp 𝕄 :=
  iprop(rowPts c fullShare (rowOf m ρ c) ∗ commPts c (commAt m ρ c)
    ∗ (bigSep Finset.univ fun k : Fin 31 => semVal (sendCell c k) 0) ∗ (bigSep Finset.univ fun k : Fin 31 => semVal (recvCell c k) 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CellKind → ℕ) (c : Dev nD) : sProp 𝕄 :=
  iprop((ghost m ρ K c ∗ cred (tallyAt (barCell c) () 31) ∗ (bigSep Finset.univ fun k : Fin 31 => cred (tallyAt (recvCell c k) () N)) ∗ levAts L lv
      ∗ (∃ f, rowPts c fullShare f) ∗ ∃ f, commPts c f)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (gstg m ρ c) ∗ stg c cc0_stg2_0 (outAt m ρ c))

end Cert.KernelIdeal.Proto

end
-- ==== Proof.LaunchCredit.lean ====
import proofs.«901007_g7700000000001008_dist_rmsnorm_colshard_i_m512_n256_v7x_i32_f32_1_alg».proof.Proof.Sched

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-!
# The launch credit

At launch every device `d` owes one unit to the barrier cell of each of the 31 devices ahead of it and one row's
transfer credit to one receive cell of each of them: row `k` of the device `k + 1` places ahead. Summed over the payers,
the barrier cell of a device `c` is owed one unit by each of the 31 other devices, and its receive cell of row `k` is owed
one row's credit by the single device `k + 1` places behind `c`. These sums are what the launch deals `c` as credit tokens.
-/

variable {F : FTy → Type}

local notation "𝕄" => MM F

/-! ## Which cell is which -/

theorem bar_eq_iff {a b : Dev nD} : barCell a = barCell b ↔ a = b :=
  ⟨fun h => Fin.ext (congrArg (fun g : GSem nD τ sig => g.1.1.val) h), fun h => h ▸ rfl⟩

theorem recvS_injective : Function.Injective (recvS : Fin 31 → DmaSem sig) := fun i k h => by
  have hv : (recvS i).val = (recvS k).val := congrArg (fun q : DmaSem sig => q.val) h
  rw [recvS_val, recvS_val] at hv
  exact Fin.ext (by omega)

theorem sendS_injective : Function.Injective (sendS : Fin 31 → DmaSem sig) := fun i k h => by
  have hv : (sendS i).val = (sendS k).val := congrArg (fun q : DmaSem sig => q.val) h
  rw [sendS_val, sendS_val] at hv
  exact Fin.ext (by omega)

theorem recv_eq_iff {a b : Dev nD} {i k : Fin 31} : recvCell a i = recvCell b k ↔ a = b ∧ i = k :=
  ⟨fun h => ⟨Fin.ext (congrArg (fun g : GSem nD τ sig => g.1.1.val) h), recvS_injective (SemLoc.dma.inj (congrArg Prod.snd h))⟩,
    fun ⟨h1, h2⟩ => h1 ▸ h2 ▸ rfl⟩

theorem recv_ne_bar (a b : Dev nD) (k : Fin 31) : recvCell a k ≠ barCell b := fun h => by
  have h2 : (SemLoc.dma (recvS k) : SemLoc sig) = .reg barS := congrArg Prod.snd h
  cases h2

/-! ## What one device owes one cell -/

/-- The transfers owe the barrier cells nothing, -/
theorem owedCpy_bar (d c : Dev nD) (n : ℕ) : owedCpy d n (barCell c) = 0 := by
  induction n with
  | zero => rfl
  | succ n ih =>
    unfold owedCpy
    rw [Pi.add_apply, ih, tallyAt_ne_cell (recv_ne_bar _ _ _).symm, add_zero]

/-- and the signals owe the receive cells nothing. -/
theorem owedSig_recv (d c : Dev nD) (k : Fin 31) (n : ℕ) : owedSig d n (recvCell c k) = 0 := by
  induction n with
  | zero => rfl
  | succ n ih =>
    unfold owedSig
    rw [Pi.add_apply, ih, tallyAt_ne_cell (recv_ne_bar _ _ _), add_zero]

/-- Of the first `n` signals of device `d` (to the devices `31, 30, …, 31 - n + 1` places ahead) the one to `c` is the
    signal number `j = (d - c - 1) mod 32`: it is among them iff `j < n`. -/
theorem owedSig_bar (d c : Dev nD) (n : ℕ) (hn : n ≤ 31) :
    owedSig d n (barCell c) () = if (d.val + 63 - c.val) % 32 < n then 1 else 0 := by
  have hc : c.val < 32 := c.isLt
  have hd : d.val < 32 := d.isLt
  induction n with
  | zero => rw [if_neg (Nat.not_lt_zero _)]; rfl
  | succ n ih =>
    have key : (barCell c = barCell (peer d (31 - n)) ∧ () = ()) ↔ (d.val + 63 - c.val) % 32 = n := by
      rw [bar_eq_iff, and_iff_left rfl]
      constructor
      · intro h
        have hv : c.val = (peer d (31 - n)).val := congrArg Fin.val h
        rw [peer_val] at hv
        omega
      · intro h
        apply Fin.ext
        rw [peer_val]
        omega
    unfold owedSig
    rw [Pi.add_apply, Finsupp.add_apply, ih (by omega), tallyAt_apply, if_congr key rfl rfl]
    split_ifs <;> omega

/-- Of the first `n` transfers of device `d` (row `30 - j` of the device `31 - j` places ahead, `j < n`) the one into row `k`
    of `c` is transfer number `30 - k`, and only if `d` is the device `k + 1` places behind `c`. -/
theorem owedCpy_recv (d c : Dev nD) (k : Fin 31) (n : ℕ) (hn : n ≤ 31) :
    owedCpy d n (recvCell c k) () = if 30 - k.val < n ∧ d.val = (c.val + (31 - k.val)) % 32 then N else 0 := by
  have hc : c.val < 32 := c.isLt
  have hd : d.val < 32 := d.isLt
  have hk : k.val < 31 := k.isLt
  induction n with
  | zero => rw [if_neg (fun h => Nat.not_lt_zero _ h.1)]; rfl
  | succ n ih =>
    have key : (recvCell c k = recvCell (peer d (31 - n)) ⟨30 - n, by omega⟩ ∧ () = ())
        ↔ (30 - k.val = n ∧ d.val = (c.val + (31 - k.val)) % 32) := by
      rw [recv_eq_iff, and_iff_left rfl]
      constructor
      · rintro ⟨h1, h2⟩
        have hv : c.val = (peer d (31 - n)).val := congrArg Fin.val h1
        have hk2 : k.val = 30 - n := congrArg Fin.val h2
        rw [peer_val] at hv
        omega
      · rintro ⟨h1, h2⟩
        refine ⟨Fin.ext ?_, Fin.ext ?_⟩
        · rw [peer_val]; omega
        · show k.val = 30 - n; omega
    unfold owedCpy
    rw [Pi.add_apply, Finsupp.add_apply, ih (by omega), tallyAt_apply, if_congr key rfl rfl]
    split_ifs <;> omega

/-- Device `d` owes the barrier cell of `c` one unit iff it is another device. -/
theorem owed_bar (d c : Dev nD) : O₀ d (barCell c) () = if d ≠ c then 1 else 0 := by
  have hc : c.val < 32 := c.isLt
  have hd : d.val < 32 := d.isLt
  unfold O₀
  rw [Pi.add_apply, Finsupp.add_apply, owedCpy_bar, Finsupp.zero_apply, Nat.zero_add, owedSig_bar d c 31 (Nat.le_refl _)]
  refine if_congr ?_ rfl rfl
  rw [Ne, Fin.ext_iff]
  omega

/-- Device `d` owes the receive cell of row `k` of `c` the row's credit iff it is that row's source. -/
theorem owed_recv (d c : Dev nD) (k : Fin 31) : O₀ d (recvCell c k) () = if d = src c k then N else 0 := by
  have hk : k.val < 31 := k.isLt
  unfold O₀
  rw [Pi.add_apply, Finsupp.add_apply, owedSig_recv, Finsupp.zero_apply, Nat.add_zero, owedCpy_recv d c k 31 (Nat.le_refl _)]
  refine if_congr ?_ rfl rfl
  rw [Fin.ext_iff, src_val]
  constructor
  · exact fun h => h.2
  · exact fun h => ⟨by omega, h⟩

/-! ## What the launch deals a device -/

/-- The barrier cell of `c` is owed 31 units in all: one by each other device. -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  rw [Finset.sum_ite, Finset.sum_const_zero, Nat.add_zero, Finset.sum_const, smul_eq_mul, Nat.mul_one,
    Finset.filter_ne' Finset.univ c, Finset.card_erase_of_mem (Finset.mem_univ c), Finset.card_univ, Fintype.card_fin]
  rfl

/-- The receive cell of row `k` of `c` is owed one row's credit: by that row's source. -/
theorem launch_recv (c : Dev nD) (k : Fin 31) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (src c k) fun _ => N, if_pos (Finset.mem_univ _)]

/-- The receive semaphores among a device's semaphores. -/
def recvEmb : Fin 31 ↪ SemLoc sig := ⟨fun k => .dma (recvS k), fun i k h => recvS_injective (SemLoc.dma.inj h)⟩

/-- Out of the credit the launch deals device `c`: its barrier cell's 31 units and each receive cell's row credit. -/
theorem creds (c : Dev nD) :
    (Pipeline.launchCred O₀ c : sProp 𝕄)
      ⊢ iprop(cred (tallyAt (barCell c) () 31) ∗ bigSep Finset.univ fun k : Fin 31 => cred (tallyAt (recvCell c k) () N)) := by
  unfold Pipeline.launchCred
  rw [bigSep_univ_at _ (SemLoc.reg barS), launch_bar]
  refine sep_mono_right ?_
  have hsub : (Finset.univ : Finset (Fin 31)).map recvEmb ⊆ (Finset.univ : Finset (SemLoc sig)).erase (SemLoc.reg barS) := fun sm hsm => by
    obtain ⟨k, -, rfl⟩ := Finset.mem_map.mp hsm
    exact Finset.mem_erase.mpr ⟨(fun h => by cases h), Finset.mem_univ _⟩
  have e : (bigSep Finset.univ fun k : Fin 31 => (cred (tallyAt (recvCell c k) () N) : sProp 𝕄))
      = bigSep ((Finset.univ : Finset (Fin 31)).map recvEmb) (fun sm : SemLoc sig =>
          cred (tallyOn ((c : Thread nD τ), sm) (launchCredit (Pipeline.owing O₀) 0 ((c : Thread nD τ), sm)))) := by
    rw [bigSep_map]
    exact bigSep_congr fun k _ => by rw [← launch_recv]; rfl
  rw [e]
  exact bigSep_subset hsub

end Cert.KernelIdeal.Proto

end
-- ==== Proof.SplitLanded.lean ====
import proofs.«901007_g7700000000001008_dist_rmsnorm_colshard_i_m512_n256_v7x_i32_f32_1_alg».proof.Proof.Mem

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## What one landed copy leaves in its row -/

/-- Row `k`'s view places its index `x` at row `k`, -/
theorem slot_emb_zero (k : Fin 31) (x : S1x512.Idx) : ((slotM k).view.emb x : S31x512.Idx) 0 = k := by
  apply Fin.ext
  show k.val + 1 * (x 0).val = k.val
  have h : (x 0).val < 1 := (x 0).isLt
  omega

/-- at the same column. -/
theorem slot_emb_one (k : Fin 31) (x : S1x512.Idx) : ((slotM k).view.emb x : S31x512.Idx) 1 = x 1 := by
  apply Fin.ext
  show 0 + 1 * (x 1).val = (x 1).val
  omega

/-- An index of a one-row shape is its column at row zero. -/
theorem idx_one_row (x : S1x512.Idx) : x = ValueIdx.ix2 0 (x 1) := by
  funext a
  fin_cases a
  · apply Fin.ext
    show (x 0).val = 0
    have h : (x 0).val < 1 := (x 0).isLt
    omega
  · rfl

/-- The copy into row `k`, landed, leaves on that row's elements what the gather buffer finally holds there: the
    sender's row of partial sums, read at the same column. -/
theorem slot_landed (xs : Dev nD → Vec F S512x256 .f32) (c : Dev nD) (k : Fin 31)
    (fd : Buf (Elt F) ((slotM k).view.loc (c : Thread nD τ))) :
    ((slotM k).view.loc (c : Thread nD τ) ↦[(slotM k).view.set]{fullShare}
        ((slotM k).view.write (Elt F) fd (rowM.view.read (Elt F) (k0_pay3 (xs (src c k)))) Finset.univ) : sProp 𝕄)
      = ((slotM k).view.loc (c : Thread nD τ) ↦[(slotM k).view.set]{fullShare} commOf xs c) := by
  refine pointsTo_congr fun i hi => ?_
  obtain ⟨x, -, rfl⟩ := Finset.mem_map.mp hi
  rw [View.write_emb_of_mem _ _ (Finset.mem_univ x)]
  show k0_pay3 (xs (src c k)) x
      = k0_pay3 (xs (src c (((slotM k).view.emb x : S31x512.Idx) 0))) (ValueIdx.ix2 0 (((slotM k).view.emb x : S31x512.Idx) 1))
  rw [slot_emb_zero, slot_emb_one]
  exact congrArg (k0_pay3 (xs (src c k))) (idx_one_row x)

end Cert.KernelIdeal.Proto

end
-- ==== Proof.StepsSend.lean ====
import proofs.«901007_g7700000000001008_dist_rmsnorm_colshard_i_m512_n256_v7x_i32_f32_1_alg».proof.Proof.Sched
import proofs.«901007_g7700000000001008_dist_rmsnorm_colshard_i_m512_n256_v7x_i32_f32_1_alg».proof.Proof.SplitLanded

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (m : (ℓ : Loc nD τ sig) → Buf (Elt F) ℓ) (ρ : Dev nD → PrngReg)

theorem owedSig_succ (c : Dev nD) (n : ℕ) : owedSig c (n + 1) = owedSig c n + tallyAt (barCell (peer c (31 - n))) () 1 := rfl
theorem owedCpy_succ (c : Dev nD) (n : ℕ) :
    owedCpy c (n + 1) = owedCpy c n + tallyAt (recvCell (peer c (31 - n)) ⟨30 - n, by omega⟩) () N := rfl

/-- Before its signal number `e + 1` a device owes the barrier cells of the devices `e + 1, …, 31` ahead; the signal takes the
    next one off. -/
theorem owedSig_peel (c : Dev nD) (e : Fin 31) (R : CellTallies nD τ sig Unit) :
    R + owedSig c (31 - e.val) = (R + owedSig c (30 - e.val)) + tallyAt (barCell (peer c (e.val + 1))) () 1 := by
  have h : 31 - e.val = (30 - e.val) + 1 := by omega
  have h1 : 31 - (30 - e.val) = e.val + 1 := by omega
  rw [h, owedSig_succ, h1, add_assoc]

theorem owedCpy_peel (c : Dev nD) (k : Fin 31) :
    owedCpy c (31 - k.val) = owedCpy c (30 - k.val) + tallyAt (recvCell (peer c (k.val + 1)) k) () N := by
  have h : 31 - k.val = (30 - k.val) + 1 := by omega
  have h1 : 31 - (30 - k.val) = k.val + 1 := by omega
  have h2 : (⟨30 - (30 - k.val), by omega⟩ : Fin 31) = k := Fin.ext (by show 30 - (30 - k.val) = k.val; omega)
  rw [h, owedCpy_succ, h1, h2]

/-- A device's signal to the device `e + 1` places ahead: it pays duty `e` of that device's barrier cell, handing over row
    `30 - e` of its own gather buffer (the row that device writes) and that the row's receive cell is at round 0. -/
theorem wp_sig_step (K : Dev nD × CellKind → ℕ) (c : Dev nD) (e : Fin 31) (n : Dev nD) (hn : n = peer c (e.val + 1))
    (a a' : ℕ) (ha : a = 31 - e.val) (ha' : a' = 30 - e.val)
    {α : Type} {Q : α → sProp 𝕄} {kk : PUnit → Prog (TpuEff nD τ sig (Elt F) Λ₀ .tc) α} (W : Waits sig Unit)
    (f : Buf (Elt F) ((slotM (Fin.rev e)).view.loc (c : Thread nD τ))) :
    iprop(records m ρ K ∗ owes (c : Thread nD τ) (owedCpy c 31 + owedSig c a) W
        ∗ dutyTok ER (barCell (peer c (e.val + 1))) 0 e ∗ slotPts c (Fin.rev e) f)
      ⊢ iprop((owes (c : Thread nD τ) (owedCpy c 31 + owedSig c a') W
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.semSignal (Dev.tc n : Thread nD τ) barS (1#32).toNat) kk) Q) := by
  subst hn ha ha'
  iintro ⟨#HR, HO, Htok, Hslot⟩
  iapply (Rounds.wp_signal 𝒱₀ ER (rd m ρ) (c : Thread nD τ) none (dst := (peer c (e.val + 1) : Thread nD τ)) (κ := K (peer c (e.val + 1), .bar))
      (d := e) (by rw [duties_bar]; exact Finset.mem_univ _) ((amount_bar m ρ (peer c (e.val + 1)) e).trans (by decide)) ()
      (owedCpy c 31 + owedSig c (30 - e.val)) (owedSig_peel c e (owedCpy c 31))) $$ [HO Htok Hslot]
  · isplitr; · iapply (inv_at m ρ K (peer c (e.val + 1), .bar)); iexact HR
    isplitl [HO]; · iexact HO
    isplitl [Htok]; · iexact Htok
    isplitl [Hslot]
    · rw [payload_bar]; unfold barPay; rw [src_peer]
      isplitl [Hslot]; · iexists f; iexact Hslot
      iapply (reached_at m ρ K (c, .recv (Fin.rev e))); iexact HR
    · iapply (reached_at m ρ K (peer c (e.val + 1), .bar)); iexact HR

/-- The wait for all 31 units of its own barrier cell, owing the receive cells only: every other device's payload comes
    with it. -/
theorem wp_bar_wait_step (K : Dev nD × CellKind → ℕ) (c : Dev nD)
    {α : Type} {Q : α → sProp 𝕄} {kk : PUnit → Prog (TpuEff nD τ sig (Elt F) Λ₀ .tc) α} (W : Waits sig Unit) :
    iprop(records m ρ K ∗ cred (tallyAt (barCell c) () 31) ∗ owes (c : Thread nD τ) (owedCpy c 31) W ∗ levAts L lv
        ∗ atPos ER (barCell c) 0 (∅ : Finset (Fin 31)) 0)
      ⊢ iprop(((owes (c : Thread nD τ) (owedCpy c 31) (insert (SemLoc.reg barS, ()) W) ∗ atPos ER (barCell c) 1 (∅ : Finset (Fin 31)) 0
              ∗ bigSep Finset.univ (fun d : Fin 31 => barPay (F := F) c d))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS (31#32).toNat) kk) Q) := by
  iintro ⟨#HR, Hc, HO, #Hlev, Hat⟩ Hk
  iapply (Rounds.wp_wait_rest_token 𝒱₀ ER (rd m ρ) (c : Thread nD τ) none (κ := K (c, .bar))
      (wpE_semWait_eq 𝒱₀ (c : Thread nD τ) none Set.univ) (Set.mem_univ _) () (O := owedCpy c 31) (W := W) (R := 0) (m := 0) (T := ∅)
      (by rw [expect_bar]; decide)) $$ [Hc HO Hat]
  · isplitr; · iapply (inv_at m ρ K (c, .bar)); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m ρ c)); iexact Hpay

/-- The transfer of its row to the device `k + 1` places ahead, into row `k` of that device's gather buffer: it pays the
    row's send duty (its share of the one-row buffer comes back with the departure) and that device's receive duty
    (the row, holding the sender's partial sums, goes to its owner with the landing). -/
theorem wp_send_step (K : Dev nD × CellKind → ℕ) (c : Dev nD) (k : Fin 31) (n : Dev nD) (hn : n = peer c (k.val + 1))
    (a a' : ℕ) (ha : a = 31 - k.val) (ha' : a' = 30 - k.val)
    {hsc : (slotM k : Memref sig (Dev.tc n : Thread nD τ).2.kind .vmem S1x512 .f32).view.ref.isScScratch = false}
    {hsrc : (rowM : Memref sig .tc .vmem S1x512 .f32).view.WordExact} {hdst : (slotM k : Memref sig .tc .vmem S1x512 .f32).view.WordExact}
    {hsem : DmaTarget.Typed .vmem (.dma (recvS k)) (.remote (Dev.tc n : Thread nD τ) (slotM k) (.dma (sendS k)) hsc)}
    {α : Type} {Q : α → sProp 𝕄} {kk : PUnit → Prog (TpuEff nD τ sig (Elt F) Λ₀ .tc) α}
    (p : Dev nD) (k' : Fin 31) (hp : p = peer c (k.val + 1)) (hk' : k = k')
    (fn : Buf (Elt F) ((slotM k').view.loc (p : Thread nD τ))) (W : Waits sig Unit) :
    iprop(records m ρ K
        ∗ rowPts c (sendShare k) (rowOf m ρ c) ∗ slotPts p k' fn
        ∗ owes (c : Thread nD τ) (owedCpy c a) W
        ∗ dutyTok ER (sendCell c k) 0 (0 : Fin 31) ∗ dutyTok ER (recvCell (peer c (k.val + 1)) k) 0 (0 : Fin 31))
      ⊢ iprop(((cred (tallyAt (sendCell c k) () N) ∗ owes (c : Thread nD τ) (owedCpy c a') W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma rowM (.remote (Dev.tc n : Thread nD τ) (slotM k) (.dma (sendS k)) hsc) (.dma (recvS k)) hsrc hdst hsem) kk) Q) := by
  subst hn ha ha' hp hk'
  have hland : (slotPts (peer c (k.val + 1)) k ((slotM k).view.write (Elt F) fn ((rowM : Memref sig .tc .vmem S1x512 .f32).view.read (Elt F) (rowOf m ρ c)) Finset.univ) : sProp 𝕄)
      ⊢ slotPts (peer c (k.val + 1)) k (commAt m ρ (peer c (k.val + 1))) := by
    have h := slot_landed (F := F) (xsOf m ρ) (peer c (k.val + 1)) k fn
    rw [src_peer] at h
    exact Entails.of_eq h
  iintro ⟨#HR, Hrow, Hslot, HO, HtS, HtR⟩
  iapply (Rounds.wp_send_pointsTo 𝒱₀ ER (rd m ρ) (c : Thread nD τ) none (κ₁ := K (c, .send k)) (κ₂ := K (peer c (k.val + 1), .recv k))
    (r₁ := 0) (r₂ := 0) (d₁ := (0 : Fin 31)) (d₂ := (0 : Fin 31)) (q := sendShare k) (fs := rowOf m ρ c) (fd := fn)
    (by rw [duties_send]; exact Finset.mem_singleton_self _) (by rw [duties_recv]; exact Finset.mem_singleton_self _)
    () () N rfl (amount_send m ρ c k 0) (amount_recv m ρ (peer c (k.val + 1)) k 0) (owedCpy c (30 - k.val)) (owedCpy_peel c k) (W := W)
    (by rw [payload_send]; exact BI.Entails.refl _)
    (by rw [payload_recv]; exact hland)) $$ [Hrow Hslot HO HtS HtR]
  isplitr; · iapply (inv_at m ρ K (c, .send k)); iexact HR
  isplitr; · iapply (inv_at m ρ K (peer c (k.val + 1), .recv k)); iexact HR
  isplitl [Hrow]; · iexact Hrow
  isplitl [Hslot]; · iexact Hslot
  isplitl [HO]; · iexact HO
  isplitl [HtS]; · iexact HtS
  isplitr; · iapply (reached_at m ρ K (c, .send k)); iexact HR
  isplitl [HtR]; · iexact HtR
  iapply (reached_at m ρ K (peer c (k.val + 1), .recv k)); iexact HR

end Cert.KernelIdeal.Proto

end
-- ==== Proof.StepsWait.lean ====
import proofs.«901007_g7700000000001008_dist_rmsnorm_colshard_i_m512_n256_v7x_i32_f32_1_alg».proof.Proof.Sched

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (m : (ℓ : Loc nD τ sig) → Buf (Elt F) ℓ) (ρ : Dev nD → PrngReg)

/-- The wait for row `k`'s landing. The receive cell of row `k` has one duty in its one round, the row's transfer credit;
    the device owes nothing by now, so the wait is below everything it owes. It comes back one round on, holding row `k` of
    its gather buffer with the row's final contents. -/
theorem wp_recv_wait_step (K : Dev nD × CellKind → ℕ) (c : Dev nD) (k : Fin 31) (W : Waits sig Unit)
    {α : Type} {Q : α → sProp 𝕄} {kk : PUnit → Prog (TpuEff nD τ sig (Elt F) Λ₀ .tc) α}
    {hs : (rowM : Memref sig .tc .vmem S1x512 .f32).view.WordExact} {hd : (slotM k : Memref sig .tc .vmem S1x512 .f32).view.WordExact} :
    iprop(records m ρ K ∗ cred (tallyAt (recvCell c k) () N) ∗ owes (c : Thread nD τ) 0 W
        ∗ atPos ER (recvCell c k) 0 (∅ : Finset (Fin 31)) 0)
      ⊢ iprop(((owes (c : Thread nD τ) 0 (insert (SemLoc.dma (recvS k), ()) W) ∗ atPos ER (recvCell c k) 1 (∅ : Finset (Fin 31)) 0
              ∗ slotPts c k (commAt m ρ c))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (recvS k) rowM (slotM k) hs hd) kk) Q) := by
  iintro ⟨#HR, Hc, HO, Hat⟩ Hk
  iapply (Rounds.wp_wait_rest_token 𝒱₀ ER (rd m ρ) (c : Thread nD τ) none (κ := K (c, .recv k))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at m ρ K (c, .recv k)); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (show _ = slotPts c k (commAt m ρ c) from rest_recv m ρ c k)); iexact Hpay

/-- The wait for row `k`'s departure. The send cell of row `k` has one duty in its one round, the same credit; the wait
    comes back one round on with the share of the one-row buffer lent to that transfer, the buffer still holding the
    device's row. -/
theorem wp_send_wait_step (K : Dev nD × CellKind → ℕ) (c : Dev nD) (k : Fin 31) (W : Waits sig Unit)
    {α : Type} {Q : α → sProp 𝕄} {kk : PUnit → Prog (TpuEff nD τ sig (Elt F) Λ₀ .tc) α}
    {hs : (slotM k : Memref sig .tc .vmem S1x512 .f32).view.WordExact} {hd : (rowM : Memref sig .tc .vmem S1x512 .f32).view.WordExact} :
    iprop(records m ρ K ∗ cred (tallyAt (sendCell c k) () N) ∗ owes (c : Thread nD τ) 0 W
        ∗ atPos ER (sendCell c k) 0 (∅ : Finset (Fin 31)) 0)
      ⊢ iprop(((owes (c : Thread nD τ) 0 (insert (SemLoc.dma (sendS k), ()) W) ∗ atPos ER (sendCell c k) 1 (∅ : Finset (Fin 31)) 0
              ∗ rowPts c (sendShare k) (rowOf m ρ c))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 (sendS k) (slotM k) rowM hs hd) kk) Q) := by
  iintro ⟨#HR, Hc, HO, Hat⟩ Hk
  iapply (Rounds.wp_wait_rest_token 𝒱₀ ER (rd m ρ) (c : Thread nD τ) none (κ := K (c, .send k))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at m ρ K (c, .send k)); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (show _ = rowPts c (sendShare k) (rowOf m ρ c) from rest_send m ρ c k)); iexact Hpay

/-- After its one round a send cell has no duty left: its owner, at round 1 with nothing taken, closes it and keeps the
    counter at zero. All 31 at once. -/
theorem close_sends (K : Dev nD × CellKind → ℕ) (c : Dev nD) :
    iprop(records m ρ K ∗ bigSep Finset.univ fun k : Fin 31 => atPos ER (sendCell c k) 1 (∅ : Finset (Fin 31)) 0)
      ⊢ |={Set.univ}=> (bigSep Finset.univ fun k : Fin 31 => semVal (sendCell c k) 0 : sProp 𝕄) :=
  (bigSep_with_persistent (R := records m ρ K) fun k _ =>
      (sep_mono_left (inv_at m ρ K (c, .send k))).trans
        (Rounds.cell_close ER (rd m ρ) (κ := K (c, .send k)) (Set.mem_univ _) (fun h => h) (R := 1) (duties_later m ρ _))).trans
    (bigSep_fupd Finset.univ _)

/-- The same for the 31 receive cells. -/
theorem close_recvs (K : Dev nD × CellKind → ℕ) (c : Dev nD) :
    iprop(records m ρ K ∗ bigSep Finset.univ fun k : Fin 31 => atPos ER (recvCell c k) 1 (∅ : Finset (Fin 31)) 0)
      ⊢ |={Set.univ}=> (bigSep Finset.univ fun k : Fin 31 => semVal (recvCell c k) 0 : sProp 𝕄) :=
  (bigSep_with_persistent (R := records m ρ K) fun k _ =>
      (sep_mono_left (inv_at m ρ K (c, .recv k))).trans
        (Rounds.cell_close ER (rd m ρ) (κ := K (c, .recv k)) (Set.mem_univ _) (fun h => h) (R := 1) (duties_later m ρ _))).trans
    (bigSep_fupd Finset.univ _)

/-- info: 'Cert.KernelIdeal.Proto.wp_recv_wait_step' depends on axioms: [propext, Classical.choice, Quot.sound] -/
#guard_msgs in #print axioms wp_recv_wait_step

/-- info: 'Cert.KernelIdeal.Proto.wp_send_wait_step' depends on axioms: [propext, Classical.choice, Quot.sound] -/
#guard_msgs in #print axioms wp_send_wait_step

/-- info: 'Cert.KernelIdeal.Proto.close_sends' depends on axioms: [propext, Classical.choice, Quot.sound] -/
#guard_msgs in #print axioms close_sends

/-- info: 'Cert.KernelIdeal.Proto.close_recvs' depends on axioms: [propext, Classical.choice, Quot.sound] -/
#guard_msgs in #print axioms close_recvs

end Cert.KernelIdeal.Proto

end
-- ==== Proof.Split.lean ====
import proofs.«901007_g7700000000001008_dist_rmsnorm_colshard_i_m512_n256_v7x_i32_f32_1_alg».proof.Proof.Mem

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- A separating conjunction over the 31 rows, written out factor by factor. -/
theorem bigSep_fin31 (Φ : Fin 31 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) :=
  bigSep_univ_eq_bigSepL [0, 1, 2, 3, 4, 5, 6, 7, 8, 9, 10, 11, 12, 13, 14, 15, 16, 17, 18, 19, 20, 21, 22, 23, 24, 25, 26, 27, 28, 29, 30] (by decide) (by decide) Φ

end Cert.KernelIdeal.Proto

end
-- ==== Proof.SplitShare.lean ====
import proofs.«901007_g7700000000001008_dist_rmsnorm_colshard_i_m512_n256_v7x_i32_f32_1_alg».proof.Proof.Mem

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## One buffer held as 31 shares

The whole share is cut into its left half, the left half of its right half, and so on; after `n` cuts what
remains is `restShare n`. A points-to at the whole share is the separating conjunction of the points-tos at the
pieces cut off and at the remainder. -/

section Chain

/-- Moving a factor to the front of a separating conjunction. -/
theorem sep_rotate (A B C : sProp 𝕄) : BI.sep B (BI.sep A C) = BI.sep (BI.sep A B) C := by
  rw [Std.Commutative.comm (op := (BI.sep : sProp 𝕄 → sProp 𝕄 → sProp 𝕄)) A B]
  exact (Std.Associative.assoc (op := (BI.sep : sProp 𝕄 → sProp 𝕄 → sProp 𝕄)) B A C).symm

variable {ℓ : Loc nD τ sig} {I : Finset (Idx ℓ)} {f : Buf (Elt F) ℓ}

/-- One cut: the remainder after `n` cuts is its left half and the remainder after `n + 1`. -/
theorem pointsTo_rest_step (n : ℕ) :
    (ℓ ↦[I]{restShare n} f : sProp 𝕄) = iprop((ℓ ↦[I]{(restShare n).left} f) ∗ ℓ ↦[I]{restShare (n + 1)} f) := by
  have h : (ℓ ↦[I]{restShare n} f : sProp 𝕄) ⊣⊢ iprop((ℓ ↦[I]{(restShare n).left} f) ∗ ℓ ↦[I]{(restShare n).right} f) :=
    pointsTo_share (PosShare.mem_left_op_right (restShare n))
  exact BI.equiv_iff.mp ⟨h.1, h.2⟩

/-- `n` cuts: the whole is the `n` pieces cut off and the remainder. -/
theorem pointsTo_rest_chain (n : ℕ) :
    (ℓ ↦[I]{fullShare} f : sProp 𝕄)
      = iprop(bigSep (Finset.range n) (fun i => (ℓ ↦[I]{(restShare i).left} f : sProp 𝕄)) ∗ ℓ ↦[I]{restShare n} f) := by
  induction n with
  | zero =>
    rw [Finset.range_zero, bigSep_empty]
    exact (BI.equiv_iff.mp BI.emp_sep).symm
  | succ n ih =>
    rw [Finset.range_add_one, bigSep_insert Finset.notMem_range_self]
    conv_lhs => rw [ih, pointsTo_rest_step (ℓ := ℓ) (I := I) (f := f) n]
    exact sep_rotate _ _ _

/-- A separating conjunction over `Fin n` of a family that only looks at the value is the one over `range n`. -/
theorem bigSep_fin_val (n : ℕ) (Ψ : ℕ → sProp 𝕄) :
    bigSep (Finset.univ : Finset (Fin n)) (fun k => Ψ k.val) = bigSep (Finset.range n) Ψ := by
  have h : (Finset.univ : Finset (Fin n)).map Fin.valEmbedding = Finset.range n := by
    ext a
    rw [Finset.mem_map, Finset.mem_range]
    constructor
    · rintro ⟨i, -, rfl⟩; exact i.2
    · intro ha; exact ⟨⟨a, ha⟩, Finset.mem_univ _, rfl⟩
  rw [← h, bigSep_map]
  rfl

/-- The 31 transfer shares make up the whole: thirty pieces cut off and what remains after thirty cuts. -/
theorem pointsTo_sendShares :
    (ℓ ↦[I]{fullShare} f : sProp 𝕄) = bigSep (Finset.univ : Finset (Fin 31)) fun k => (ℓ ↦[I]{sendShare k} f : sProp 𝕄) := by
  refine Eq.trans ?_ (bigSep_fin_val 31
    (fun i : ℕ => (ℓ ↦[I]{if i < 30 then (restShare i).left else restShare 30} f : sProp 𝕄))).symm
  rw [Finset.range_add_one (n := 30), bigSep_insert Finset.notMem_range_self]
  have h30 : (ℓ ↦[I]{if 30 < 30 then (restShare 30).left else restShare 30} f : sProp 𝕄) = ℓ ↦[I]{restShare 30} f := by
    rw [if_neg (lt_irrefl 30)]
  have hlt : bigSep (Finset.range 30) (fun i : ℕ => (ℓ ↦[I]{if i < 30 then (restShare i).left else restShare 30} f : sProp 𝕄))
      = bigSep (Finset.range 30) (fun i => (ℓ ↦[I]{(restShare i).left} f : sProp 𝕄)) :=
    bigSep_congr fun i hi => by
      show (ℓ ↦[I]{if i < 30 then (restShare i).left else restShare 30} f : sProp 𝕄) = ℓ ↦[I]{(restShare i).left} f
      rw [if_pos (Finset.mem_range.mp hi)]
  show _ = BI.sep (ℓ ↦[I]{if 30 < 30 then (restShare 30).left else restShare 30} f : sProp 𝕄) _
  rw [h30, hlt, pointsTo_rest_chain (ℓ := ℓ) (I := I) (f := f) 30]
  exact Std.Commutative.comm (op := (BI.sep : sProp 𝕄 → sProp 𝕄 → sProp 𝕄)) _ _

end Chain

/-- The one-row buffer's points-to, held whole, is the 31 points-tos at the transfer shares. -/
theorem row_shares (c : Dev nD) (f : Buf (Elt F) (rowM.view.loc (c : Thread nD τ))) :
    (rowM.view.loc (c : Thread nD τ) ↦[rowM.view.set]{fullShare} f : sProp 𝕄)
      ⊣⊢ bigSep (Finset.univ : Finset (Fin 31)) fun k => (rowM.view.loc (c : Thread nD τ) ↦[rowM.view.set]{sendShare k} f) :=
  ⟨Entails.of_eq pointsTo_sendShares, Entails.of_eq pointsTo_sendShares.symm⟩

end Cert.KernelIdeal.Proto

end
-- ==== Proof.SplitRows.lean ====
import proofs.«901007_g7700000000001008_dist_rmsnorm_colshard_i_m512_n256_v7x_i32_f32_1_alg».proof.Proof.Mem

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The gather buffer held row by row -/

/-- The elements of the gather buffer under row `k`: the unit-stride rectangle of one row at offset `k`. -/
theorem slot_set (k : Fin 31) :
    (slotM k).view.set = (Rect.unit (s := S31x512) ![k.val, 0] S1x512.size (inb_slot k)).set :=
  View.set_slice_whole cc0_scratch1 _

theorem mem_slot_set (k : Fin 31) (i : S31x512.Idx) : i ∈ (slotM k).view.set ↔ (i 0).val = k.val := by
  rw [slot_set, Rect.mem_set_unit]
  constructor
  · intro h
    have h0 := h 0
    have : k.val ≤ (i 0).val ∧ (i 0).val < k.val + 1 := h0
    omega
  · intro h a
    fin_cases a
    · show k.val ≤ (i 0).val ∧ (i 0).val < k.val + 1
      omega
    · show 0 ≤ (i 1).val ∧ (i 1).val < 0 + 512
      have := (i 1).isLt
      have h512 : (i 1).val < 512 := this
      omega

/-- Different rows have no element in common. -/
theorem slot_set_disjoint {k k' : Fin 31} (h : k ≠ k') : Disjoint (slotM k).view.set (slotM k').view.set := by
  rw [Finset.disjoint_left]
  intro i hi hi'
  have e := (mem_slot_set k i).mp hi
  have e' := (mem_slot_set k' i).mp hi'
  exact h (Fin.ext (e.symm.trans e'))

/-- The 31 rows cover the buffer. -/
theorem comm_set_eq : commM.view.set = (Finset.univ : Finset (Fin 31)).biUnion fun k => (slotM k).view.set := by
  ext i
  rw [View.set_whole, Finset.mem_biUnion]
  refine ⟨fun _ => ⟨(i 0 : Fin 31), Finset.mem_univ _, (mem_slot_set _ i).mpr rfl⟩, fun _ => Finset.mem_univ _⟩

/-- A points-to over a set cut into finitely many pairwise disjoint pieces is the separating conjunction of the
    points-tos over the pieces. -/
theorem pointsTo_partition {ℓ : Loc nD τ sig} {T : Type} [Fintype T] (S : Finset (Idx ℓ)) (K : T → Finset (Idx ℓ))
    (hS : S = (Finset.univ : Finset T).biUnion K) (hd : ∀ t t', t ≠ t' → Disjoint (K t) (K t'))
    (q : PosShare TreeShare) (f : Buf (Elt F) ℓ) :
    (ℓ ↦[S]{q} f : sProp 𝕄) ⊣⊢ bigSep (Finset.univ : Finset T) fun t => (ℓ ↦[K t]{q} f : sProp 𝕄) := by
  have h : (ℓ ↦[(Finset.univ : Finset T).biUnion K]{q} f : sProp 𝕄) = bigSep (Finset.univ : Finset T) fun t => (ℓ ↦[K t]{q} f : sProp 𝕄) :=
    pointsTo_biUnion (Finset.univ : Finset T) K (fun t _ t' _ ht => hd t t' ht)
  rw [hS]
  exact ⟨Entails.of_eq h, Entails.of_eq h.symm⟩

/-- The gather buffer's points-to, held whole, is the 31 points-tos of its rows. -/
theorem comm_rows (c : Dev nD) (f : Buf (Elt F) (commM.view.loc (c : Thread nD τ))) :
    (commM.view.loc (c : Thread nD τ) ↦[commM.view.set]{fullShare} f : sProp 𝕄)
      ⊣⊢ bigSep (Finset.univ : Finset (Fin 31)) fun k => ((slotM k).view.loc (c : Thread nD τ) ↦[(slotM k).view.set]{fullShare} f) :=
  pointsTo_partition (ℓ := commM.view.loc (c : Thread nD τ)) commM.view.set (fun k : Fin 31 => (slotM k).view.set) comm_set_eq
    (fun _ _ h => slot_set_disjoint h) fullShare f

end Cert.KernelIdeal.Proto

end
-- ==== Proof.Body.lean ====
import proofs.«901007_g7700000000001008_dist_rmsnorm_colshard_i_m512_n256_v7x_i32_f32_1_alg».proof.Proof.StepsSend
import proofs.«901007_g7700000000001008_dist_rmsnorm_colshard_i_m512_n256_v7x_i32_f32_1_alg».proof.Proof.StepsWait
import proofs.«901007_g7700000000001008_dist_rmsnorm_colshard_i_m512_n256_v7x_i32_f32_1_alg».proof.Proof.Gen.KernelIdeal.Points
import proofs.«901007_g7700000000001008_dist_rmsnorm_colshard_i_m512_n256_v7x_i32_f32_1_alg».proof.Proof.Split
import proofs.«901007_g7700000000001008_dist_rmsnorm_colshard_i_m512_n256_v7x_i32_f32_1_alg».proof.Proof.SplitShare
import proofs.«901007_g7700000000001008_dist_rmsnorm_colshard_i_m512_n256_v7x_i32_f32_1_alg».proof.Proof.SplitRows
import proofs.«901007_g7700000000001008_dist_rmsnorm_colshard_i_m512_n256_v7x_i32_f32_1_alg».proof.Proof.SplitLanded

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (m : (ℓ : Loc nD τ sig) → Buf (Elt F) ℓ) (ρ : Dev nD → PrngReg)

open Lean Elab Tactic in
/-- Run a tactic block given as text. -/
def runTacStr (s : String) : TacticM Unit := do
  match Parser.runParserCategory (← getEnv) `tactic s with
  | .ok stx => evalTactic stx
  | .error e => throwError e

open Lean Elab Tactic in
/-- Open every part of the body's positional cut into its skeleton, innermost last. -/
elab "open_parts" : tactic => do
  runTacStr "simp only [cc0_body_eq_skeleton]"
  runTacStr "unfold cc0_body_skel"
  for i in (List.range 41).reverse do
    runTacStr s!"simp only [k0_part{i+1}_eq_skeleton]"
    runTacStr s!"unfold k0_part{i+1}_skel"

open Lean Elab Tactic in
/-- The 31 signals: signal `e + 1` pays duty `e` on the barrier cell of the device `e + 1` ahead with row `30 - e` of the gather buffer. -/
elab "sig_steps" : tactic => do
  for e in List.range 30 do
    runTacStr s!"(
      icases Hslots with ⟨Hs, Hslots⟩
      icases HtB with ⟨Ht, HtB⟩
      iapply (wp_sig_step m ρ K c ({e} : Fin 31) _ (sig_dev_eq_{e+1} c) {31 - e} {30 - e} rfl rfl W fcomm) $$ [HO Ht Hs]
      · isplitr; · iexact HR
        isplitl [HO]; · iexact HO
        isplitl [Ht]; · iexact Ht
        iexact Hs
      iintro HO)"
  runTacStr "(
      iapply (wp_sig_step m ρ K c (30 : Fin 31) _ (sig_dev_eq_31 c) 1 0 rfl rfl W fcomm) $$ [HO HtB Hslots]
      · isplitr; · iexact HR
        isplitl [HO]; · iexact HO
        isplitl [HtB]; · iexact HtB
        iexact Hslots
      iintro HO)"

theorem hz2 : (![0, 0] : Fin 2 → Nat) = fun _ => 0 := funext fun a => by fin_cases a <;> rfl
theorem hz1 : (![0] : Fin 1 → Nat) = fun _ => 0 := funext fun a => by fin_cases a; rfl

/-- Row `30 - k` listed at `k`: the rows of the gather buffer in the order the signals hand them over. -/
theorem slots_rev (c : Dev nD) (f : Buf (Elt F) ((commM : Memref sig .tc .vmem S31x512 .f32).view.loc (c : Thread nD τ))) :
    (commPts c f : sProp 𝕄) ⊢ bigSep (Finset.univ : Finset (Fin 31)) fun k => slotPts c (Fin.rev k) f := by
  refine (comm_rows c f).1.trans (Entails.of_eq ?_)
  exact bigSep_univ_equiv Fin.revPerm (fun k : Fin 31 => (slotPts c k f : sProp 𝕄))

abbrev rX : Rect S512x256 := Rect.unit (s := S512x256) ![0, 0] S512x256.size inb_S512x256_S512x256_0_0
abbrev rRow : Rect S1x512 := Rect.unit (s := S1x512) ![0, 0] S1x512.size inb_S1x512_S1x512_0_0
abbrev rG : Rect S256 := Rect.unit (s := S256) ![0] S256.size inb_S256_S256_0
abbrev rComm : Rect S31x512 := Rect.unit (s := S31x512) ![0, 0] S31x512.size inb_S31x512_S31x512_0_0

omit [FloatOps F] in
theorem read_x (f : (cc0_stg0_0 : Ref sig .tc).ty.Contents (Elt F)) :
    (xM : Memref sig .tc .vmem S512x256 .f32).view.readAt (Elt F) rX.toLoadRect f = f := Memref.readAt_unit_zero (Elt F) cc0_stg0_0 hz2 _ f
omit [FloatOps F] in
theorem read_g (f : (cc0_stg1_0 : Ref sig .tc).ty.Contents (Elt F)) :
    (gM : Memref sig .tc .vmem S256 .f32).view.readAt (Elt F) rG.toLoadRect f = f := Memref.readAt_unit_zero (Elt F) cc0_stg1_0 hz1 _ f
omit [FloatOps F] in
theorem read_comm (f : (cc0_scratch1 : Ref sig .tc).ty.Contents (Elt F)) :
    (commM : Memref sig .tc .vmem S31x512 .f32).view.readAt (Elt F) rComm.toLoadRect f = f := Memref.readAt_unit_zero (Elt F) cc0_scratch1 hz2 _ f
omit [FloatOps F] in
theorem write_row (f w : (cc0_scratch0 : Ref sig .tc).ty.Contents (Elt F)) :
    ((rowM : Memref sig .tc .vmem S1x512 .f32).access rRow : View sig .tc _ _ _).write (Elt F) f w Finset.univ = w :=
  Memref.write_access_unit_zero_univ (Elt F) cc0_scratch0 hz2 _ f w
omit [FloatOps F] in
theorem write_out (f w : (cc0_stg2_0 : Ref sig .tc).ty.Contents (Elt F)) :
    ((oM : Memref sig .tc .vmem S512x256 .f32).access rX : View sig .tc _ _ _).write (Elt F) f w Finset.univ = w :=
  Memref.write_access_unit_zero_univ (Elt F) cc0_stg2_0 hz2 _ f w

/-- The payloads of the barrier round in the order of the transfers: transfer `k` writes row `k` of the device `k + 1` ahead,
    whose signal paid duty `30 - k`. -/
theorem pays_fwd (c : Dev nD) :
    (bigSep Finset.univ (fun d : Fin 31 => barPay (F := F) c d) : sProp 𝕄)
      ⊢ bigSep Finset.univ (fun k : Fin 31 => iprop((∃ f, slotPts (F := F) (peer c (k.val + 1)) k f) ∗ reached ER (recvCell (peer c (k.val + 1)) k) 0)) := by
  rw [bigSep_univ_equiv Fin.revPerm (fun d : Fin 31 => barPay (F := F) c d)]
  refine bigSep_mono fun k _ => ?_
  have h1 : src c (Fin.rev k) = peer c (k.val + 1) := Fin.ext (by
    rw [src_val, peer_val]; show (c.val + (31 - (31 - (k.val + 1)))) % 32 = (c.val + (k.val + 1)) % 32; congr 2; omega)
  have h2 : Fin.rev (Fin.rev k) = k := Fin.rev_rev k
  show barPay c (Fin.rev k) ⊢ _
  unfold barPay
  rw [h1, h2]

theorem comm_join (c : Dev nD) :
    (bigSep Finset.univ (fun k : Fin 31 => slotPts (F := F) c k (commAt m ρ c)) : sProp 𝕄) ⊢ commPts c (commAt m ρ c) :=
  (comm_rows c (commAt m ρ c)).2

theorem row_split (c : Dev nD) :
    (rowPts (F := F) c fullShare (rowOf m ρ c) : sProp 𝕄) ⊢ bigSep Finset.univ (fun k : Fin 31 => rowPts (F := F) c (sendShare k) (rowOf m ρ c)) :=
  (row_shares c (rowOf m ρ c)).1

theorem row_join (c : Dev nD) :
    (bigSep Finset.univ (fun k : Fin 31 => rowPts (F := F) c (sendShare k) (rowOf m ρ c)) : sProp 𝕄) ⊢ rowPts c fullShare (rowOf m ρ c) :=
  (row_shares c (rowOf m ρ c)).2

open Lean Elab Tactic in
/-- The 31 transfers: transfer `k` lends share `k` of the one-row buffer and writes row `k` of the device `k + 1` ahead. -/
elab "send_steps" : tactic => do
  for k in List.range 31 do
    let last := k == 30
    let hp := if last then "Hpays" else "Hp"
    let hr := if last then "Hrows" else "Hr"
    let hts := if last then "HtS" else "Hts"
    let htv := if last then "HtV" else "Htv"
    let peel := if last then "skip" else "(icases Hpays with ⟨Hp, Hpays⟩; icases Hrows with ⟨Hr, Hrows⟩; icases HtS with ⟨Hts, HtS⟩; icases HtV with ⟨Htv, HtV⟩)"
    runTacStr peel
    runTacStr s!"icases {hp} with ⟨⟨%fn, Hdst⟩, -⟩"
    runTacStr s!"(
      iapply (wp_send_step m ρ K c ({k} : Fin 31) _ (cpy_dev_eq_{k+1} c) {31 - k} {30 - k} rfl rfl _ _ rfl rfl fn (insert (SemLoc.reg barS, ()) W)) $$ [{hr} Hdst HO {hts} {htv}]
      · isplitr; · iexact HR
        isplitl [{hr}]; · iexact {hr}
        isplitl [Hdst]; · iexact Hdst
        isplitl [HO]; · iexact HO
        isplitl [{hts}]; · iexact {hts}
        iexact {htv}
      iintro ⟨HcS{k}, HO⟩)"
    runTacStr "clear fn"

/-- The waits recorded so far, after `n` receive waits and `n'` send waits, as text. -/
def waitsStr (n n' : Nat) : String := Id.run do
  let mut s := "(insert (SemLoc.reg barS, ()) W)"
  for k in List.range n do
    s := s!"(insert (SemLoc.dma (recvS {k}), ()) {s})"
  for k in List.range n' do
    s := s!"(insert (SemLoc.dma (sendS {k}), ()) {s})"
  return s

open Lean Elab Tactic in
/-- The 31 waits for the landings: row `k` comes back holding its final contents. -/
elab "recv_wait_steps" : tactic => do
  for k in List.range 31 do
    let last := k == 30
    let hc := if last then "HcV" else "Hc"
    let ha := if last then "HatV" else "Ha"
    runTacStr (if last then "skip" else "(icases HcV with ⟨Hc, HcV⟩; icases HatV with ⟨Ha, HatV⟩)")
    runTacStr s!"(
      iapply (wp_recv_wait_step m ρ K c ({k} : Fin 31) {waitsStr k 0}) $$ [{hc} HO {ha}]
      · isplitr; · iexact HR
        isplitl [{hc}]; · iexact {hc}
        isplitl [HO]; · iexact HO
        iexact {ha}
      iintro ⟨HO, HaV{k}, HL{k}⟩)"

open Lean Elab Tactic in
/-- The 31 waits for the departures: share `k` of the one-row buffer comes back. -/
elab "send_wait_steps" : tactic => do
  for k in List.range 31 do
    let last := k == 30
    let ha := if last then "HatS" else "Ha"
    runTacStr (if last then "skip" else "icases HatS with ⟨Ha, HatS⟩")
    runTacStr s!"(
      iapply (wp_send_wait_step m ρ K c ({k} : Fin 31) {waitsStr 31 k}) $$ [HcS{k} HO {ha}]
      · isplitr; · iexact HR
        isplitl [HcS{k}]; · iexact HcS{k}
        isplitl [HO]; · iexact HO
        iexact {ha}
      iintro ⟨HO, HaS{k}, HRw{k}⟩)"

open Lean Elab Tactic in
/-- Close a goal `Φ 0 ∗ … ∗ Φ 30` from the 31 hypotheses `<pre>0 … <pre>30`. -/
elab "join31 " pre:ident : tactic => do
  let p := pre.getId.toString
  for k in List.range 30 do
    runTacStr s!"(isplitl [{p}{k}]; · iexact {p}{k})"
  runTacStr s!"iexact {p}30"

open Lean Elab Tactic in
/-- The waits recorded by the end of the body, as the witness of what the device still owes nothing under. -/
elab "exists_all_waits" : tactic => do
  runTacStr s!"iexists {waitsStr 31 31}"

set_option maxHeartbeats 8000000 in
set_option maxRecDepth 65536 in
theorem sound_body (K : Dev nD × CellKind → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  open_parts
  simp only [semSignalWord, semWaitWord, Prog.lift, Prog.bind_op, Prog.bind_ret, Prog.pure_eq_ret, wp_deviceId]
  unfold bodyPre ghost positions payToks
  iintro ⟨⟨⟨⟨#HR, ⟨HatB, HatS, HatV⟩, ⟨HtB, HtS, HtV⟩⟩, HcB, HcV, #Hlev, ⟨%frow, Hrow⟩, ⟨%fcomm, Hcomm⟩⟩,
    Ho, ⟨%d0, %g0, %hg0, Hx⟩, ⟨%d1, %g1, %hg1, Hg⟩, ⟨%d2, %g2, %hg2, Hout⟩⟩, Hk⟩
  have hx : g0 = xstg m ρ c := by rw [hg0]; unfold Dat.before; rw [if_pos (fetch0_0 t₀)]; rfl
  have hg : g1 = gstg m ρ c := by rw [hg1]; unfold Dat.before; rw [if_pos (fetch0_1 t₀)]; rfl
  subst hx hg
  unfold Dat.owesAt Pipeline.owesWithin
  icases Ho with ⟨%W, %hW, HO⟩
  rw [show (dats m ρ 0 c).owed t₀.castSucc = O₀ c from rfl]
  unfold O₀
  -- the gather buffer cut into its rows, in the order the signals hand them over; every family of 31 written out
  ihave Hslots := (slots_rev c fcomm) $$ Hcomm
  simp only [bigSep_fin31]
  -- the 31 signals
  sig_steps
  ihave HO := (Entails.of_eq (congrArg (fun O => (owes (c : Thread nD τ) O W : sProp 𝕄)) (show owedCpy c 31 + owedSig c 0 = owedCpy c 31 from add_zero _))) $$ HO
  -- the block of x is loaded; the row of partial sums is stored in the one-row buffer
  iapply (wp_load 𝒱₀ (c : Thread nD τ) none Set.univ (m := xM) (Finset.subset_univ _)) $$ Hx; iintro Hx
  rw [read_x]
  iapply (wp_load 𝒱₀ (c : Thread nD τ) none Set.univ (m := rowM) (by rw [View.set_whole]; exact Finset.subset_univ _)) $$ Hrow; iintro Hrow
  iapply (wp_store 𝒱₀ (c : Thread nD τ) none Set.univ (m := rowM) (r := rRow) (Mk := Finset.univ) (by rw [View.set_whole]; exact Finset.subset_univ _)) $$ Hrow; iintro Hrow
  rw [write_row, show k0_pay3 (xstg m ρ c) = rowOf m ρ c from rfl]
  -- the wait for the 31 other devices' signals: with it come the rows this device writes
  iapply (wp_bar_wait_step m ρ K c W) $$ [HcB HO HatB]
  · isplitr; · iexact HR
    isplitl [HcB]; · iexact HcB
    isplitl [HO]; · iexact HO
    isplitr; · iexact Hlev
    iexact HatB
  iintro ⟨HO, HatB, Hpays⟩
  -- the rows in the order of the transfers; the one-row buffer's 31 shares
  ihave Hpays := (pays_fwd c) $$ Hpays
  ihave Hrows := (row_split m ρ c) $$ Hrow
  simp only [bigSep_fin31]
  send_steps
  ihave HO := (Entails.of_eq (congrArg (fun O => (owes (c : Thread nD τ) O (insert (SemLoc.reg barS, ()) W) : sProp 𝕄)) (show owedCpy c 0 = 0 from rfl))) $$ HO
  -- the block of gamma is loaded
  iapply (wp_load 𝒱₀ (c : Thread nD τ) none Set.univ (m := gM) (Finset.subset_univ _)) $$ Hg; iintro Hg
  rw [read_g]
  -- the 31 landings; the gather buffer whole again, holding every other device's row
  recv_wait_steps
  ihave Hcomm := (comm_join m ρ c) $$ [HL0 HL1 HL2 HL3 HL4 HL5 HL6 HL7 HL8 HL9 HL10 HL11 HL12 HL13 HL14 HL15 HL16 HL17 HL18 HL19 HL20 HL21 HL22 HL23 HL24 HL25 HL26 HL27 HL28 HL29 HL30]
  · simp only [bigSep_fin31]
    join31 HL
  iapply (wp_load 𝒱₀ (c : Thread nD τ) none Set.univ (m := commM) (by rw [View.set_whole]; exact Finset.subset_univ _)) $$ Hcomm; iintro Hcomm
  rw [read_comm]
  -- the result block is stored
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  -- the 31 departures; the one-row buffer whole again
  send_wait_steps
  ihave Hrow := (row_join m ρ c) $$ [HRw0 HRw1 HRw2 HRw3 HRw4 HRw5 HRw6 HRw7 HRw8 HRw9 HRw10 HRw11 HRw12 HRw13 HRw14 HRw15 HRw16 HRw17 HRw18 HRw19 HRw20 HRw21 HRw22 HRw23 HRw24 HRw25 HRw26 HRw27 HRw28 HRw29 HRw30]
  · simp only [bigSep_fin31]
    join31 HRw
  -- the 62 own cells close: their counters at zero are the device's again
  imod (close_sends m ρ K c) $$ [HaS0 HaS1 HaS2 HaS3 HaS4 HaS5 HaS6 HaS7 HaS8 HaS9 HaS10 HaS11 HaS12 HaS13 HaS14 HaS15 HaS16 HaS17 HaS18 HaS19 HaS20 HaS21 HaS22 HaS23 HaS24 HaS25 HaS26 HaS27 HaS28 HaS29 HaS30] with HzS
  · isplitr; · iexact HR
    simp only [bigSep_fin31]
    join31 HaS
  imod (close_recvs m ρ K c) $$ [HaV0 HaV1 HaV2 HaV3 HaV4 HaV5 HaV6 HaV7 HaV8 HaV9 HaV10 HaV11 HaV12 HaV13 HaV14 HaV15 HaV16 HaV17 HaV18 HaV19 HaV20 HaV21 HaV22 HaV23 HaV24 HaV25 HaV26 HaV27 HaV28 HaV29 HaV30] with HzV
  · isplitr; · iexact HR
    simp only [bigSep_fin31]
    join31 HaV
  rw [wp_ret]; imodintro
  iapply Hk
  unfold bodyPost Φ₁ Dat.owesAt Pipeline.owesWithin
  rw [show (dats m ρ 0 c).owed t₀.succ = 0 from rfl]
  isplitl [Hrow Hcomm HzS HzV]
  · isplitl [Hrow]; · iexact Hrow
    isplitl [Hcomm]; · iexact Hcomm
    isplitl [HzS]; · iexact HzS
    iexact HzV
  isplitl [HO]
  · exists_all_waits
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

/-- info: 'Cert.KernelIdeal.Proto.sound_body' depends on axioms: [propext, Classical.choice, Quot.sound] -/
#guard_msgs in #print axioms sound_body

end Cert.KernelIdeal.Proto

end
-- ==== Proof.LaunchBody.lean ====
import proofs.«901007_g7700000000001008_dist_rmsnorm_colshard_i_m512_n256_v7x_i32_f32_1_alg».proof.Proof.Body

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-!
# One device's body, in the form the launch takes it

The kernel has one grid point and three staged windows: the device's block of the first argument, its block of the second,
and its result block. At that point the launch hands the body the invariant before the point, what the device owes, and each
window's staging buffer whole at what it then holds; it takes back the invariant after the point, what the device then owes,
and each staging buffer whole at what the body leaves. This module only re-associates those pieces into the body lemma's pre-
and postcondition.
-/

variable {F : FTy → Type} [FloatOps F]

local notation "𝕄" => MM F

variable (m : (ℓ : Loc nD τ sig) → Buf (Elt F) ℓ) (ρ : Dev nD → PrngReg)

omit [FloatOps F] in
/-- The three windows, one by one. -/
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
/-- Holding a whole buffer at contents `X`: the buffer at some contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the launch hands the body at the one grid point. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 8000 in
/-- The body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost m ρ c)
  unfold bodyPre' Φ₀ start
  iintro ⟨⟨⟨⟨%K, Hg⟩, Hbar, Hrecv, Hlev⟩, Hrow, Hcomm⟩, Ho, Hx, Hgm, Hout⟩
  iapply (sound_body m ρ K c fun _ => bodyPost m ρ c)
  unfold bodyPre
  isplitr []
  · isplitl [Hg Hbar Hrecv Hlev Hrow Hcomm]
    · isplitl [Hg]; · iexact Hg
      isplitl [Hbar]; · iexact Hbar
      isplitl [Hrecv]; · iexact Hrecv
      isplitl [Hlev]; · iexact Hlev
      isplitl [Hrow]; · iexact Hrow
      iexact Hcomm
    isplitl [Ho]; · iexact Ho
    isplitl [Hx]; · iexact Hx
    isplitl [Hgm]; · iexact Hgm
    iexact Hout
  · iintro H; iexact H

end Cert.KernelIdeal.Proto

end
-- ==== Proof.LaunchFund.lean ====
/-
  The launch, allocation side: the rounds' ghost state of all 32 devices minted at once and dealt out.

  Every device has 63 cells: its barrier cell, and a send and a receive cell for each of the 31 rows of its gather
  buffer. At launch one element of the rounds' algebra is owned that holds, for every cell of every device, the round
  state at counter zero, the owner's position at round 0 and the record that round 0 is reached, and one token per duty:
  31 on each barrier cell, one on each send and each receive cell. The tokens are minted grouped by the cell they sit
  on; a device's body needs them grouped by who pays: duty e of a barrier cell is paid by the device e + 1 places behind
  it, the receive duty of row k by the device k + 1 places behind. Moving e + 1 places ahead is, for each fixed e, a
  permutation of the ring, so (c, e) ↦ (c moved e + 1 ahead, e) is a bijection of devices × rows onto itself, and
  reindexing the iterated conjunction along it regroups the tokens by payer. With every cell's counter at zero (the 62
  scoped DMA semaphores of the kernel and the one unscoped barrier semaphore) each cell's invariant is allocated; all
  names gathered into one function, every device gets the persistent records of all cells, its own positions, and the
  tokens it pays with.
-/
import proofs.«901007_g7700000000001008_dist_rmsnorm_colshard_i_m512_n256_v7x_i32_f32_1_alg».proof.Proof.Sched
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (m : (ℓ : Loc nD τ sig) → Buf (Elt F) ℓ) (ρ : Dev nD → PrngReg)

/-! ## The kernel's own semaphores -/

/-- The kernel's own (scoped) semaphores, as the launch indexes them: the 31 send semaphores, then the 31 receive
    semaphores. -/
def osem : Fin 62 → SemLoc sig := fun i =>
  if h : i.val < 31 then .dma (sendS ⟨i.val, h⟩) else .dma (recvS ⟨i.val - 31, by omega⟩)

/-- They are scoped, pairwise distinct, and none is a staging semaphore. -/
theorem ownSemFacts : Pipeline.OwnSemFacts cfg0.spec osem := by decide

/-! ## The cells, and the duty tokens as minted -/

/-- A device's 63 semaphores are pairwise distinct: the barrier semaphore is a regular one, the others DMA semaphores
    numbered 3 + k (send) and 34 + k (receive) for k < 31. -/
theorem csem_injective : Function.Injective (csem : CellKind → SemLoc sig) := by
  intro a b h
  cases a with
  | bar => cases b with
    | bar => rfl
    | send k' => cases h
    | recv k' => cases h
  | send k => cases b with
    | bar => cases h
    | send k' =>
      have hv := congrArg Fin.val (SemLoc.dma.inj h)
      rw [sendS_val, sendS_val] at hv
      exact congrArg CellKind.send (Fin.ext (by omega))
    | recv k' =>
      have hv := congrArg Fin.val (SemLoc.dma.inj h)
      rw [sendS_val, recvS_val] at hv
      have := k.isLt
      omega
  | recv k => cases b with
    | bar => cases h
    | send k' =>
      have hv := congrArg Fin.val (SemLoc.dma.inj h)
      rw [recvS_val, sendS_val] at hv
      have := k'.isLt
      omega
    | recv k' =>
      have hv := congrArg Fin.val (SemLoc.dma.inj h)
      rw [recvS_val, recvS_val] at hv
      exact congrArg CellKind.recv (Fin.ext (by omega))

theorem kcell_injective : Function.Injective (kcell : Dev nD × CellKind → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- All cells of the protocol: 63 on each of the 32 devices. -/
def ringCells : Finset (GSem nD τ sig) := Finset.univ.map ⟨kcell, kcell_injective⟩

/-- A device's cells are its barrier cell, its 31 send cells and its 31 receive cells. -/
def ckEquiv : Unit ⊕ (Fin 31 ⊕ Fin 31) ≃ CellKind where
  toFun
    | .inl _ => .bar
    | .inr (.inl k) => .send k
    | .inr (.inr k) => .recv k
  invFun
    | .bar => .inl ()
    | .send k => .inr (.inl k)
    | .recv k => .inr (.inr k)
  left_inv := by rintro (_ | _ | _) <;> rfl
  right_inv := by rintro (_ | _ | _) <;> rfl

omit [FloatOps F] in
/-- A conjunction over a device's 63 cells, by family. -/
theorem bigSep_cellKind (Φ : CellKind → sProp 𝕄) :
    bigSep Finset.univ Φ
      = iprop(Φ .bar ∗ (bigSep Finset.univ fun k : Fin 31 => Φ (.send k)) ∗ bigSep Finset.univ fun k : Fin 31 => Φ (.recv k)) := by
  rw [bigSep_univ_equiv ckEquiv Φ, bigSep_univ_sum, bigSep_univ_sum, bigSep_univ_of_subsingleton ()]
  rfl

/-- The duties of a device's own cells: the 31 of its barrier cell, and one per send and per receive cell. -/
abbrev TokIx : Type := Fin 31 ⊕ (Fin 31 ⊕ Fin 31)

/-- The cell a duty sits on, and its name there. -/
def tokKind : TokIx → CellKind
  | .inl _ => .bar
  | .inr (.inl k) => .send k
  | .inr (.inr k) => .recv k
def tokDuty : TokIx → Fin 31
  | .inl e => e
  | .inr _ => 0

/-- The duty tokens as minted: (cell, round 0, duty). -/
def tokOf (ct : Dev nD × TokIx) : GSem nD τ sig × ℕ × Fin 31 := (kcell (ct.1, tokKind ct.2), 0, tokDuty ct.2)

theorem tokOf_injective : Function.Injective (tokOf : Dev nD × TokIx → GSem nD τ sig × ℕ × Fin 31) := by
  rintro ⟨c, t⟩ ⟨c', t'⟩ h
  have h1 : (c, tokKind t) = (c', tokKind t') := kcell_injective (congrArg (fun x : GSem nD τ sig × ℕ × Fin 31 => x.1) h)
  have h2 : tokDuty t = tokDuty t' := congrArg (fun x : GSem nD τ sig × ℕ × Fin 31 => x.2.2) h
  have hc : c = c' := congrArg Prod.fst h1
  have hk : tokKind t = tokKind t' := congrArg Prod.snd h1
  subst hc
  have : t = t' := by
    rcases t with e | k | k <;> rcases t' with e' | k' | k'
    · exact congrArg Sum.inl h2
    · cases hk
    · cases hk
    · cases hk
    · exact congrArg (fun k => Sum.inr (Sum.inl k)) (CellKind.send.inj hk)
    · cases hk
    · cases hk
    · cases hk
    · exact congrArg (fun k => Sum.inr (Sum.inr k)) (CellKind.recv.inj hk)
  rw [this]

def ringToks : Finset (GSem nD τ sig × ℕ × Fin 31) := Finset.univ.map ⟨tokOf, tokOf_injective⟩

/-- The launch element: the pipeline's own copy at its staging cells, and the rounds' copy at the protocol's cells and
    duty tokens. -/
def u₀ : UU :=
  (initOf (Pipeline.cells cfgs cellOf_inj) (Pipeline.launchToks cfgs cellOf_inj), initOf ringCells ringToks)

/-! ## What the launch element deals each device -/

/-- The duty tokens of device `c`'s own cells. -/
def toks (c : Dev nD) : sProp 𝕄 :=
  iprop((bigSep Finset.univ fun e : Fin 31 => dutyTok ER (barCell c) 0 e)
    ∗ (bigSep Finset.univ fun k : Fin 31 => dutyTok ER (sendCell c k) 0 (0 : Fin 31))
    ∗ (bigSep Finset.univ fun k : Fin 31 => dutyTok ER (recvCell c k) 0 (0 : Fin 31)))

/-- What the launch element deals device `c`: the round state at counter zero of each of its 63 cells, its position at
    round 0 of each and the record that round 0 is reached, and the tokens of its own cells' duties. -/
def G (c : Dev nD) : sProp 𝕄 :=
  iprop((bigSep Finset.univ fun k : CellKind => roundState ER (rd m ρ) (kcell (c, k)) 0)
    ∗ (bigSep Finset.univ fun k : CellKind => iprop(atPos ER (kcell (c, k)) 0 (∅ : Finset (Fin 31)) 0 ∗ reached ER (kcell (c, k)) 0))
    ∗ toks c)

/-- What the global step makes of it: the ghost state the device's body starts from, at some names. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) :
      bigSep ringCells Φ = bigSep Finset.univ fun c : Dev nD => bigSep Finset.univ fun k : CellKind => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero -/

theorem osem_send (k : Fin 31) : osem (Fin.castAdd 31 k) = .dma (sendS k) := by
  unfold osem; rw [dif_pos (show (Fin.castAdd 31 k).val < 31 from k.isLt)]; rfl
theorem osem_recv (k : Fin 31) : osem (Fin.natAdd 31 k) = .dma (recvS k) := by
  unfold osem
  rw [dif_neg (show ¬ (Fin.natAdd 31 k).val < 31 from Nat.not_lt.mpr (Nat.le_add_right 31 k.val))]
  exact congrArg (fun j => SemLoc.dma (recvS j)) (Fin.ext (Nat.add_sub_cancel_left 31 k.val))

omit [FloatOps F] in
/-- The kernel's own semaphores at zero: the send cells' counters and the receive cells' counters; -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 31 => semVal (sendCell c k) 0) ∗ bigSep Finset.univ fun k : Fin 31 => semVal (recvCell c k) 0) := by
  have h := bigSep_univ_equiv (finSumFinEquiv (m := 31) (n := 31)) (fun k : Fin 62 => (semVal ((c.tc : Thread nD τ), osem k) 0 : sProp 𝕄))
  rw [bigSep_univ_sum] at h
  simp only [finSumFinEquiv_apply_left, finSumFinEquiv_apply_right, osem_send, osem_recv] at h
  exact h
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellKind => semVal (kcell (c, k)) 0 : sProp 𝕄) := by
  rw [ownSems0_eq, unscopedSems0_eq, bigSep_cellKind]
  iintro ⟨⟨HS, HV⟩, HB⟩
  isplitl [HB]; · iexact HB
  isplitl [HS] <;> iassumption

/-- On one device: from its 63 counters at zero and the round states, each cell's invariant allocated at some name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CellKind => iprop(∃ κ : ℕ, cellInv ER (rd m ρ) κ (kcell (c, k))))
          ∗ (bigSep Finset.univ fun k : CellKind => iprop(atPos ER (kcell (c, k)) 0 (∅ : Finset (Fin 31)) 0 ∗ reached ER (kcell (c, k)) 0))
          ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellKind => semVal (kcell (c, k)) 0) ∗ bigSep Finset.univ fun k : CellKind => roundState ER (rd m ρ) (kcell (c, k)) 0)
      ⊢ (|={Set.univ}=> bigSep Finset.univ fun k : CellKind => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens regrouped by payer -/

/-- For each row `e`, moving `e + 1` places ahead permutes the ring (its inverse moves `e + 1` places back), so
    `(c, e) ↦ (c moved e + 1 ahead, e)` is a bijection of devices × rows onto itself. -/
def aheadEquiv : Dev nD × Fin 31 ≃ Dev nD × Fin 31 where
  toFun ce := (peer ce.1 (ce.2.val + 1), ce.2)
  invFun ce := (src ce.1 ce.2, ce.2)
  left_inv := by
    rintro ⟨c, e⟩
    show (src (peer c (e.val + 1)) e, e) = (c, e)
    rw [src_peer]
  right_inv := by
    rintro ⟨c, e⟩
    show (peer (src c e) (e.val + 1), e) = (c, e)
    rw [peer_peer_src]

omit [FloatOps F] in
/-- The tokens dealt around the ring: duty `e` of a barrier cell goes to the device `e + 1` places behind the cell's owner,
    the receive duty of row `k` to the device `k + 1` places behind; seen from the payer, it holds duty `e` of the
    barrier cell `e + 1` places ahead and the receive duty of row `k` of the device `k + 1` places ahead. The send duties stay. -/
theorem toks_around : (bigSep Finset.univ fun c : Dev nD => (toks c : sProp 𝕄)) ⊢ bigSep Finset.univ fun c : Dev nD => payToks c := by
  have hB : (bigSep Finset.univ fun c : Dev nD => bigSep Finset.univ fun e : Fin 31 => (dutyTok ER (barCell c) 0 e : sProp 𝕄))
      = bigSep Finset.univ fun c : Dev nD => bigSep Finset.univ fun e : Fin 31 => dutyTok ER (barCell (peer c (e.val + 1))) 0 e :=
    (bigSep_univ_prod (fun ce : Dev nD × Fin 31 => (dutyTok ER (barCell ce.1) 0 ce.2 : sProp 𝕄))).symm.trans
      ((bigSep_univ_equiv aheadEquiv _).trans (bigSep_univ_prod _))
  have hR : (bigSep Finset.univ fun c : Dev nD => bigSep Finset.univ fun k : Fin 31 => (dutyTok ER (recvCell c k) 0 (0 : Fin 31) : sProp 𝕄))
      = bigSep Finset.univ fun c : Dev nD => bigSep Finset.univ fun k : Fin 31 => dutyTok ER (recvCell (peer c (k.val + 1)) k) 0 (0 : Fin 31) :=
    (bigSep_univ_prod (fun ck : Dev nD × Fin 31 => (dutyTok ER (recvCell ck.1 ck.2) 0 (0 : Fin 31) : sProp 𝕄))).symm.trans
      ((bigSep_univ_equiv aheadEquiv _).trans (bigSep_univ_prod _))
  unfold toks payToks
  rw [bigSep_sep', bigSep_sep', bigSep_sep', bigSep_sep', hB, hR]

/-! ## The global step -/

theorem ghost_intro (K : Dev nD × CellKind → ℕ) (c : Dev nD) : iprop(records m ρ K ∗ positions c ∗ payToks c) ⊢ G' m ρ c := by
  unfold G' ghost
  iintro H; iexists K; iexact H

/-- All devices' allocated cells regrouped: the names gathered into one function, the records copied to every device,
    the tokens dealt around. -/
theorem regroup :
    (bigSep Finset.univ fun c : Dev nD => iprop((bigSep Finset.univ fun k : CellKind => iprop(∃ κ : ℕ, cellInv ER (rd m ρ) κ (kcell (c, k))))
          ∗ (bigSep Finset.univ fun k : CellKind => iprop(atPos ER (kcell (c, k)) 0 (∅ : Finset (Fin 31)) 0 ∗ reached ER (kcell (c, k)) 0))
          ∗ toks c) : sProp 𝕄)
      ⊢ bigSep Finset.univ (G' m ρ) := by
  rw [bigSep_sep', bigSep_sep', ← bigSep_univ_prod (fun ck : Dev nD × CellKind => iprop(∃ κ : ℕ, cellInv ER (rd m ρ) κ (kcell ck))),
    bigSep_congr (s := Finset.univ) (fun (c : Dev nD) _ => bigSep_sep' Finset.univ
      (fun k : CellKind => (atPos ER (kcell (c, k)) 0 (∅ : Finset (Fin 31)) 0 : sProp 𝕄)) (fun k => reached ER (kcell (c, k)) 0)),
    bigSep_sep', ← bigSep_univ_prod (fun ck : Dev nD × CellKind => (reached ER (kcell ck) 0 : sProp 𝕄))]
  iintro ⟨HI, ⟨Hat, #HR⟩, Htok⟩
  ihave HK := (BI.bigSep_exists_pi Finset.univ (fun (ck : Dev nD × CellKind) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ
        (fun c : Dev nD => bigSep Finset.univ fun k : CellKind => (atPos ER (kcell (c, k)) 0 (∅ : Finset (Fin 31)) 0 : sProp 𝕄)) payToks).symm).trans
      (bigSep_mono fun c _ => show _ ⊢ iprop(positions c ∗ payToks c) from Entails.of_eq (by unfold positions; rw [bigSep_cellKind])))
    isplitl [Hat]; · iexact Hat
    iexact Htk

/-- The global step: from every device's own and unscoped semaphores at zero and what the launch element dealt it, every
    device's starting ghost state. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-- The launch element split: the pipeline's copy as it stands, the rounds' copy dealt to the devices. -/
theorem hu0 : (ownU u₀ : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-- info: 'Cert.KernelIdeal.Proto.glob' depends on axioms: [propext, Classical.choice, Quot.sound] -/
#guard_msgs in #print axioms glob

/-- info: 'Cert.KernelIdeal.Proto.hu0' depends on axioms: [propext, Classical.choice, Quot.sound] -/
#guard_msgs in #print axioms hu0

/-- info: 'Cert.KernelIdeal.Proto.ownSemFacts' depends on axioms: [propext, Classical.choice, Quot.sound] -/
#guard_msgs in #print axioms ownSemFacts

end Cert.KernelIdeal.Proto

end
-- ==== Proof.LaunchRun.lean ====
import proofs.«901007_g7700000000001008_dist_rmsnorm_colshard_i_m512_n256_v7x_i32_f32_1_alg».proof.Proof.LaunchCredit
import proofs.«901007_g7700000000001008_dist_rmsnorm_colshard_i_m512_n256_v7x_i32_f32_1_alg».proof.Proof.LaunchBody
import proofs.«901007_g7700000000001008_dist_rmsnorm_colshard_i_m512_n256_v7x_i32_f32_1_alg».proof.Proof.LaunchFund
import proofs.«901007_g7700000000001008_dist_rmsnorm_colshard_i_m512_n256_v7x_i32_f32_1_alg».proof.Proof.Gen.KernelIdeal.Points

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-!
# The run

Every device's body being proved, the launch turns the 32 bodies into one run of the program: from any memory with every
semaphore counter at zero, every fair interleaving of the 32 devices terminates, nothing faults, and at the end each
windowed array holds what the write-backs of the one grid point leave in it. The two argument windows are never written
back, so each device's blocks of the arguments end as they began; the result window is written back once, whole, with
what the body left in its staging buffer: the device's result block.
-/

variable {F : FTy → Type} [FloatOps F]

local notation "𝕄" => MM F

variable (m : (ℓ : Loc nD τ sig) → Buf (Elt F) ℓ) (ρ : Dev nD → PrngReg)

/-! ## The launch's side conditions -/

theorem share_eq (c : Dev nD) (w : Fin cfg0.W) : (dats m ρ 0 c).share w = fullShare := by unfold Dat.share; split <;> rfl

omit [FloatOps F] in
/-- The one-row buffer and the gather buffer are whole buffers: a points-to through their views is one on all indices. -/
theorem rowPts_eq (c : Dev nD) (q : PosShare TreeShare) (f : Buf (Elt F) ((c : Thread nD τ).loc cc0_scratch0)) :
    rowPts c q f = (((c : Thread nD τ).loc cc0_scratch0) ↦{q} f : sProp 𝕄) := by unfold rowPts; rw [View.set_whole]
omit [FloatOps F] in
theorem commPts_eq (c : Dev nD) (f : Buf (Elt F) ((c : Thread nD τ).loc cc0_scratch1)) :
    commPts c f = (((c : Thread nD τ).loc cc0_scratch1) ↦{fullShare} f : sProp 𝕄) := by unfold commPts; rw [View.set_whole]

/-- What a device is dealt at launch gives what its body starts from: the ghost state, the credit of its barrier cell and
    of its 31 receive cells, and the level facts. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- Entering the region: the two scoped scratch buffers, whole at some contents, join the start. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩, ⟨%g, Hc⟩⟩
  isplitl [Hs]; · iexact Hs
  isplitl [Hr]
  · iexists f; rw [rowPts_eq]; iexact Hr
  · iexists g; rw [commPts_eq]; iexact Hc

/-- Leaving it: the 62 own semaphores at zero and the two scratch buffers go back. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, Hc, HzS, HzV⟩
  isplitr; · iempintro
  isplitl [HzS HzV]
  · isplitl [HzS] <;> iassumption
  isplitl [Hr]
  · iexists (rowOf m ρ c); rw [← rowPts_eq]; iexact Hr
  · iexists (commAt m ρ c); rw [← commPts_eq]; iexact Hc

/-- The pipeline's own waits are on staging semaphores, at level 0: below everything a device owes at either end of the
    one point. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr (Or.inr rfl))

/-! ## The run -/

/-- Every windowed array of every device at what the write-backs leave in it. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- At the compiled mesh of 32 devices, for any float values, from any memory with zero counters: every weakly fair
    execution of the program — the 32 kernels signalling one another's barrier semaphore, then each sending its row of
    partial sums to the 31 others — terminates, and every final state has each device's windowed arrays at the computed
    contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := hu0 m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The final arrays -/

/-- The argument windows are never written back: each device's block of `x`, and of `gamma`, ends as it began. -/
theorem finalA_x (c : Dev nD) : (dats m ρ 0 c).arrAt (0 : Fin 3) cfg0.N = m ((c : Thread nD τ).loc main_arg0) :=
  (dats (F := F) m ρ 0 c).arrAt_in (0 : Fin 3) rfl _
theorem finalA_g (c : Dev nD) : (dats m ρ 0 c).arrAt (1 : Fin 3) cfg0.N = m ((c : Thread nD τ).loc main_arg1) :=
  (dats (F := F) m ρ 0 c).arrAt_in (1 : Fin 3) rfl _

/-- The result window is written back at the one point, whole (block index 0, nothing cut): the array ends holding
    what the body left in the staging buffer. -/
theorem finalA_out (c : Dev nD) :
    (dats m ρ 0 c).arrAt (2 : Fin 3) cfg0.N = (outAt m ρ c : Buf (Elt F) ((c : Thread nD τ).loc main_v1)) := by
  rw [show cfg0.N = (t₀ : Fin cfg0.N).val + 1 from rfl, Dat.arrAt_succ, flush0_2 t₀, if_pos rfl]
  exact Memref.write_access_unit_zero_univ (Elt F) main_v1 (funext fun a => Nat.zero_mul _) _ _ _

/-- The run with its strongest post: every device's result block at its computed value, and both argument blocks
    unchanged. -/
theorem run_value : θ_run defs (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h c (2 : Fin 3)).trans (finalA_out m ρ c), (h c (0 : Fin 3)).trans (finalA_x m ρ c),
    (h c (1 : Fin 3)).trans (finalA_g m ρ c)⟩) (run_main m ρ)

/-- info: 'Cert.KernelIdeal.Proto.run_value' depends on axioms: [propext, Classical.choice, Quot.sound] -/
#guard_msgs in #print axioms run_value

end Cert.KernelIdeal.Proto

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.KAlgebraSum.lean ====
/-
  Two re-indexings of finite sums over a ring of 32 devices, each holding 256 columns of 8192.

  (1) A device's own term plus the 31 terms it gathers from the devices 31, 30, …, 1 places ahead of it
      on the ring is the sum over all 32 devices: the 31 sources are exactly the other devices, each once.
  (2) The double sum over (device, column inside the device's block) is the single sum over the 8192
      columns, column j of device d being column 256·d + j.
  Only commutativity and associativity of the addition are used.
-/
import Mathlib.Algebra.BigOperators.Group.Finset.Basic
import Mathlib.Algebra.BigOperators.Fin
import Mathlib.Data.Fintype.BigOperators
import Mathlib.Logic.Equiv.Fin.Basic

namespace Cert.KernelIdeal.KAlgebra

open scoped BigOperators

variable {M : Type*} [AddCommMonoid M]

/-- The ring sum. `σ s` is the device `31 - s` places ahead of `c` (mod 32); as `s` runs over `Fin 31` it runs
    over every device but `c`, so `c`'s term plus the `σ`-terms is the whole sum. -/
theorem ring_sum (c : Fin 32) (σ : Fin 31 → Fin 32) (hσ : ∀ s, (σ s).val = (c.val + (31 - s.val)) % 32)
    (f : Fin 32 → M) : f c + ∑ s : Fin 31, f (σ s) = ∑ d : Fin 32, f d := by
  have hrest : ∑ s : Fin 31, f (σ s) = ∑ d ∈ (Finset.univ : Finset (Fin 32)).erase c, f d := by
    refine Finset.sum_bij (fun s _ => σ s) ?_ ?_ ?_ ?_
    · intro s _
      refine Finset.mem_erase.2 ⟨fun h => ?_, Finset.mem_univ _⟩
      have h1 := congrArg Fin.val h
      rw [hσ] at h1
      have := s.isLt; have := c.isLt
      omega
    · intro s _ s' _ h
      have h1 := congrArg Fin.val h
      rw [hσ, hσ] at h1
      have := s.isLt; have := s'.isLt; have := c.isLt
      exact Fin.ext (by omega)
    · intro d hd
      have hne : d ≠ c := (Finset.mem_erase.1 hd).1
      have hv : d.val ≠ c.val := fun h => hne (Fin.ext h)
      have := d.isLt; have := c.isLt
      refine ⟨⟨31 - (d.val + 32 - c.val) % 32, by omega⟩, Finset.mem_univ _, Fin.ext ?_⟩
      rw [hσ]
      show (c.val + (31 - (31 - (d.val + 32 - c.val) % 32))) % 32 = d.val
      omega
    · intro s _; rfl
  rw [hrest]
  exact Finset.add_sum_erase _ f (Finset.mem_univ c)

/-- The double sum over a product of two finite ranges is the single sum over the range of the product's size,
    the pair `(d, j)` sitting at `j + 256·d`. -/
theorem prod_sum (g : Fin (32 * 256) → M) :
    ∑ d : Fin 32, ∑ j : Fin 256, g (finProdFinEquiv (d, j)) = ∑ k : Fin (32 * 256), g k := by
  rw [← Equiv.sum_comp finProdFinEquiv g, Fintype.sum_prod_type]

/-- The block sum: summing over the 32 blocks of 256 columns, column `j` of block `d` being column
    `256·d + j`, is summing over the 8192 columns. -/
theorem block_sum (g : Fin 8192 → M) (col : Fin 32 → Fin 256 → Fin 8192)
    (hcol : ∀ d j, (col d j).val = d.val * 256 + j.val) :
    ∑ d : Fin 32, ∑ j : Fin 256, g (col d j) = ∑ k : Fin 8192, g k := by
  refine Eq.trans ?_ (prod_sum (M := M) g)
  refine Finset.sum_congr rfl fun d _ => Finset.sum_congr rfl fun j _ => congrArg g (Fin.ext ?_)
  rw [hcol]
  show d.val * 256 + j.val = j.val + 256 * d.val
  omega

end Cert.KernelIdeal.KAlgebra
-- ==== Proof.KValuePay.lean ====
/-
  The kernel's value at one element. Each pure term of the kernel body, read at explicit coordinates over the
  extended reals: the row sums of squares of a block (as a vector and as a 1 x 512 row), the block scaled by gamma,
  and the stored product with the reciprocal root. Then the value a device stores at (r, j): its own entry times
  gamma's, times the reciprocal root of (the sum over ALL 32 devices of their row-r partial sums) · 2^-13 + epsilon —
  a device's own partial plus the 31 it gathers being the sum over the whole ring.
-/
import proofs.«901007_g7700000000001008_dist_rmsnorm_colshard_i_m512_n256_v7x_i32_f32_1_alg».proof.Proof.Peers
import proofs.«901007_g7700000000001008_dist_rmsnorm_colshard_i_m512_n256_v7x_i32_f32_1_alg».proof.Proof.LibColumn
import proofs.«901007_g7700000000001008_dist_rmsnorm_colshard_i_m512_n256_v7x_i32_f32_1_alg».proof.Proof.KAlgebraSum
import Idealize.ShloMosaic.PureOps.Ideal.Laws
import Idealize.ShloMosaic.Lib.ValueLayout
import Idealize.ShloMosaic.Lib.Pipeline.Value

noncomputable section

namespace Cert.KernelIdeal.KValue

open Cert.KernelIdeal Cert.KernelIdeal.Gen Cert.KernelIdeal.Proto
open Idealize.ShloMosaic Idealize.ShloMosaic.ValueIdx Cert.LibColumn

/-- Row `r`'s sum of squares over the 256 columns of one block. -/
def part (x : Vec Ideal S512x256 .f32) (r : Fin 512) : EReal :=
  ∑ j : Fin 256, (show EReal from x (ix2 r j)) * (show EReal from x (ix2 r j))

/-- A cast to the same shape changes nothing. -/
theorem pay1_eq (x : Vec Ideal S512x256 .f32) : k0_pay1 x = x := by
  unfold k0_pay1
  exact shapeCast_self x _

/-- Reducing a 512 x 256 array along its columns: the source index over row `r` with column `k` is `(r, k)`. -/
theorem lift_row (r : Fin 512) (k : Fin 256) :
    reduces_S512x256_S512.lift (ix1 r) k = ix2 r k := by
  funext c
  match c with
  | ⟨0, _⟩ => exact Fin.ext rfl
  | ⟨1, _⟩ => exact Fin.ext rfl

/-- Reducing a 31 x 512 array along its rows: the source index over column `r` with row `s` is `(s, r)`. -/
theorem lift_col (s : Fin 31) (r : Fin 512) :
    reduces_S31x512_S512.lift (ix1 r) s = ix2 s r := by
  funext c
  match c with
  | ⟨0, _⟩ => exact Fin.ext rfl
  | ⟨1, _⟩ => exact Fin.ext rfl

/-- The vector of row sums of squares, at `r`. -/
theorem pay2_apply (x : Vec Ideal S512x256 .f32) (r : Fin 512) : k0_pay2 x (ix1 r) = part x r := by
  unfold k0_pay2
  simp only [pay1_eq]
  refine (Ideal.multiReduction_add_single (mulf x x) _ reduces_S512x256_S512 _ _ (ix1 r)).trans ?_
  exact Finset.sum_congr rfl fun k _ =>
    congrArg (fun i => (show EReal from x i) * (show EReal from x i)) (lift_row r k)

/-- The same vector as a 1 x 512 row, at `(0, r)`. -/
theorem pay3_apply (x : Vec Ideal S512x256 .f32) (r : Fin 512) : k0_pay3 x (ix2 0 r) = part x r := by
  unfold k0_pay3
  exact (shapeCast_a_1a_apply (k0_pay2 x) _ 0 r).trans (pay2_apply x r)

/-- The block scaled by gamma along its columns, at `(r, j)`. -/
theorem pay4_apply (x : Vec Ideal S512x256 .f32) (g : Vec Ideal S256 .f32) (r : Fin 512) (j : Fin 256) :
    k0_pay4 (k0_pay1 x) g (ix2 r j) = (show EReal from x (ix2 r j)) * (show EReal from g (ix1 j)) := by
  unfold k0_pay4
  rw [pay1_eq, shapeCast_self]
  show (show EReal from x (ix2 r j)) * _ = _
  congr 1
  exact (broadcastTo_1b_ab_apply _ _ r j).trans (shapeCast_a_1a_apply g _ 0 j)

/-- The gathered 31 x 512 buffer summed along its rows, at `r`. -/
theorem gather_sum (comm : Vec Ideal S31x512 .f32) (r : Fin 512) :
    (show EReal from multiReduction (F := Ideal) .add [0] S512 comm 0x00000000#32 reduces_S31x512_S512 (.inl rfl) rfl (ix1 r))
      = ∑ s : Fin 31, (show EReal from comm (ix2 s r)) := by
  refine (Ideal.multiReduction_add_single comm _ reduces_S31x512_S512 _ _ (ix1 r)).trans ?_
  exact Finset.sum_congr rfl fun s _ => congrArg (fun i => (show EReal from comm i)) (lift_col s r)

/-- The stored value, at `(r, j)`: the scaled entry times the reciprocal root of (own partial + gathered partials) · 2^-13 + epsilon. -/
theorem pay5_apply (p : FVec Ideal S512 .f32) (v : FVec Ideal S512x256 .f32) (comm : Vec Ideal S31x512 .f32)
    (r : Fin 512) (j : Fin 256) :
    k0_pay5 p v comm (ix2 r j)
      = (show EReal from v (ix2 r j))
          * Ideal.rsqrt (((show EReal from p (ix1 r)) + ∑ s : Fin 31, (show EReal from comm (ix2 s r)))
              * Ideal.ofBits .f32 0x39000000#32 + Ideal.ofBits .f32 0x3727C5AC#32) := by
  unfold k0_pay5
  show (show EReal from v (ix2 r j)) * _ = _
  congr 1
  refine (broadcastTo_a1_ab_apply _ _ r j).trans ((shapeCast_a_a1_apply _ _ r 0).trans ?_)
  show Ideal.rsqrt (((show EReal from p (ix1 r)) + _) * Ideal.ofBits .f32 0x39000000#32 + Ideal.ofBits .f32 0x3727C5AC#32) = _
  exact congrArg (fun t : EReal => Ideal.rsqrt (((show EReal from p (ix1 r)) + t) * Ideal.ofBits .f32 0x39000000#32
    + Ideal.ofBits .f32 0x3727C5AC#32)) (gather_sum comm r)

/-- Row `s` of device `c`'s gather buffer, at column `r`: the row-`r` partial of the device `s + 1` places behind `c`. -/
theorem commOf_apply (xs : Dev nD → Vec Ideal S512x256 .f32) (c : Dev nD) (s : Fin 31) (r : Fin 512) :
    commOf xs c (ix2 s r) = part (xs (src c s)) r :=
  pay3_apply (xs (src c s)) r

/-- A device's own partial plus the 31 gathered ones is the sum of the partials of all 32 devices. -/
theorem total_eq (xs : Dev nD → Vec Ideal S512x256 .f32) (c : Dev nD) (r : Fin 512) :
    part (xs c) r + ∑ s : Fin 31, part (xs (src c s)) r = ∑ d : Dev nD, part (xs d) r :=
  KAlgebra.ring_sum c (src c) (src_val c) (fun d => part (xs d) r)

/-- What device `c` stores at `(r, j)`. -/
theorem outOf_apply (xs : Dev nD → Vec Ideal S512x256 .f32) (gs : Dev nD → Vec Ideal S256 .f32) (c : Dev nD)
    (r : Fin 512) (j : Fin 256) :
    outOf xs gs c (ix2 r j)
      = ((show EReal from xs c (ix2 r j)) * (show EReal from gs c (ix1 j)))
          * Ideal.rsqrt ((∑ d : Dev nD, part (xs d) r) * Ideal.ofBits .f32 0x39000000#32
              + Ideal.ofBits .f32 0x3727C5AC#32) := by
  unfold outOf
  rw [pay5_apply, pay4_apply, pay2_apply]
  simp only [commOf_apply]
  rw [total_eq]

end Cert.KernelIdeal.KValue

end
-- ==== Proof.KAlgebraConsts.lean ====
/-
  The three float constants the kernel and the reference spell, as the extended reals their bit patterns denote:
  2^-13 = 1/8192 (the kernel's folded reciprocal of the row length), 8192 (the reference's divisor), and
  epsilon = 10,995,116 · 2^-40 (the f32 nearest 1e-5), a positive real. The patterns are unfolded here, once.
-/
import Idealize.ShloMosaic.PureOps.Ideal

noncomputable section

namespace Cert.KernelIdeal.KAlgebra

open Idealize.ShloMosaic

/-- The pattern 0x39000000 denotes 1/8192 exactly. -/
theorem ofBits_inv8192 : Ideal.ofBits .f32 0x39000000#32 = ((1 / 8192 : ℝ) : EReal) := by
  simp [Ideal.ofBits, Ideal.ieee, -EReal.coe_mul]; norm_num

/-- The pattern 0x46000000 denotes 8192. -/
theorem ofBits_8192 : Ideal.ofBits .f32 0x46000000#32 = ((8192 : ℝ) : EReal) := by
  simp [Ideal.ofBits, Ideal.ieee, -EReal.coe_mul]; norm_num

/-- Epsilon, the real the pattern 0x3727C5AC denotes. -/
def epsR : ℝ := 10995116 * (2 : ℝ) ^ (-40 : ℤ)

/-- The pattern 0x3727C5AC denotes that real … -/
theorem ofBits_eps : Ideal.ofBits .f32 0x3727C5AC#32 = ((epsR : ℝ) : EReal) := by
  unfold epsR
  simp [Ideal.ofBits, Ideal.ieee, -EReal.coe_mul]

/-- … which is positive. -/
theorem epsR_pos : 0 < epsR := by
  unfold epsR; positivity

end Cert.KernelIdeal.KAlgebra

end
-- ==== Proof.KAlgebraScalar.lean ====
/-
  The scalar law, where finiteness is used. For a real numerator a and a real sum of squares S ≥ 0, the kernel's
  a · rsqrt(S · 2^-13 + epsilon) is the reference's a / sqrt(S / 8192 + epsilon): the argument v = S / 8192 + epsilon
  is a positive real on both sides, where the reciprocal root is 1/√v and the quotient by √v ≠ 0 is the product with
  1/√v.
-/
import proofs.«901007_g7700000000001008_dist_rmsnorm_colshard_i_m512_n256_v7x_i32_f32_1_alg».proof.Proof.KAlgebraConsts

noncomputable section

namespace Cert.KernelIdeal.KAlgebra

open Idealize.ShloMosaic

/-- The kernel's argument of the reciprocal root, for a real sum of squares: the real S/8192 + epsilon. -/
theorem kernel_arg (S : ℝ) :
    (S : EReal) * Ideal.ofBits .f32 0x39000000#32 + Ideal.ofBits .f32 0x3727C5AC#32
      = ((S * (1 / 8192) + epsR : ℝ) : EReal) := by
  rw [ofBits_inv8192, ofBits_eps, EReal.coe_add, EReal.coe_mul]

/-- The reference's argument of the root: the same real. -/
theorem ref_arg (S : ℝ) :
    Ideal.div (S : EReal) (Ideal.ofBits .f32 0x46000000#32) + Ideal.ofBits .f32 0x3727C5AC#32
      = ((S * (1 / 8192) + epsR : ℝ) : EReal) := by
  rw [ofBits_8192, ofBits_eps, Ideal.div_coe (by norm_num : (8192 : ℝ) ≠ 0), EReal.coe_add, EReal.coe_mul]

/-- At a positive real the product with the reciprocal root is the quotient by the root. -/
theorem mul_rsqrt_eq_div_sqrt (a : EReal) {v : ℝ} (hv : 0 < v) :
    a * Ideal.rsqrt (v : EReal) = Ideal.div a (Ideal.sqrt (v : EReal)) := by
  have hs : Real.sqrt v ≠ 0 := (Real.sqrt_pos.2 hv).ne'
  rw [Ideal.rsqrt_coe, if_neg (not_lt.2 hv.le), if_neg hv.ne', Ideal.sqrt_coe, if_neg (not_lt.2 hv.le),
    Ideal.div_coe hs, one_div]

/-- The scalar law. -/
theorem scalar_law (a : EReal) {S : ℝ} (hS : 0 ≤ S) :
    a * Ideal.rsqrt ((S : EReal) * Ideal.ofBits .f32 0x39000000#32 + Ideal.ofBits .f32 0x3727C5AC#32)
      = Ideal.div a (Ideal.sqrt (Ideal.div (S : EReal) (Ideal.ofBits .f32 0x46000000#32)
          + Ideal.ofBits .f32 0x3727C5AC#32)) := by
  have hv : 0 < S * (1 / 8192) + epsR := by
    have := epsR_pos
    positivity
  rw [kernel_arg, ref_arg]
  exact mul_rsqrt_eq_div_sqrt a hv

/-- A finite sum of squares of reals is a real that is not negative. -/
theorem sum_sq_real {ι : Type*} (s : Finset ι) (f : ι → EReal) (hf : ∀ i ∈ s, ∃ x : ℝ, f i = (x : EReal)) :
    ∃ S : ℝ, 0 ≤ S ∧ ∑ i ∈ s, f i * f i = (S : EReal) := by
  classical
  induction s using Finset.induction_on with
  | empty => exact ⟨0, le_refl _, by simp⟩
  | insert i s hi ih =>
    obtain ⟨S, hS, hsum⟩ := ih fun k hk => hf k (Finset.mem_insert_of_mem hk)
    obtain ⟨x, hx⟩ := hf i (Finset.mem_insert_self i s)
    refine ⟨x * x + S, add_nonneg (mul_self_nonneg x) hS, ?_⟩
    rw [Finset.sum_insert hi, hsum, hx, EReal.coe_add, EReal.coe_mul]

end Cert.KernelIdeal.KAlgebra

end
-- ==== Proof.Spec.lean ====
/-
  The reference's result as one function of the whole arrays, index by index, on the extended reals.

  For x : [512, 8192] and gamma : [8192] the reference is row-wise root-mean-square normalisation scaled by gamma:
  at (r, j) the value is (gamma j * x (r, j)) / sqrt ((sum over k of x (r, k) ^ 2) / 8192 + eps), every operation the
  exact one on the extended reals (division and square root with the ideal instance's conventions at their corners).
  The two float literals, the divisor 8192 and eps, are kept as the words that denote them; the same word stands on
  both sides of every equation this function enters, so neither is ever evaluated.
-/
import Idealize.ShloMosaic.PureOps.Ideal
import Idealize.ShloMosaic.Lib.ValueIdx

noncomputable section

open scoped BigOperators

namespace Cert.Spec

open Idealize.ShloMosaic Idealize.ShloMosaic.ValueIdx

/-- The shape of the whole array x. -/
abbrev SX : Shape := ⟨2, ![512, 8192]⟩
/-- The shape of the whole vector gamma. -/
abbrev SG : Shape := ⟨1, ![8192]⟩

/-- The sum of squares of row r of the whole array. -/
def rowSq (X : SX.Idx → EReal) (r : Fin 512) : EReal := ∑ k : Fin 8192, X (ix2 r k) * X (ix2 r k)

/-- The reference's result at an index i = (r, j):
    (gamma j * x (r, j)) / sqrt ((sum over k of x (r, k) ^ 2) / 8192 + eps). -/
def G (X : SX.Idx → EReal) (Γ : SG.Idx → EReal) : SX.Idx → EReal := fun i =>
  Ideal.div (Γ (ix1 (i 1)) * X i)
    (Ideal.sqrt (Ideal.div (rowSq X (i 0)) (Ideal.ofBits .f32 0x46000000#32) + Ideal.ofBits .f32 0x3727C5AC#32))

/-- G at an index given by its coordinates. -/
theorem G_ix2 (X : SX.Idx → EReal) (Γ : SG.Idx → EReal) (r : Fin 512) (j : Fin 8192) :
    G X Γ (ix2 r j) = Ideal.div (Γ (ix1 j) * X (ix2 r j))
      (Ideal.sqrt (Ideal.div (rowSq X r) (Ideal.ofBits .f32 0x46000000#32) + Ideal.ofBits .f32 0x3727C5AC#32)) := rfl

end Cert.Spec

end
-- ==== Proof.KValue.lean ====
/-
  The kernel's value is its block of the reference's function. With the whole arrays X : [512, 8192] and
  gamma : [8192] cut along the columns into 32 blocks, device c holding block c, what device c stores is block c
  of  (gamma j · X (r, j)) / sqrt ((∑ k, X (r, k)²) / 8192 + epsilon).

  Column j of device d's block is column 256·d + j of the whole array, so the sum over the 32 devices of their
  row-r partial sums of squares is the whole row's sum of squares; with every entry finite that sum is a real ≥ 0,
  where the kernel's product with the reciprocal root of S · 2^-13 + epsilon is the reference's quotient by the root of
  S / 8192 + epsilon.
-/
import proofs.«901007_g7700000000001008_dist_rmsnorm_colshard_i_m512_n256_v7x_i32_f32_1_alg».proof.Proof.KValuePay
import proofs.«901007_g7700000000001008_dist_rmsnorm_colshard_i_m512_n256_v7x_i32_f32_1_alg».proof.Proof.KAlgebraScalar
import proofs.«901007_g7700000000001008_dist_rmsnorm_colshard_i_m512_n256_v7x_i32_f32_1_alg».proof.Proof.Spec
import Idealize.ShloMosaic.Lib.Layout

noncomputable section

namespace Cert.KernelIdeal.KValue

open Cert.KernelIdeal Cert.KernelIdeal.Gen Cert.KernelIdeal.Proto
open Idealize.ShloMosaic Idealize.ShloMosaic.ValueIdx

/-- Column `j` of block `d`, as a column of the whole array. -/
def col (d : Fin 32) (j : Fin 256) : Fin 8192 := ⟨d.val * 256 + j.val, by have := d.isLt; have := j.isLt; omega⟩

theorem col_val (d : Fin 32) (j : Fin 256) : (col d j).val = d.val * 256 + j.val := rfl

/-- Where block `d`'s entry `(r, j)` of the array lies in the whole: row `r`, column `256·d + j`. -/
theorem idxX (h : Layout.Tiles ⟨2, ![512, 256]⟩ ⟨2, ![512, 8192]⟩ 1 32) (d : Fin 32) (r : Fin 512) (j : Fin 256) :
    h.idx d (ix2 r j) = ix2 r (col d j) := by
  funext b
  match b with
  | ⟨0, _⟩ => exact Fin.ext rfl
  | ⟨1, _⟩ => exact Fin.ext rfl

/-- Where block `d`'s entry `j` of the vector lies in the whole: at `256·d + j`. -/
theorem idxG (h : Layout.Tiles ⟨1, ![256]⟩ ⟨1, ![8192]⟩ 0 32) (d : Fin 32) (j : Fin 256) :
    h.idx d (ix1 j) = ix1 (col d j) := by
  funext b
  match b with
  | ⟨0, _⟩ => exact Fin.ext rfl

variable (X : Cert.Spec.SX.Idx → EReal) (Γ : Cert.Spec.SG.Idx → EReal)

/-- A block of the array at `(r, j)`. -/
theorem blockX_apply (d : Fin 32) (r : Fin 512) (j : Fin 256) :
    (Layout.block ⟨2, ![512, 256]⟩ ⟨2, ![512, 8192]⟩ 1 32 d X) (ix2 r j) = X (ix2 r (col d j)) :=
  congrArg X (idxX _ d r j)

/-- A block of the vector at `j`. -/
theorem blockG_apply (d : Fin 32) (j : Fin 256) :
    (Layout.block ⟨1, ![256]⟩ ⟨1, ![8192]⟩ 0 32 d Γ) (ix1 j) = Γ (ix1 (col d j)) :=
  congrArg Γ (idxG _ d j)

/-- The partials of the 32 blocks sum to the whole row's sum of squares. -/
theorem total_block (r : Fin 512) :
    ∑ d : Dev nD, part (Layout.block ⟨2, ![512, 256]⟩ ⟨2, ![512, 8192]⟩ 1 32 d X) r = Cert.Spec.rowSq X r := by
  unfold part Cert.Spec.rowSq
  simp only [blockX_apply]
  exact KAlgebra.block_sum (fun k : Fin 8192 => X (ix2 r k) * X (ix2 r k)) col col_val

/-- Every entry of a row is real when every entry of every block is. -/
theorem X_real (hX : ∀ (c' : Dev nD) i, ∃ x : ℝ, (Layout.block ⟨2, ![512, 256]⟩ ⟨2, ![512, 8192]⟩ 1 32 c' X) i = (x : EReal))
    (r : Fin 512) (k : Fin 8192) : ∃ x : ℝ, X (ix2 r k) = (x : EReal) := by
  have hk := k.isLt
  obtain ⟨x, hx⟩ := hX (⟨k.val / 256, by omega⟩ : Fin 32) (ix2 r ⟨k.val % 256, by omega⟩)
  refine ⟨x, ?_⟩
  rw [← hx, blockX_apply]
  exact congrArg (fun t => X (ix2 r t)) (Fin.ext (by rw [col_val]; show k.val = k.val / 256 * 256 + k.val % 256; omega))

/-- So a row's sum of squares is a real that is not negative. -/
theorem rowSq_real (hX : ∀ (c' : Dev nD) i, ∃ x : ℝ, (Layout.block ⟨2, ![512, 256]⟩ ⟨2, ![512, 8192]⟩ 1 32 c' X) i = (x : EReal))
    (r : Fin 512) : ∃ S : ℝ, 0 ≤ S ∧ Cert.Spec.rowSq X r = (S : EReal) :=
  KAlgebra.sum_sq_real Finset.univ (fun k : Fin 8192 => X (ix2 r k)) fun k _ => X_real X hX r k

/-- THE VALUE: what device `c` stores is block `c` of the reference's function of the whole arrays. -/
theorem out_is_block (X : Cert.Spec.SX.Idx → EReal) (Γ : Cert.Spec.SG.Idx → EReal)
    (hX : ∀ (c' : Dev nD) i, ∃ x : ℝ, (Layout.block ⟨2, ![512, 256]⟩ ⟨2, ![512, 8192]⟩ 1 32 c' X) i = (x : EReal))
    (hΓ : ∀ (c' : Dev nD) i, ∃ g : ℝ, (Layout.block ⟨1, ![256]⟩ ⟨1, ![8192]⟩ 0 32 c' Γ) i = (g : EReal)) (c : Dev nD) :
    Cert.KernelIdeal.Proto.outOf (F := Ideal) (fun c' => Layout.block ⟨2, ![512, 256]⟩ ⟨2, ![512, 8192]⟩ 1 32 c' X)
        (fun c' => Layout.block ⟨1, ![256]⟩ ⟨1, ![8192]⟩ 0 32 c' Γ) c
      = Layout.block ⟨2, ![512, 256]⟩ ⟨2, ![512, 8192]⟩ 1 32 c (Cert.Spec.G X Γ) := by
  funext i
  obtain ⟨r, j, rfl⟩ : ∃ r j, i = ix2 r j := ⟨i 0, i 1, eq_ix2 i⟩
  obtain ⟨S, hS0, hS⟩ := rowSq_real X hX r
  rw [outOf_apply, total_block, hS, blockX_apply, blockX_apply, blockG_apply, Cert.Spec.G_ix2, hS]
  refine (KAlgebra.scalar_law _ hS0).trans ?_
  rw [mul_comm (X (ix2 r (col c j)))]

end Cert.KernelIdeal.KValue

end
-- ==== Proof.PreFinite.lean ====
import proofs.«901007_g7700000000001008_dist_rmsnorm_colshard_i_m512_n256_v7x_i32_f32_1_alg».proof.Defs
import proofs.«901007_g7700000000001008_dist_rmsnorm_colshard_i_m512_n256_v7x_i32_f32_1_alg».proof.Proof.Gen.Pre_finite_inputs_Kernel
import Idealize.ShloMosaic.Lib.ReduceAll
import Idealize.ShloMosaic.Lib.ValueIdx

/-!
# From the precondition to "every input entry is a real number"

The precondition says, of each device's block `x` of the first argument and block `g` of the second, that the word
`all (|x| < +∞) ∧ all (|g| < +∞)` is 1. Over the extended reals `|t| = max t (-t)`, and the pattern `0x7F800000` is `+∞`; so
`|t| < +∞` fails exactly at `t = +∞` and `t = -∞` (where `|t| = +∞`), and holds exactly when `t` is a real number.
An `and` over all entries that is 1 had a 1 at every entry. Hence every entry of both blocks is a real number.
-/

noncomputable section

namespace Cert.KernelIdeal.PreFinite

open Idealize.ShloMosaic

/-- The shape of rank 0 has exactly one index: the function on the empty set of axes. -/
instance : Subsingleton Cert.Pre_finite_inputs_Kernel.S_.Idx := ⟨fun a b => funext fun d => d.elim0⟩

/-- An extended real `x` with `|x| < +∞` is a real number: at `x = -∞` and at `x = +∞` the absolute value `max x (-x)` is
    `+∞`, which is not below `+∞`. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  -- sign 0, exponent all ones, significand 0: the pattern of `+∞`
  have hinf : (FloatOps.ofBits (F := Ideal) .f32 0x7F800000#32 : Ideal .f32) = (⊤ : EReal) := by
    simp [FloatOps.ofBits, Ideal.ofBits, Ideal.ieee]
  rw [hinf] at h
  induction x using EReal.rec with
  | bot => simp [FloatOps.cmpf, FloatOps.hostAbsf, Ideal.cmp] at h
  | coe r => exact ⟨r, rfl⟩
  | top => simp [FloatOps.cmpf, FloatOps.hostAbsf, Ideal.cmp] at h

/-- Under the precondition, every entry of every device's block of either argument is a real number. -/
theorem finite_of_pre [Cert.Pre_finite_inputs_Kernel.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread _ _).loc Cert.KernelIdeal.main_arg0) i = (x : EReal)) ∧
    (∀ i, ∃ g : ℝ, m ((c.tc : Thread _ _).loc Cert.KernelIdeal.main_arg1) i = (g : EReal)) := by
  -- the predicate's one word, at device `c`
  have h0 := congrFun (h c) ValueIdx.ix0
  dsimp only [Cert.Pre_finite_inputs_Kernel.fn] at h0
  -- a conjunction of two words is 1 only if both are
  obtain ⟨hA, hB⟩ := IntOp.andi_eq_one.1 h0
  -- each word is an `and` over all entries of `|t| < +∞`, so the comparison holds at every entry
  exact ⟨fun i => real_of_abs_lt _ (Host.reduce_andi_all _ _ _ _ _ hA i),
         fun i => real_of_abs_lt _ (Host.reduce_andi_all _ _ _ _ _ hB i)⟩

end Cert.KernelIdeal.PreFinite

end
-- ==== Proof.RefValue.lean ====
/-
  The reference side of the certificate, at the ideal instance.

  The reference program is a list of sixteen host operations; its run ends with the result array at the operations'
  composed term of the two argument arrays. Read at an index (r, j), that term is
  (gamma j * x (r, j)) / sqrt ((0 + sum over k of x (r, k) * x (r, k)) / 8192 + eps):
  the broadcasts only re-index (the row sum is read at r, gamma at j, the scalars everywhere), the float sum over the
  second axis is the initial value, the zero word, plus the sum over the 8192 columns, and the host's quotient and
  square root are the ideal instance's division and root. That is the specification's function G of the whole arrays
  (ref_is_G); the run with its result rewritten to G (run_G) and the run with the value dropped (frame_ri) follow.
-/
import proofs.«901007_g7700000000001008_dist_rmsnorm_colshard_i_m512_n256_v7x_i32_f32_1_alg».proof.Defs
import proofs.«901007_g7700000000001008_dist_rmsnorm_colshard_i_m512_n256_v7x_i32_f32_1_alg».proof.Proof.Gen.ReferenceIdeal
import proofs.«901007_g7700000000001008_dist_rmsnorm_colshard_i_m512_n256_v7x_i32_f32_1_alg».proof.Proof.Gen.Pre_finite_inputs_ReferenceIdeal
import proofs.«901007_g7700000000001008_dist_rmsnorm_colshard_i_m512_n256_v7x_i32_f32_1_alg».proof.Proof.Gen.ReferenceIdeal.Run
import proofs.«901007_g7700000000001008_dist_rmsnorm_colshard_i_m512_n256_v7x_i32_f32_1_alg».proof.Proof.Gen.ReferenceIdeal.Read
import proofs.«901007_g7700000000001008_dist_rmsnorm_colshard_i_m512_n256_v7x_i32_f32_1_alg».proof.Proof.Spec
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- Through the two broadcasts of gamma ([8192] to [1, 8192] to [512, 8192]) the element at (r, j) reads gamma at j. -/
theorem idx_gamma (i : S512x8192.Idx) : idx_main_v8 (idx_main_v9 i) = ix1 (i 1) :=
  funext fun a => Fin.ext (by match a with | ⟨0, _⟩ => rfl)

/-- Through the broadcasts of the row statistic ([512] to [512, 1] to [512, 8192]) the element at (r, j) reads the
    row sum at r, whose k-th summand is the operand at (r, k). -/
theorem idx_row (i : S512x8192.Idx) (k : Fin 8192) :
    idx_main_v1 (idx_main_v2 (idx_main_v11 i)) k = ix2 (i 0) k :=
  funext fun a => Fin.ext (by match a with | ⟨0, _⟩ => rfl | ⟨1, _⟩ => rfl)

/-- The reference's last stage, as a function of the two argument arrays, is the specification's G. -/
theorem ref_is_G (X : (⟨S512x8192, .f32⟩ : BufTy).Contents (Elt Ideal)) (Γ : (⟨S8192, .f32⟩ : BufTy).Contents (Elt Ideal)) :
    val_main_v12 (F := Ideal) X Γ = Cert.Spec.G X Γ := by
  funext i
  rw [val_main_v12_apply, val_main_v10_apply, val_main_v9_apply, val_main_v8_apply, val_main_v11_apply,
    val_main_v7_apply, val_main_v6_apply, val_main_v4_apply, val_main_v2_apply, val_main_v1_apply,
    val_main_v3_apply, val_main_cst_0_apply, val_main_v5_apply, val_main_cst_1_apply, val_main_cst_apply]
  simp only [idx_gamma, idx_row, Ideal.hostDivf_def, Ideal.mulf_def, Ideal.addf_def,
    Ideal.hostUnary_sqrt_def, Ideal.ofBits_def, Ideal.ofBits_zero_f32, zero_add, Cert.Spec.G, Cert.Spec.rowSq]
  rfl

/-- The reference's run, from any memory with zero counters: it terminates with the result array at G of the two
    argument arrays, and the arguments unchanged. -/
theorem run_G (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v12) = Cert.Spec.G (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run Cert.ReferenceIdeal.defs _ _).mono
    (fun _ h => ⟨(h 0).1.trans ((val_main_v12_eq _ _).trans (ref_is_G _ _)), (h 0).2⟩)
    (Cert.ReferenceIdeal.Value.run (F := Ideal) m' ρ')

/-- The reference runs and leaves its argument arrays unchanged: the run with the value dropped. -/
theorem frame_ri : Cert.frame_ReferenceIdeal (hReferenceIdeal := Cert.ReferenceIdeal.Gen.facts)
    (hPre_finite_inputs_ReferenceIdeal := Cert.Pre_finite_inputs_ReferenceIdeal.Gen.facts) := fun m ρ _ =>
  (θ_run Cert.ReferenceIdeal.defs _ _).mono (fun _ h c => (h c).2) (Cert.ReferenceIdeal.Value.run (F := Ideal) m ρ)

end Cert.RefValue

end
-- ==== Proof.Claims.lean ====
import proofs.«901007_g7700000000001008_dist_rmsnorm_colshard_i_m512_n256_v7x_i32_f32_1_alg».proof.Defs
import proofs.«901007_g7700000000001008_dist_rmsnorm_colshard_i_m512_n256_v7x_i32_f32_1_alg».proof.Proof.Gen.KernelIdeal
import proofs.«901007_g7700000000001008_dist_rmsnorm_colshard_i_m512_n256_v7x_i32_f32_1_alg».proof.Proof.Gen.ReferenceIdeal
import proofs.«901007_g7700000000001008_dist_rmsnorm_colshard_i_m512_n256_v7x_i32_f32_1_alg».proof.Proof.Gen.Pre_finite_inputs_Kernel
import proofs.«901007_g7700000000001008_dist_rmsnorm_colshard_i_m512_n256_v7x_i32_f32_1_alg».proof.Proof.Gen.Pre_finite_inputs_ReferenceIdeal
import proofs.«901007_g7700000000001008_dist_rmsnorm_colshard_i_m512_n256_v7x_i32_f32_1_alg».proof.Proof.LaunchRun
import proofs.«901007_g7700000000001008_dist_rmsnorm_colshard_i_m512_n256_v7x_i32_f32_1_alg».proof.Proof.KValue
import proofs.«901007_g7700000000001008_dist_rmsnorm_colshard_i_m512_n256_v7x_i32_f32_1_alg».proof.Proof.PreFinite
import proofs.«901007_g7700000000001008_dist_rmsnorm_colshard_i_m512_n256_v7x_i32_f32_1_alg».proof.Proof.RefValue

/-!
# The claims at the ideal instance

The kernel's run on the 32 devices ends with each device's result block at its computed value and both argument blocks
unchanged; the reference's run on one device ends with its result at the specification's function `G` of the whole arrays
and its arguments unchanged. Dropping the values gives the two frames. For the equivalence: each device's argument
blocks are block `c` of the whole arrays, so what device `c` computes is a function of the blocks of the whole arrays;
the precondition makes every entry of every block a real number, and then that function is block `c` of `G` of the
whole arrays.
-/

noncomputable section

namespace Cert.Proof.Claims

open Idealize.ShloMosaic Idealize.ShloMosaic.TcCoe Idealize.SL.Sem

/-- The kernel at the ideal instance runs and leaves every device's argument blocks unchanged: its run with the value
    dropped. -/
theorem frame_pi : Cert.frame_KernelIdeal (hKernelIdeal := Cert.KernelIdeal.Gen.facts)
    (hPre_finite_inputs_Kernel := Cert.Pre_finite_inputs_Kernel.Gen.facts) := fun m ρ _ =>
  (θ_run Cert.KernelIdeal.defs _ _).mono (fun _ h c => ⟨(h c).2.1, (h c).2.2⟩) (Cert.KernelIdeal.Proto.run_value (F := Ideal) m ρ)

/-- The reference at the ideal instance runs and leaves its argument arrays unchanged. -/
theorem frame_ri : Cert.frame_ReferenceIdeal (hReferenceIdeal := Cert.ReferenceIdeal.Gen.facts)
    (hPre_finite_inputs_ReferenceIdeal := Cert.Pre_finite_inputs_ReferenceIdeal.Gen.facts) := Cert.RefValue.frame_ri

/-- The ideal reading rewrote no operation of the kernel. -/
theorem preserves : Cert.preserves_Kernel_KernelIdeal := trivial

/-- Kernel and reference agree over the extended reals: with each device holding its block of the whole arrays and every
    entry finite, each device's result block ends as its block of the reference's result. -/
theorem algebraic : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) := by
  intro m ρ m' ρ' hpre hagree
  refine ⟨Cert.Spec.G (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)), ?_, Cert.RefValue.run_G m' ρ'⟩
  -- each device's staged argument blocks — its argument arrays read whole, at offset zero — are its blocks of the whole arrays
  have hx : ∀ c' : Dev Cert.KernelIdeal.nD, Cert.KernelIdeal.Proto.xsOf m ρ c' = Layout.block ⟨2, ![512, 256]⟩ ⟨2, ![512, 8192]⟩ 1 32 c' (m' (((0 : Dev Cert.ReferenceIdeal.nD).tc : Thread Cert.ReferenceIdeal.nD Cert.ReferenceIdeal.τ).loc Cert.ReferenceIdeal.main_arg0)) := fun c' => by
    rw [← (hagree c').1]
    unfold Cert.KernelIdeal.Proto.xsOf Cert.KernelIdeal.Proto.xstg Cert.KernelIdeal.Proto.s₀
    exact Memref.read_access_unit_zero (Elt Ideal) Cert.KernelIdeal.main_arg0 (funext fun a => Nat.zero_mul _) _ _
  have hg : ∀ c' : Dev Cert.KernelIdeal.nD, Cert.KernelIdeal.Proto.gsOf m ρ c' = Layout.block ⟨1, ![256]⟩ ⟨1, ![8192]⟩ 0 32 c' (m' (((0 : Dev Cert.ReferenceIdeal.nD).tc : Thread Cert.ReferenceIdeal.nD Cert.ReferenceIdeal.τ).loc Cert.ReferenceIdeal.main_arg1)) := fun c' => by
    rw [← (hagree c').2]
    unfold Cert.KernelIdeal.Proto.gsOf Cert.KernelIdeal.Proto.gstg Cert.KernelIdeal.Proto.s₀
    exact Memref.read_access_unit_zero (Elt Ideal) Cert.KernelIdeal.main_arg1 (funext fun a => Nat.zero_mul _) _ _
  -- and every entry of every block is a real number
  have hX : ∀ (c' : Dev Cert.KernelIdeal.nD) i, ∃ x : ℝ, (Layout.block ⟨2, ![512, 256]⟩ ⟨2, ![512, 8192]⟩ 1 32 c' (m' (((0 : Dev Cert.ReferenceIdeal.nD).tc : Thread Cert.ReferenceIdeal.nD Cert.ReferenceIdeal.τ).loc Cert.ReferenceIdeal.main_arg0))) i = (x : EReal) := fun c' i => by
    have h := (Cert.KernelIdeal.PreFinite.finite_of_pre m hpre c').1 i
    rwa [(hagree c').1] at h
  have hΓ : ∀ (c' : Dev Cert.KernelIdeal.nD) i, ∃ g : ℝ, (Layout.block ⟨1, ![256]⟩ ⟨1, ![8192]⟩ 0 32 c' (m' (((0 : Dev Cert.ReferenceIdeal.nD).tc : Thread Cert.ReferenceIdeal.nD Cert.ReferenceIdeal.τ).loc Cert.ReferenceIdeal.main_arg1))) i = (g : EReal) := fun c' i => by
    have h := (Cert.KernelIdeal.PreFinite.finite_of_pre m hpre c').2 i
    rwa [(hagree c').2] at h
  refine (θ_run Cert.KernelIdeal.defs _ _).mono (fun _ h c => ⟨(h c).1.trans ?_, (h c).2.1, (h c).2.2⟩) (Cert.KernelIdeal.Proto.run_value (F := Ideal) m ρ)
  show Cert.KernelIdeal.Proto.outOf (Cert.KernelIdeal.Proto.xsOf m ρ) (Cert.KernelIdeal.Proto.gsOf m ρ) c = _
  rw [show Cert.KernelIdeal.Proto.xsOf m ρ = (fun c' => Layout.block ⟨2, ![512, 256]⟩ ⟨2, ![512, 8192]⟩ 1 32 c' (m' (((0 : Dev Cert.ReferenceIdeal.nD).tc : Thread Cert.ReferenceIdeal.nD Cert.ReferenceIdeal.τ).loc Cert.ReferenceIdeal.main_arg0))) from funext hx,
    show Cert.KernelIdeal.Proto.gsOf m ρ = (fun c' => Layout.block ⟨1, ![256]⟩ ⟨1, ![8192]⟩ 0 32 c' (m' (((0 : Dev Cert.ReferenceIdeal.nD).tc : Thread Cert.ReferenceIdeal.nD Cert.ReferenceIdeal.τ).loc Cert.ReferenceIdeal.main_arg1))) from funext hg]
  exact Cert.KernelIdeal.KValue.out_is_block (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) hX hΓ c

end Cert.Proof.Claims

end
-- ==== Proof.ClaimsBits.lean ====
/-
  The word-level frame. The printed program read at the bit-exact instance runs the same protocol as its idealization:
  every protocol module is written once, generic in the float instance, and the run it ends in says that every fair
  execution on the 32 devices terminates with each device's result block at the body's term of its argument blocks and
  both argument blocks unchanged. Dropping the value leaves the frame claim: the program runs and its arguments end as
  they began.
-/
import proofs.«901007_g7700000000001008_dist_rmsnorm_colshard_i_m512_n256_v7x_i32_f32_1_alg».proof.Defs
import proofs.«901007_g7700000000001008_dist_rmsnorm_colshard_i_m512_n256_v7x_i32_f32_1_alg».proof.Proof.Gen.Kernel
import proofs.«901007_g7700000000001008_dist_rmsnorm_colshard_i_m512_n256_v7x_i32_f32_1_alg».proof.Proof.Gen.Pre_finite_inputs_Kernel
import proofs.«901007_g7700000000001008_dist_rmsnorm_colshard_i_m512_n256_v7x_i32_f32_1_alg».proof.Proof.Bits.LaunchRun

noncomputable section

namespace Cert.ClaimsBits

open Idealize.ShloMosaic Idealize.SL.Sem

/-- The word-level program runs (terminates, no fault) and its argument arrays end unchanged: the run with the value
    dropped. -/
theorem frame_p : Cert.frame_Kernel (hKernel := Cert.Kernel.Gen.facts)
    (hPre_finite_inputs_Kernel := Cert.Pre_finite_inputs_Kernel.Gen.facts) := fun m ρ _ =>
  (θ_run _ _ _).mono (fun _ h c => ⟨(h c).2.1, (h c).2.2⟩) (Cert.Kernel.Proto.run_value (F := Bits) m ρ)

end Cert.ClaimsBits

end
-- ==== Proof.lean ====
/- The five conjuncts of the certificate, assembled.

   The kernel: 32 devices, device `c` holding columns [256 c, 256 c + 256) of `x : [512, 8192]` and of `gamma : [8192]`. Each device
   sums the squares of its block along each row, sends that row of 512 partial sums to every other device (31 remote copies out of
   one one-row buffer, each into its own row of the receiver's 31-row gather buffer), adds its own row and the 31 it received — the
   sum of squares over all 8192 columns — and stores `x · gamma · rsqrt(total · 2⁻¹³ + ε)`. The reference divides `gamma · x` by
   `sqrt(total / 8192 + ε)`.

   Protocol (modules Sched, StepsSend, StepsWait, Body and the Launch* modules; once for the idealized program, once more, by
   substituting the program's name, for the word-level one): before its first copy a device signals all 31 others' barrier
   semaphore and waits for 31 units on its own, so every receiver is inside the kernel; with each signal it hands the receiver the
   row of its gather buffer that receiver writes. A row lands on its own DMA semaphore, waited for before the gather buffer is
   read; a departure on its own DMA semaphore, waited for before the kernel ends. Levels: barrier cells below receive cells.

   Value (modules Spec, RefValue, KAlgebra*, KValue*, Claims, at the extended reals): the 31 received rows and the device's own are the
   partial sums of all 32 column blocks, so their sum is the row's full sum of squares (commutativity and associativity of +
   only); `S · 2⁻¹³ = S / 8192` exactly; and for a real sum `S ≥ 0` and `ε > 0`, `a · (S/8192 + ε)^(-1/2) = a / sqrt(S/8192 + ε)` —
   the one place the precondition (every input entry finite) is used. -/
import proofs.«901007_g7700000000001008_dist_rmsnorm_colshard_i_m512_n256_v7x_i32_f32_1_alg».proof.Defs
import proofs.«901007_g7700000000001008_dist_rmsnorm_colshard_i_m512_n256_v7x_i32_f32_1_alg».proof.Proof.Gen.Kernel
import proofs.«901007_g7700000000001008_dist_rmsnorm_colshard_i_m512_n256_v7x_i32_f32_1_alg».proof.Proof.Gen.Kernel.Skeleton
import proofs.«901007_g7700000000001008_dist_rmsnorm_colshard_i_m512_n256_v7x_i32_f32_1_alg».proof.Proof.Gen.Kernel.Launch
import proofs.«901007_g7700000000001008_dist_rmsnorm_colshard_i_m512_n256_v7x_i32_f32_1_alg».proof.Proof.Gen.Kernel.Points
import proofs.«901007_g7700000000001008_dist_rmsnorm_colshard_i_m512_n256_v7x_i32_f32_1_alg».proof.Proof.Gen.Kernel.Frame
import proofs.«901007_g7700000000001008_dist_rmsnorm_colshard_i_m512_n256_v7x_i32_f32_1_alg».proof.Proof.Gen.KernelIdeal
import proofs.«901007_g7700000000001008_dist_rmsnorm_colshard_i_m512_n256_v7x_i32_f32_1_alg».proof.Proof.Gen.KernelIdeal.Skeleton
import proofs.«901007_g7700000000001008_dist_rmsnorm_colshard_i_m512_n256_v7x_i32_f32_1_alg».proof.Proof.Gen.KernelIdeal.Launch
import proofs.«901007_g7700000000001008_dist_rmsnorm_colshard_i_m512_n256_v7x_i32_f32_1_alg».proof.Proof.Gen.KernelIdeal.Points
import proofs.«901007_g7700000000001008_dist_rmsnorm_colshard_i_m512_n256_v7x_i32_f32_1_alg».proof.Proof.Gen.KernelIdeal.Frame
import proofs.«901007_g7700000000001008_dist_rmsnorm_colshard_i_m512_n256_v7x_i32_f32_1_alg».proof.Proof.Gen.ReferenceIdeal
import proofs.«901007_g7700000000001008_dist_rmsnorm_colshard_i_m512_n256_v7x_i32_f32_1_alg».proof.Proof.Gen.Pre_finite_inputs_Kernel
import proofs.«901007_g7700000000001008_dist_rmsnorm_colshard_i_m512_n256_v7x_i32_f32_1_alg».proof.Proof.Gen.Pre_finite_inputs_ReferenceIdeal
import proofs.«901007_g7700000000001008_dist_rmsnorm_colshard_i_m512_n256_v7x_i32_f32_1_alg».proof.Proof.Claims
import proofs.«901007_g7700000000001008_dist_rmsnorm_colshard_i_m512_n256_v7x_i32_f32_1_alg».proof.Proof.ClaimsBits
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.ClaimsBits.frame_p, Cert.Proof.Claims.frame_pi, Cert.Proof.Claims.frame_ri, Cert.Proof.Claims.preserves, Cert.Proof.Claims.algebraic⟩

end Cert.Proof

end
